-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S2x800000 : Shape := ⟨2, ![2, 800000]⟩
abbrev S40x128 : Shape := ⟨2, ![40, 128]⟩
abbrev S128x256 : Shape := ⟨2, ![128, 256]⟩
abbrev S256 : Shape := ⟨1, ![256]⟩
abbrev S256x256 : Shape := ⟨2, ![256, 256]⟩
abbrev S256x10 : Shape := ⟨2, ![256, 10]⟩
abbrev S10 : Shape := ⟨1, ![10]⟩
abbrev S_ : Shape := ⟨0, ![]⟩

class Facts : Prop where
  bcast_S_S40x128 : S_.BroadcastsInDim S40x128 (![] : Fin 0 → Fin S40x128.rank)
  reducesTo_S40x128_S_d0_1 : S40x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_
  bcast_S_S50000 : S_.BroadcastsInDim S50000 (![] : Fin 0 → Fin S50000.rank)
  reducesTo_S50000_S_d0 : S50000.ReducesTo [0] S_

variable [Facts]

def fn_part2 {F : FTy → Type} [FloatOps F] (main_arg0 : IVec S50000 32) (main_arg10 : FVec F S256x10 .f32) (main_arg11 : FVec F S10 .f32) (main_v33 : IVec S_ 1) : IVec S_ 1 :=
  let main_v34 : FVec F S256x10 .f32 := Host.absf main_arg10
  let main_cst_12 : FVec F S_ .f32 := constant S_ .f32 0x7F800000#32
  let main_v35 : FVec F S256x10 .f32 := broadcastInDim S256x10 ![] bcast_S_S256x10 main_cst_12
  let main_v36 : IVec S256x10 1 := cmpf .olt main_v34 main_v35
  let main_c_13 : IVec S_ 1 := constantI S_ 1 1#1
  let main_v37 : IVec S_ 1 := (fun x v => Host.reduce IntOp.andi x v reducesTo_S256x10_S_d0_1 h_S_) main_v36 main_c_13
  let main_v38 : IVec S_ 1 := andi main_v33 main_v37
  let main_v39 : FVec F S10 .f32 := Host.absf main_arg11
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  let main_c_16 : IVec S_ 32 := constantI S_ 32 0#32
  let main_v44 : IVec S50000 32 := broadcastInDim S50000 ![] bcast_S_S50000 main_c_16
  let main_v45 : IVec S50000 1 := cmpi .sge main_arg0 main_v44
  let main_c_17 : IVec S_ 32 := constantI S_ 32 40#32
  let main_v46 : IVec S50000 32 := broadcastInDim S50000 ![] bcast_S_S50000 main_c_17
  let main_v47 : IVec S50000 1 := cmpi .slt main_arg0 main_v46
  let main_v48 : IVec S50000 1 := andi main_v45 main_v47
  let main_c_18 : IVec S_ 1 := constantI S_ 1 1#1
  let main_v49 : IVec S_ 1 := (fun x v => Host.reduce IntOp.andi x v reducesTo_S50000_S_d0 h_S_) main_v48 main_c_18
  let main_v50 : IVec S_ 1 := andi main_v43 main_v49
  main_v50

def fn_part1 {F : FTy → Type} [FloatOps F] (main_arg0 : IVec S50000 32) (main_arg7 : FVec F S256x256 .f32) (main_arg8 : FVec F S256x256 .f32) (main_arg9 : FVec F S256 .f32) (main_arg10 : FVec F S256x10 .f32) (main_arg11 : FVec F S10 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg7
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg8
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg9
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg0 main_arg10 main_arg11 main_v33

def fn {F : FTy → Type} [FloatOps F] (main_arg0 : IVec S50000 32) (main_arg1 : IVec S2x800000 32) (main_arg2 : IVec S50000 32) (main_arg3 : FVec F S40x128 .f32) (main_arg4 : FVec F S128x256 .f32) (main_arg5 : FVec F S128x256 .f32) (main_arg6 : FVec F S256 .f32) (main_arg7 : FVec F S256x256 .f32) (main_arg8 : FVec F S256x256 .f32) (main_arg9 : FVec F S256 .f32) (main_arg10 : FVec F S256x10 .f32) (main_arg11 : FVec F S10 .f32) : IVec S_ 1 :=
  let main_v0 : FVec F S40x128 .f32 := Host.absf main_arg3
  let main_cst : FVec F S_ .f32 := constant S_ .f32 0x7F800000#32
  let main_v1 : FVec F S40x128 .f32 := broadcastInDim S40x128 ![] bcast_S_S40x128 main_cst
  let main_v2 : IVec S40x128 1 := cmpf .olt main_v0 main_v1
  let main_c : IVec S_ 1 := constantI S_ 1 1#1
  let main_v3 : IVec S_ 1 := (fun x v => Host.reduce IntOp.andi x v reducesTo_S40x128_S_d0_1 h_S_) main_v2 main_c
  let main_v4 : FVec F S128x256 .f32 := Host.absf main_arg4
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg5
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg6
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg0 main_arg7 main_arg8 main_arg9 main_arg10 main_arg11 main_v13 main_v16
-- ==== Kernel.lean ====
abbrev S50000 : Shape := ⟨1, ![50000]⟩
abbrev S2x800000 : Shape := ⟨2, ![2, 800000]⟩
abbrev S40x128 : Shape := ⟨2, ![40, 128]⟩
abbrev S128x256 : Shape := ⟨2, ![128, 256]⟩
abbrev S256 : Shape := ⟨1, ![256]⟩
abbrev S256x256 : Shape := ⟨2, ![256, 256]⟩
abbrev S256x10 : Shape := ⟨2, ![256, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S256x1 : Shape := ⟨2, ![256, 1]⟩
abbrev S1x40 : Shape := ⟨2, ![1, 40]⟩
abbrev S50000x40 : Shape := ⟨2, ![50000, 40]⟩
abbrev S50000x128 : Shape := ⟨2, ![50000, 128]⟩
abbrev S2000x40 : Shape := ⟨2, ![2000, 40]⟩
abbrev S2000x128 : Shape := ⟨2, ![2000, 128]⟩
abbrev S800000x128 : Shape := ⟨2, ![800000, 128]⟩
abbrev S1x256 : Shape := ⟨2, ![1, 256]⟩
abbrev S50000x256 : Shape := ⟨2, ![50000, 256]⟩
abbrev S2000x256 : Shape := ⟨2, ![2000, 256]⟩
abbrev S800000x256 : Shape := ⟨2, ![800000, 256]⟩
abbrev S1x10 : Shape := ⟨2, ![1, 10]⟩

abbrev nBuf : Space → Nat
  | .hbm => 94
  | .vmem => 27
  | .smem => 0
  | _ => 0

abbrev bufTy : (tb : Table) → Fin (tcTables nBuf tb) → BufTy
  | .hbm, ⟨0, _⟩ => ⟨S50000, .i32⟩
  | .hbm, ⟨1, _⟩ => ⟨S2x800000, .i32⟩
  | .hbm, ⟨2, _⟩ => ⟨S50000, .i32⟩
  | .hbm, ⟨3, _⟩ => ⟨S40x128, .f32⟩
  | .hbm, ⟨4, _⟩ => ⟨S128x256, .f32⟩
  | .hbm, ⟨5, _⟩ => ⟨S128x256, .f32⟩
  | .hbm, ⟨6, _⟩ => ⟨S256, .f32⟩
  | .hbm, ⟨7, _⟩ => ⟨S256x256, .f32⟩
  | .hbm, ⟨8, _⟩ => ⟨S256x256, .f32⟩
  | .hbm, ⟨9, _⟩ => ⟨S256, .f32⟩
  | .hbm, ⟨10, _⟩ => ⟨S256x10, .f32⟩
  | .hbm, ⟨11, _⟩ => ⟨S10, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .f32⟩
  | .hbm, ⟨17, _⟩ => ⟨S800000x1, .f32⟩
  | .hbm, ⟨18, _⟩ => ⟨S_, .f32⟩
  | .hbm, ⟨19, _⟩ => ⟨S50000x1, .f32⟩
  | .hbm, ⟨20, _⟩ => ⟨S800000x1, .i32⟩
  | .hbm, ⟨21, _⟩ => ⟨S50000x1, .f32⟩
  | .hbm, ⟨22, _⟩ => ⟨S_, .f32⟩
  | .hbm, ⟨23, _⟩ => ⟨S50000x1, .f32⟩
  | .hbm, ⟨24, _⟩ => ⟨S50000x1, .f32⟩
  | .hbm, ⟨25, _⟩ => ⟨S_, .f32⟩
  | .hbm, ⟨26, _⟩ => ⟨S50000x1, .f32⟩
  | .hbm, ⟨27, _⟩ => ⟨S_, .f32⟩
  | .hbm, ⟨28, _⟩ => ⟨S256x1, .f32⟩
  | .hbm, ⟨29, _⟩ => ⟨S50000x1, .i32⟩
  | .hbm, ⟨30, _⟩ => ⟨S256x1, .f32⟩
  | .hbm, ⟨31, _⟩ => ⟨S_, .f32⟩
  | .hbm, ⟨32, _⟩ => ⟨S256x1, .f32⟩
  | .hbm, ⟨33, _⟩ => ⟨S256x1, .f32⟩
  | .hbm, ⟨34, _⟩ => ⟨S50000x1, .i32⟩
  | .hbm, ⟨35, _⟩ => ⟨S1x40, .i32⟩
  | .hbm, ⟨36, _⟩ => ⟨S50000x40, .i32⟩
  | .hbm, ⟨37, _⟩ => ⟨S50000x40, .i32⟩
  | .hbm, ⟨38, _⟩ => ⟨S50000x40, .i1⟩
  | .hbm, ⟨39, _⟩ => ⟨S50000x40, .bf16⟩
  | .hbm, ⟨40, _⟩ => ⟨S40x128, .bf16⟩
  | .hbm, ⟨41, _⟩ => ⟨S50000x128, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S50000x128, .bf16⟩
  | .hbm, ⟨58, _⟩ => ⟨S50000x128, .bf16⟩
  | .hbm, ⟨59, _⟩ => ⟨S128x256, .bf16⟩
  | .hbm, ⟨60, _⟩ => ⟨S128x256, .bf16⟩
  | .hbm, ⟨61, _⟩ => ⟨S1x256, .f32⟩
  | .hbm, ⟨62, _⟩ => ⟨S50000x256, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x256, .f32⟩
  | .hbm, ⟨72, _⟩ => ⟨S_, .f32⟩
  | .hbm, ⟨73, _⟩ => ⟨S50000x256, .f32⟩
  | .hbm, ⟨74, _⟩ => ⟨S800000x1, .i32⟩
  | .hbm, ⟨75, _⟩ => ⟨S50000x256, .f32⟩
  | .hbm, ⟨76, _⟩ => ⟨S50000x256, .f32⟩
  | .hbm, ⟨77, _⟩ => ⟨S50000x256, .f32⟩
  | .hbm, ⟨78, _⟩ => ⟨S50000x256, .bf16⟩
  | .hbm, ⟨79, _⟩ => ⟨S50000x256, .bf16⟩
  | .hbm, ⟨80, _⟩ => ⟨S256x256, .bf16⟩
  | .hbm, ⟨81, _⟩ => ⟨S256x256, .bf16⟩
  | .hbm, ⟨82, _⟩ => ⟨S1x256, .f32⟩
  | .hbm, ⟨83, _⟩ => ⟨S50000x256, .f32⟩
  | .hbm, ⟨84, _⟩ => ⟨S_, .f32⟩
  | .hbm, ⟨85, _⟩ => ⟨S256x256, .f32⟩
  | .hbm, ⟨86, _⟩ => ⟨S50000x1, .i32⟩
  | .hbm, ⟨87, _⟩ => ⟨S256x256, .f32⟩
  | .hbm, ⟨88, _⟩ => ⟨S256x256, .f32⟩
  | .hbm, ⟨89, _⟩ => ⟨S256x256, .f32⟩
  | .hbm, ⟨90, _⟩ => ⟨S256x256, .bf16⟩
  | .hbm, ⟨91, _⟩ => ⟨S256x10, .bf16⟩
  | .hbm, ⟨92, _⟩ => ⟨S1x10, .f32⟩
  | .hbm, ⟨93, _⟩ => ⟨S256x10, .f32⟩
  | .local _ .vmem, ⟨0, _⟩ => ⟨S2000x40, .bf16⟩
  | .local _ .vmem, ⟨1, _⟩ => ⟨S2000x40, .bf16⟩
  | .local _ .vmem, ⟨2, _⟩ => ⟨S40x128, .bf16⟩
  | .local _ .vmem, ⟨3, _⟩ => ⟨S2000x128, .f32⟩
  | .local _ .vmem, ⟨4, _⟩ => ⟨S2000x128, .f32⟩
  | .local _ .vmem, ⟨5, _⟩ => ⟨S2000x128, .bf16⟩
  | .local _ .vmem, ⟨6, _⟩ => ⟨S2000x128, .bf16⟩
  | .local _ .vmem, ⟨7, _⟩ => ⟨S2000x128, .bf16⟩
  | .local _ .vmem, ⟨8, _⟩ => ⟨S2000x128, .bf16⟩
  | .local _ .vmem, ⟨9, _⟩ => ⟨S128x256, .bf16⟩
  | .local _ .vmem, ⟨10, _⟩ => ⟨S128x256, .bf16⟩
  | .local _ .vmem, ⟨11, _⟩ => ⟨S1x256, .f32⟩
  | .local _ .vmem, ⟨12, _⟩ => ⟨S2000x256, .f32⟩
  | .local _ .vmem, ⟨13, _⟩ => ⟨S2000x256, .f32⟩
  | .local _ .vmem, ⟨14, _⟩ => ⟨S2000x256, .bf16⟩
  | .local _ .vmem, ⟨15, _⟩ => ⟨S2000x256, .bf16⟩
  | .local _ .vmem, ⟨16, _⟩ => ⟨S2000x256, .bf16⟩
  | .local _ .vmem, ⟨17, _⟩ => ⟨S2000x256, .bf16⟩
  | .local _ .vmem, ⟨18, _⟩ => ⟨S256x256, .bf16⟩
  | .local _ .vmem, ⟨19, _⟩ => ⟨S256x256, .bf16⟩
  | .local _ .vmem, ⟨20, _⟩ => ⟨S1x256, .f32⟩
  | .local _ .vmem, ⟨21, _⟩ => ⟨S2000x256, .f32⟩
  | .local _ .vmem, ⟨22, _⟩ => ⟨S2000x256, .f32⟩
  | .local _ .vmem, ⟨23, _⟩ => ⟨S256x256, .bf16⟩
  | .local _ .vmem, ⟨24, _⟩ => ⟨S256x10, .bf16⟩
  | .local _ .vmem, ⟨25, _⟩ => ⟨S1x10, .f32⟩
  | .local _ .vmem, ⟨26, _⟩ => ⟨S256x10, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_4 : Ref sig .tc := ⟨.hbm, 31, rfl⟩
abbrev main_v14 : Ref sig .tc := ⟨.hbm, 32, rfl⟩
abbrev main_v15 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_c : Ref sig .tc := ⟨.hbm, 42, rfl⟩
abbrev main_v19 : Ref sig .tc := ⟨.hbm, 43, rfl⟩
abbrev main_v20 : Ref sig .tc := ⟨.hbm, 44, rfl⟩
abbrev main_c_5 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_6 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_c_7 : Ref sig .tc := ⟨.hbm, 63, rfl⟩
abbrev main_v37 : Ref sig .tc := ⟨.hbm, 64, rfl⟩
abbrev main_v38 : Ref sig .tc := ⟨.hbm, 65, rfl⟩
abbrev main_c_8 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_9 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_10 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg5_1 : Ref sig .tc := ⟨.vmem, 22, rfl⟩
abbrev cc3_stg0_0 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem5_1 : DmaSem sig := 22
abbrev cc3_sem0_0 : DmaSem sig := 23
abbrev cc3_sem1_0 : DmaSem sig := 24
abbrev cc3_sem2_0 : DmaSem sig := 25
abbrev cc3_sem3_0 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x40 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S40x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S256x256 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S256x10 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x10 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000x1 : S_.BroadcastsInDim S800000x1 (![] : Fin 0 → Fin S800000x1.rank)
  bcast_S_S50000x1 : S_.BroadcastsInDim S50000x1 (![] : Fin 0 → Fin S50000x1.rank)
  bcast_S800000_S800000x1_0 : S800000.BroadcastsInDim S800000x1 (![0] : Fin 1 → Fin S800000x1.rank)
  bcast_S_S256x1 : S_.BroadcastsInDim S256x1 (![] : Fin 0 → Fin S256x1.rank)
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  bcast_S1x40_S50000x40_0_1 : S1x40.BroadcastsInDim S50000x40 (![0, 1] : Fin 2 → Fin S50000x40.rank)
  bitsLt_bf16_f32 : FTy.bits .bf16 < FTy.bits .f32
  inb_S2000x40_S2000x40_0_0 : ∀ a, (![0, 0] : Fin 2 → Nat) a + S2000x40.size a ≤ S2000x40.size a
  h_S2000x40 : 0 < S2000x40.numel
  shapeCasts_S2000x40_S2000x40 : S2000x40.ShapeCasts S2000x40
  inb_S40x128_S40x128_0_0 : ∀ a, (![0, 0] : Fin 2 → Nat) a + S40x128.size a ≤ S40x128.size a
  h_S40x128 : 0 < S40x128.numel
  shapeCasts_S40x128_S40x128 : S40x128.ShapeCasts S40x128
  inb_S2000x128_S2000x128_0_0 : ∀ a, (![0, 0] : Fin 2 → Nat) a + S2000x128.size a ≤ S2000x128.size a
  h_S2000x128 : 0 < S2000x128.numel
  bcast_S_S800000 : S_.BroadcastsInDim S800000 (![] : Fin 0 → Fin S800000.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S256_S1x256 : S256.ShapeCasts S1x256
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S_S256x256 : S_.BroadcastsInDim S256x256 (![] : Fin 0 → Fin S256x256.rank)
  bcast_S256x1_S256x256_0_1 : S256x1.BroadcastsInDim S256x256 (![0, 1] : Fin 2 → Fin S256x256.rank)
  shapeCasts_S10_S1x10 : S10.ShapeCasts S1x10
  inb_S256x10_S256x10_0_0 : ∀ a, (![0, 0] : Fin 2 → Nat) a + S256x10.size a ≤ S256x10.size a
  h_S256x10 : 0 < S256x10.numel
  shapeCasts_S256x10_S256x10 : S256x10.ShapeCasts S256x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S256x10 : S1x10.Broadcasts S256x10
  scatter_S50000x1_S800000x1_S800000x1_1_0_0_1_wf : ScatterDims.WF S50000x1 S800000x1 S800000x1 [1] [0] [0] 1
  scatter_S256x1_S50000x1_S50000x1_1_0_0_1_wf : ScatterDims.WF S256x1 S50000x1 S50000x1 [1] [0] [0] 1
  dot_S2000x40_S40x128_S2000x128_1_0_0_1_n_n_wf : DotDims.WF S2000x40 S40x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  scatter_S256x256_S50000x1_S50000x256_1_0_0_1_wf : ScatterDims.WF S256x256 S50000x1 S50000x256 [1] [0] [0] 1
  dot_S256x256_S256x10_S256x10_1_0_0_1_n_n_wf : DotDims.WF S256x256 S256x10 S256x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x40.size a ≤ S50000x40.size a
  hwx0_0 : ∀ i : grid0.Coords, EltTy.bits .bf16 = 32 ∨ (Rect.block (s := S50000x40) S2000x40.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S40x128.size a ≤ S40x128.size a
  hwx0_1 : ∀ i : grid0.Coords, EltTy.bits .bf16 = 32 ∨ (Rect.block (s := S40x128) S40x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .bf16 = 32 ∨ (Rect.block (s := S50000x128) S2000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .bf16 = 32 ∨ (Rect.block (s := S50000x128) S2000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .bf16 = 32 ∨ (Rect.block (s := S128x256) S128x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .bf16 = 32 ∨ (Rect.block (s := S128x256) S128x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .bf16 = 32 ∨ (Rect.block (s := S50000x256) S2000x256.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .bf16 = 32 ∨ (Rect.block (s := S50000x256) S2000x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .bf16 = 32 ∨ (Rect.block (s := S256x256) S256x256.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .bf16 = 32 ∨ (Rect.block (s := S256x256) S256x256.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S50000x256.size a
  hwx2_5 : ∀ i : grid2.Coords, EltTy.bits .f32 = 32 ∨ (Rect.block (s := S50000x256) S2000x256.size (cc2_transform_5 i) (hinb2_5 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S256x256.size a ≤ S256x256.size a
  hwx3_0 : ∀ i : grid3.Coords, EltTy.bits .bf16 = 32 ∨ (Rect.block (s := S256x256) S256x256.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x10.size a ≤ S256x10.size a
  hwx3_1 : ∀ i : grid3.Coords, EltTy.bits .bf16 = 32 ∨ (Rect.block (s := S256x10) S256x10.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x10.size a ≤ S1x10.size a
  hwx3_2 : ∀ i : grid3.Coords, EltTy.bits .f32 = 32 ∨ (Rect.block (s := S1x10) S1x10.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x10.size a ≤ S256x10.size a
  hwx3_3 : ∀ i : grid3.Coords, EltTy.bits .f32 = 32 ∨ (Rect.block (s := S256x10) S256x10.size (cc3_transform_3 i) (hinb3_3 i)).WholeWords (EltTy.packing .f32)

variable [Facts₀]

def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def scatter_S256x1_S50000x1_S50000x1_1_0_0_1 : ScatterDims S256x1 S50000x1 S50000x1 where
  updateWindowDims := [1]
  insertedWindowDims := [0]
  scatterDimsToOperandDims := [0]
  indexVectorDim := 1
  wf := scatter_S256x1_S50000x1_S50000x1_1_0_0_1_wf
def dot_S2000x40_S40x128_S2000x128_1_0_0_1_n_n : DotDims S2000x40 S40x128 S2000x128 where
  lhsContracting := [1]
  rhsContracting := [0]
  lhsNonContracting := [0]
  rhsNonContracting := [1]
  lhsBatch := []
  rhsBatch := []
  wf := dot_S2000x40_S40x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S256x256_S50000x1_S50000x256_1_0_0_1 : ScatterDims S256x256 S50000x1 S50000x256 where
  updateWindowDims := [1]
  insertedWindowDims := [0]
  scatterDimsToOperandDims := [0]
  indexVectorDim := 1
  wf := scatter_S256x256_S50000x1_S50000x256_1_0_0_1_wf
def dot_S256x256_S256x10_S256x10_1_0_0_1_n_n : DotDims S256x256 S256x10 S256x10 where
  lhsContracting := [1]
  rhsContracting := [0]
  lhsNonContracting := [0]
  rhsNonContracting := [1]
  lhsBatch := []
  rhsBatch := []
  wf := dot_S256x256_S256x10_S256x10_1_0_0_1_n_n_wf

abbrev win0_0 : Pipeline.Window sig grid0 :=
  Pipeline.Window.ofSpec (Memref.whole main_v16) S2000x40.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S40x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v31) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v49) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v51) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v60) S256x256.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v61) S256x10.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S1x10.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v63) S256x10.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000 : Shape := ⟨1, ![50000]⟩
abbrev S2x800000 : Shape := ⟨2, ![2, 800000]⟩
abbrev S40x128 : Shape := ⟨2, ![40, 128]⟩
abbrev S128x256 : Shape := ⟨2, ![128, 256]⟩
abbrev S256 : Shape := ⟨1, ![256]⟩
abbrev S256x256 : Shape := ⟨2, ![256, 256]⟩
abbrev S256x10 : Shape := ⟨2, ![256, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S50000x1 : Shape := ⟨2, ![50000, 1]⟩
abbrev S50000x128 : Shape := ⟨2, ![50000, 128]⟩
abbrev S800000x1 : Shape := ⟨2, ![800000, 1]⟩
abbrev S800000x128 : Shape := ⟨2, ![800000, 128]⟩
abbrev S50000x256 : Shape := ⟨2, ![50000, 256]⟩
abbrev S1x256 : Shape := ⟨2, ![1, 256]⟩
abbrev S800000x256 : Shape := ⟨2, ![800000, 256]⟩
abbrev S256x1 : Shape := ⟨2, ![256, 1]⟩
abbrev S1x10 : Shape := ⟨2, ![1, 10]⟩

abbrev nBuf : Space → Nat
  | .hbm => 110
  | .vmem => 0
  | .smem => 0
  | _ => 0

abbrev bufTy : (tb : Table) → Fin (tcTables nBuf tb) → BufTy
  | .hbm, ⟨0, _⟩ => ⟨S50000, .i32⟩
  | .hbm, ⟨1, _⟩ => ⟨S2x800000, .i32⟩
  | .hbm, ⟨2, _⟩ => ⟨S50000, .i32⟩
  | .hbm, ⟨3, _⟩ => ⟨S40x128, .f32⟩
  | .hbm, ⟨4, _⟩ => ⟨S128x256, .f32⟩
  | .hbm, ⟨5, _⟩ => ⟨S128x256, .f32⟩
  | .hbm, ⟨6, _⟩ => ⟨S256, .f32⟩
  | .hbm, ⟨7, _⟩ => ⟨S256x256, .f32⟩
  | .hbm, ⟨8, _⟩ => ⟨S256x256, .f32⟩
  | .hbm, ⟨9, _⟩ => ⟨S256, .f32⟩
  | .hbm, ⟨10, _⟩ => ⟨S256x10, .f32⟩
  | .hbm, ⟨11, _⟩ => ⟨S10, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S50000, .i32⟩
  | .hbm, ⟨18, _⟩ => ⟨S50000, .i1⟩
  | .hbm, ⟨19, _⟩ => ⟨S_, .i32⟩
  | .hbm, ⟨20, _⟩ => ⟨S50000, .i32⟩
  | .hbm, ⟨21, _⟩ => ⟨S50000, .i32⟩
  | .hbm, ⟨22, _⟩ => ⟨S50000, .i32⟩
  | .hbm, ⟨23, _⟩ => ⟨S50000x1, .i32⟩
  | .hbm, ⟨24, _⟩ => ⟨S50000x128, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S_, .f32⟩
  | .hbm, ⟨39, _⟩ => ⟨S800000x1, .f32⟩
  | .hbm, ⟨40, _⟩ => ⟨S_, .f32⟩
  | .hbm, ⟨41, _⟩ => ⟨S50000x1, .f32⟩
  | .hbm, ⟨42, _⟩ => ⟨S800000x1, .i32⟩
  | .hbm, ⟨43, _⟩ => ⟨S50000x1, .f32⟩
  | .hbm, ⟨44, _⟩ => ⟨S_, .f32⟩
  | .hbm, ⟨45, _⟩ => ⟨S50000x1, .f32⟩
  | .hbm, ⟨46, _⟩ => ⟨S50000x1, .f32⟩
  | .hbm, ⟨47, _⟩ => ⟨S50000x128, .f32⟩
  | .hbm, ⟨48, _⟩ => ⟨S50000x128, .f32⟩
  | .hbm, ⟨49, _⟩ => ⟨S50000x256, .f32⟩
  | .hbm, ⟨50, _⟩ => ⟨S50000x256, .f32⟩
  | .hbm, ⟨51, _⟩ => ⟨S50000x256, .f32⟩
  | .hbm, ⟨52, _⟩ => ⟨S1x256, .f32⟩
  | .hbm, ⟨53, _⟩ => ⟨S50000x256, .f32⟩
  | .hbm, ⟨54, _⟩ => ⟨S50000x256, .f32⟩
  | .hbm, ⟨55, _⟩ => ⟨S_, .f32⟩
  | .hbm, ⟨56, _⟩ => ⟨S50000x256, .f32⟩
  | .hbm, ⟨57, _⟩ => ⟨S50000x256, .f32⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S800000x256, .f32⟩
  | .hbm, ⟨67, _⟩ => ⟨S_, .f32⟩
  | .hbm, ⟨68, _⟩ => ⟨S50000x256, .f32⟩
  | .hbm, ⟨69, _⟩ => ⟨S800000x1, .i32⟩
  | .hbm, ⟨70, _⟩ => ⟨S50000x256, .f32⟩
  | .hbm, ⟨71, _⟩ => ⟨S_, .f32⟩
  | .hbm, ⟨72, _⟩ => ⟨S800000x1, .f32⟩
  | .hbm, ⟨73, _⟩ => ⟨S_, .f32⟩
  | .hbm, ⟨74, _⟩ => ⟨S50000x1, .f32⟩
  | .hbm, ⟨75, _⟩ => ⟨S800000x1, .i32⟩
  | .hbm, ⟨76, _⟩ => ⟨S50000x1, .f32⟩
  | .hbm, ⟨77, _⟩ => ⟨S_, .f32⟩
  | .hbm, ⟨78, _⟩ => ⟨S50000x1, .f32⟩
  | .hbm, ⟨79, _⟩ => ⟨S50000x1, .f32⟩
  | .hbm, ⟨80, _⟩ => ⟨S50000x256, .f32⟩
  | .hbm, ⟨81, _⟩ => ⟨S50000x256, .f32⟩
  | .hbm, ⟨82, _⟩ => ⟨S50000x256, .f32⟩
  | .hbm, ⟨83, _⟩ => ⟨S50000x256, .f32⟩
  | .hbm, ⟨84, _⟩ => ⟨S50000x256, .f32⟩
  | .hbm, ⟨85, _⟩ => ⟨S1x256, .f32⟩
  | .hbm, ⟨86, _⟩ => ⟨S50000x256, .f32⟩
  | .hbm, ⟨87, _⟩ => ⟨S50000x256, .f32⟩
  | .hbm, ⟨88, _⟩ => ⟨S_, .f32⟩
  | .hbm, ⟨89, _⟩ => ⟨S50000x256, .f32⟩
  | .hbm, ⟨90, _⟩ => ⟨S50000x256, .f32⟩
  | .hbm, ⟨91, _⟩ => ⟨S_, .f32⟩
  | .hbm, ⟨92, _⟩ => ⟨S256x256, .f32⟩
  | .hbm, ⟨93, _⟩ => ⟨S50000x1, .i32⟩
  | .hbm, ⟨94, _⟩ => ⟨S256x256, .f32⟩
  | .hbm, ⟨95, _⟩ => ⟨S_, .f32⟩
  | .hbm, ⟨96, _⟩ => ⟨S50000x1, .f32⟩
  | .hbm, ⟨97, _⟩ => ⟨S_, .f32⟩
  | .hbm, ⟨98, _⟩ => ⟨S256x1, .f32⟩
  | .hbm, ⟨99, _⟩ => ⟨S50000x1, .i32⟩
  | .hbm, ⟨100, _⟩ => ⟨S256x1, .f32⟩
  | .hbm, ⟨101, _⟩ => ⟨S_, .f32⟩
  | .hbm, ⟨102, _⟩ => ⟨S256x1, .f32⟩
  | .hbm, ⟨103, _⟩ => ⟨S256x1, .f32⟩
  | .hbm, ⟨104, _⟩ => ⟨S256x256, .f32⟩
  | .hbm, ⟨105, _⟩ => ⟨S256x256, .f32⟩
  | .hbm, ⟨106, _⟩ => ⟨S256x10, .f32⟩
  | .hbm, ⟨107, _⟩ => ⟨S1x10, .f32⟩
  | .hbm, ⟨108, _⟩ => ⟨S256x10, .f32⟩
  | .hbm, ⟨109, _⟩ => ⟨S256x10, .f32⟩
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_call0_cst : Ref sig .tc := ⟨.hbm, 55, rfl⟩
abbrev main_call0_v0 : Ref sig .tc := ⟨.hbm, 56, rfl⟩
abbrev main_v35 : Ref sig .tc := ⟨.hbm, 57, rfl⟩
abbrev main_c_6 : Ref sig .tc := ⟨.hbm, 58, rfl⟩
abbrev main_v36 : Ref sig .tc := ⟨.hbm, 59, rfl⟩
abbrev main_v37 : Ref sig .tc := ⟨.hbm, 60, rfl⟩
abbrev main_c_7 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_9 : Ref sig .tc := ⟨.hbm, 71, rfl⟩
abbrev main_v46 : Ref sig .tc := ⟨.hbm, 72, rfl⟩
abbrev main_cst_10 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_11 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_call1_cst : Ref sig .tc := ⟨.hbm, 88, rfl⟩
abbrev main_call1_v0 : Ref sig .tc := ⟨.hbm, 89, rfl⟩
abbrev main_v60 : Ref sig .tc := ⟨.hbm, 90, rfl⟩
abbrev main_cst_12 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_13 : Ref sig .tc := ⟨.hbm, 95, rfl⟩
abbrev main_v64 : Ref sig .tc := ⟨.hbm, 96, rfl⟩
abbrev main_cst_14 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_15 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S50000_S50000x1_0 : S50000.BroadcastsInDim S50000x1 (![0] : Fin 1 → Fin S50000x1.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S_S256x256 : S_.BroadcastsInDim S256x256 (![] : Fin 0 → Fin S256x256.rank)
  bcast_S_S256x1 : S_.BroadcastsInDim S256x1 (![] : Fin 0 → Fin S256x1.rank)
  bcast_S256x1_S256x256_0_1 : S256x1.BroadcastsInDim S256x256 (![0, 1] : Fin 2 → Fin S256x256.rank)
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  gather_S40x128_S50000x1_S50000x128_1_0_n_n_0_1_1128_wf : GatherDims.WF S40x128 S50000x1 S50000x128 [1] [0] [] [0] [] 1 ![1, 128]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  scatter_S256x256_S50000x1_S50000x256_1_0_0_1_wf : ScatterDims.WF S256x256 S50000x1 S50000x256 [1] [0] [0] 1
  scatter_S256x1_S50000x1_S50000x1_1_0_0_1_wf : ScatterDims.WF S256x1 S50000x1 S50000x1 [1] [0] [0] 1
  dot_S256x256_S256x10_S256x10_1_0_0_1_n_n_wf : DotDims.WF S256x256 S256x10 S256x10 [1] [0] [0] [1] [] []

variable [Facts₀]

def gather_S40x128_S50000x1_S50000x128_1_0_n_n_0_1_1128 : GatherDims S40x128 S50000x1 S50000x128 where
  offsetDims := [1]
  collapsedSliceDims := [0]
  operandBatchingDims := []
  startIndicesBatchingDims := []
  startIndexMap := [0]
  indexVectorDim := 1
  sliceSizes := ![1, 128]
  wf := gather_S40x128_S50000x1_S50000x128_1_0_n_n_0_1_1128_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S256x256_S50000x1_S50000x256_1_0_0_1 : ScatterDims S256x256 S50000x1 S50000x256 where
  updateWindowDims := [1]
  insertedWindowDims := [0]
  scatterDimsToOperandDims := [0]
  indexVectorDim := 1
  wf := scatter_S256x256_S50000x1_S50000x256_1_0_0_1_wf
def scatter_S256x1_S50000x1_S50000x1_1_0_0_1 : ScatterDims S256x1 S50000x1 S50000x1 where
  updateWindowDims := [1]
  insertedWindowDims := [0]
  scatterDimsToOperandDims := [0]
  indexVectorDim := 1
  wf := scatter_S256x1_S50000x1_S50000x1_1_0_0_1_wf
def dot_S256x256_S256x10_S256x10_1_0_0_1_n_n : DotDims S256x256 S256x10 S256x10 where
  lhsContracting := [1]
  rhsContracting := [0]
  lhsNonContracting := [0]
  rhsNonContracting := [1]
  lhsBatch := []
  rhsBatch := []
  wf := dot_S256x256_S256x10_S256x10_1_0_0_1_n_n_wf

class Facts : Prop extends Facts₀ where

variable [Facts]
-- ==== Proof.Terms.lean ====
import proofs.«406964_j88648124990131_1_alg».proof.Proof.Gen.KernelIdeal
import Idealize.ShloMosaic.PureOps.Ideal

/-!
The host-side operations of the program, named: what it applies to the integer inputs and to each layer's
features between its four dense products. Each is the composition the program's own text applies, over the
program's own dimension records, for any float values.
-/

set_option maxRecDepth 16384

noncomputable section

namespace Cert.KernelIdeal.Terms

open Cert.KernelIdeal Cert.KernelIdeal.Facts₀ Idealize.ShloMosaic

variable {F : FTy → Type} [FloatOps F]

/-- Row `r` of the one-hot array of a vector of indices: 1 at column `x r`, 0 elsewhere (all 0 when `x r` is no column). -/
def onehot (x : IVec S50000 32) : FVec F S50000x40 .bf16 :=
  uitofp .bf16 (cmpi .eq (broadcastInDim S50000x40 ![0, 1] bcast_S50000x1_S50000x40_0_1 (broadcastInDim S50000x1 ![0] bcast_S50000_S50000x1_0 x))
    (broadcastInDim S50000x40 ![0, 1] bcast_S1x40_S50000x40_0_1 (iotaInDim S1x40 32 1)))

/-- The edges' source nodes: row 0 of the edge list. -/
def srcOf (ei : IVec S2x800000 32) : IVec S800000 32 :=
  shapeCast S800000 (extractStridedSlice S1x800000 ![0, 0] ei slices_S2x800000_S1x800000_0_0) shapeCasts_S1x800000_S800000
/-- The edges' destination nodes: row 1 of the edge list. -/
def dstOf (ei : IVec S2x800000 32) : IVec S800000 32 :=
  shapeCast S800000 (extractStridedSlice S1x800000 ![1, 0] ei slices_S2x800000_S1x800000_1_0) shapeCasts_S1x800000_S800000

/-- A node's in-degree, at least 1: ones added up per destination. -/
def degOf (dst : IVec S800000 32) : FVec F S50000x1 .f32 :=
  maximumf (Host.scatterAdd scatter_S50000x1_S800000x1_S800000x1_1_0_0_1 (broadcastInDim S50000x1 ![] bcast_S_S50000x1 (constant S_ .f32 0x00000000#32))
      (broadcastInDim S800000x1 ![0] bcast_S800000_S800000x1_0 dst) (broadcastInDim S800000x1 ![] bcast_S_S800000x1 (constant S_ .f32 0x3F800000#32)))
    (broadcastInDim S50000x1 ![] bcast_S_S50000x1 (constant S_ .f32 0x3F800000#32))

/-- A graph's node count, at least 1: ones added up per graph. -/
def cntOf (bt : IVec S50000 32) : FVec F S256x1 .f32 :=
  maximumf (Host.scatterAdd scatter_S256x1_S50000x1_S50000x1_1_0_0_1 (broadcastInDim S256x1 ![] bcast_S_S256x1 (constant S_ .f32 0x00000000#32))
      (broadcastInDim S50000x1 ![0] bcast_S50000_S50000x1_0 bt) (broadcastInDim S50000x1 ![] bcast_S_S50000x1 (constant S_ .f32 0x3F800000#32)))
    (broadcastInDim S256x1 ![] bcast_S_S256x1 (constant S_ .f32 0x3F800000#32))

/-- The edges' source nodes as an index column, a negative index counted from the end. -/
def srcCol (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The mean of the neighbours' 128 features: gather the source rows, add them up per destination, divide by the in-degree. -/
def mean128 (h : FVec F S50000x128 .f32) (src dst : IVec S800000 32) (deg : FVec F S50000x1 .f32) : FVec F S50000x128 .f32 :=
  Host.divf
    (Host.scatterAdd scatter_S50000x128_S800000x1_S800000x128_1_0_0_1 (broadcastInDim S50000x128 ![] bcast_S_S50000x128 (constant S_ .f32 0x00000000#32))
      (broadcastInDim S800000x1 ![0] bcast_S800000_S800000x1_0 dst)
      (Host.gather gather_S50000x128_S800000x1_S800000x128_1_0_n_n_0_1_1128 h (srcCol src)))
    (broadcastInDim S50000x128 ![0, 1] bcast_S50000x1_S50000x128_0_1 deg)

/-- The same over 256 features. -/
def mean256 (h : FVec F S50000x256 .f32) (src dst : IVec S800000 32) (deg : FVec F S50000x1 .f32) : FVec F S50000x256 .f32 :=
  Host.divf
    (Host.scatterAdd scatter_S50000x256_S800000x1_S800000x256_1_0_0_1 (broadcastInDim S50000x256 ![] bcast_S_S50000x256 (constant S_ .f32 0x00000000#32))
      (broadcastInDim S800000x1 ![0] bcast_S800000_S800000x1_0 dst)
      (Host.gather gather_S50000x256_S800000x1_S800000x256_1_0_n_n_0_1_1256 h (srcCol src)))
    (broadcastInDim S50000x256 ![0, 1] bcast_S50000x1_S50000x256_0_1 deg)

/-- The mean of each graph's node features: add the nodes' rows up per graph, divide by the graph's node count. -/
def pool (h : FVec F S50000x256 .f32) (bt : IVec S50000 32) (cnt : FVec F S256x1 .f32) : FVec F S256x256 .f32 :=
  Host.divf
    (Host.scatterAdd scatter_S256x256_S50000x1_S50000x256_1_0_0_1 (broadcastInDim S256x256 ![] bcast_S_S256x256 (constant S_ .f32 0x00000000#32))
      (broadcastInDim S50000x1 ![0] bcast_S50000_S50000x1_0 bt) h)
    (broadcastInDim S256x256 ![0, 1] bcast_S256x1_S256x256_0_1 cnt)

end Cert.KernelIdeal.Terms

end
-- ==== Proof.Entry0.lean ====
import proofs.«406964_j88648124990131_1_alg».proof.Proof.Gen.KernelIdeal.Frame
import proofs.«406964_j88648124990131_1_alg».proof.Proof.Terms
import Idealize.ShloMosaic.Lib.StableHlo.Run

/-!
What the buffers hold when the first kernel region is entered, and when it is left. Before the region the program
slices the edge list into the edges' source and destination nodes, counts each node's incoming edges and each
graph's nodes (each count at least one), writes the one-hot rows of the index vector and narrows the table;
nothing writes an argument array. The region rewrites only its own output array, so every other buffer is
carried across it unchanged.
-/

set_option maxRecDepth 16384

noncomputable section

namespace Cert.KernelIdeal.Entry0

open Cert.KernelIdeal Cert.KernelIdeal.Gen Cert.KernelIdeal.Terms
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- Reads one buffer after the three opening stretches of host operations. -/
local macro "read_opening" : tactic => `(tactic| (
  show StableHlo.after hostOps0_2 (StableHlo.after hostOps0_1 (StableHlo.after hostOps0 (W0 _ _ _))) _ = _
  after_results <;> rfl))

/-! ## At the first region's entry -/

/-- The edges' source nodes. -/
theorem src_W3 (c : Dev nD) : W3 m ρ c (Proc.devRef .tc main_v1) = srcOf (m ((c : Thread nD τ).loc main_arg1)) := by read_opening
/-- The edges' destination nodes. -/
theorem dst_W3 (c : Dev nD) : W3 m ρ c (Proc.devRef .tc main_v3) = dstOf (m ((c : Thread nD τ).loc main_arg1)) := by read_opening
/-- Each node's in-degree, at least one. -/
theorem deg_W3 (c : Dev nD) : W3 m ρ c (Proc.devRef .tc main_v9) = degOf (dstOf (m ((c : Thread nD τ).loc main_arg1))) := by read_opening
/-- Each graph's node count, at least one. -/
theorem cnt_W3 (c : Dev nD) : W3 m ρ c (Proc.devRef .tc main_v15) = cntOf (m ((c : Thread nD τ).loc main_arg2)) := by read_opening
/-- The one-hot rows of the index vector. -/
theorem oneHot_W3 (c : Dev nD) : W3 m ρ c (Proc.devRef .tc main_v16) = onehot (m ((c : Thread nD τ).loc main_arg0)) := by read_opening
/-- The table, narrowed. -/
theorem table_W3 (c : Dev nD) : W3 m ρ c (Proc.devRef .tc main_v17) = truncf .bf16 (m ((c : Thread nD τ).loc main_arg3)) bitsLt_bf16_f32 := by read_opening

/-! The argument arrays read later are as launched. -/
theorem arg2_W3 (c : Dev nD) : W3 m ρ c (Proc.devRef .tc main_arg2) = m ((c : Thread nD τ).loc main_arg2) := by read_opening
theorem arg4_W3 (c : Dev nD) : W3 m ρ c (Proc.devRef .tc main_arg4) = m ((c : Thread nD τ).loc main_arg4) := by read_opening
theorem arg5_W3 (c : Dev nD) : W3 m ρ c (Proc.devRef .tc main_arg5) = m ((c : Thread nD τ).loc main_arg5) := by read_opening
theorem arg6_W3 (c : Dev nD) : W3 m ρ c (Proc.devRef .tc main_arg6) = m ((c : Thread nD τ).loc main_arg6) := by read_opening
theorem arg7_W3 (c : Dev nD) : W3 m ρ c (Proc.devRef .tc main_arg7) = m ((c : Thread nD τ).loc main_arg7) := by read_opening
theorem arg8_W3 (c : Dev nD) : W3 m ρ c (Proc.devRef .tc main_arg8) = m ((c : Thread nD τ).loc main_arg8) := by read_opening
theorem arg9_W3 (c : Dev nD) : W3 m ρ c (Proc.devRef .tc main_arg9) = m ((c : Thread nD τ).loc main_arg9) := by read_opening
theorem arg10_W3 (c : Dev nD) : W3 m ρ c (Proc.devRef .tc main_arg10) = m ((c : Thread nD τ).loc main_arg10) := by read_opening
theorem arg11_W3 (c : Dev nD) : W3 m ρ c (Proc.devRef .tc main_arg11) = m ((c : Thread nD τ).loc main_arg11) := by read_opening

/-! ## At the first region's exit -/

/-- The region's output array holds what its write-backs leave. -/
theorem feat_W4 (c : Dev nD) : W4 m ρ c (Proc.devRef .tc main_v18) = (dat0 (V3 m ρ) c).arrAt 2 cfg0.N := W4_arr m ρ c 2

theorem src_W4 (c : Dev nD) : W4 m ρ c (Proc.devRef .tc main_v1) = srcOf (m ((c : Thread nD τ).loc main_arg1)) :=
  (W4_of_ne m ρ c main_v1 (by decide)).trans (src_W3 m ρ c)
theorem dst_W4 (c : Dev nD) : W4 m ρ c (Proc.devRef .tc main_v3) = dstOf (m ((c : Thread nD τ).loc main_arg1)) :=
  (W4_of_ne m ρ c main_v3 (by decide)).trans (dst_W3 m ρ c)
theorem deg_W4 (c : Dev nD) : W4 m ρ c (Proc.devRef .tc main_v9) = degOf (dstOf (m ((c : Thread nD τ).loc main_arg1))) :=
  (W4_of_ne m ρ c main_v9 (by decide)).trans (deg_W3 m ρ c)
theorem cnt_W4 (c : Dev nD) : W4 m ρ c (Proc.devRef .tc main_v15) = cntOf (m ((c : Thread nD τ).loc main_arg2)) :=
  (W4_of_ne m ρ c main_v15 (by decide)).trans (cnt_W3 m ρ c)
theorem arg2_W4 (c : Dev nD) : W4 m ρ c (Proc.devRef .tc main_arg2) = m ((c : Thread nD τ).loc main_arg2) := (W4_of_ne m ρ c main_arg2 (by decide)).trans (arg2_W3 m ρ c)
theorem arg4_W4 (c : Dev nD) : W4 m ρ c (Proc.devRef .tc main_arg4) = m ((c : Thread nD τ).loc main_arg4) := (W4_of_ne m ρ c main_arg4 (by decide)).trans (arg4_W3 m ρ c)
theorem arg5_W4 (c : Dev nD) : W4 m ρ c (Proc.devRef .tc main_arg5) = m ((c : Thread nD τ).loc main_arg5) := (W4_of_ne m ρ c main_arg5 (by decide)).trans (arg5_W3 m ρ c)
theorem arg6_W4 (c : Dev nD) : W4 m ρ c (Proc.devRef .tc main_arg6) = m ((c : Thread nD τ).loc main_arg6) := (W4_of_ne m ρ c main_arg6 (by decide)).trans (arg6_W3 m ρ c)
theorem arg7_W4 (c : Dev nD) : W4 m ρ c (Proc.devRef .tc main_arg7) = m ((c : Thread nD τ).loc main_arg7) := (W4_of_ne m ρ c main_arg7 (by decide)).trans (arg7_W3 m ρ c)
theorem arg8_W4 (c : Dev nD) : W4 m ρ c (Proc.devRef .tc main_arg8) = m ((c : Thread nD τ).loc main_arg8) := (W4_of_ne m ρ c main_arg8 (by decide)).trans (arg8_W3 m ρ c)
theorem arg9_W4 (c : Dev nD) : W4 m ρ c (Proc.devRef .tc main_arg9) = m ((c : Thread nD τ).loc main_arg9) := (W4_of_ne m ρ c main_arg9 (by decide)).trans (arg9_W3 m ρ c)
theorem arg10_W4 (c : Dev nD) : W4 m ρ c (Proc.devRef .tc main_arg10) = m ((c : Thread nD τ).loc main_arg10) := (W4_of_ne m ρ c main_arg10 (by decide)).trans (arg10_W3 m ρ c)
theorem arg11_W4 (c : Dev nD) : W4 m ρ c (Proc.devRef .tc main_arg11) = m ((c : Thread nD τ).loc main_arg11) := (W4_of_ne m ρ c main_arg11 (by decide)).trans (arg11_W3 m ρ c)

end Cert.KernelIdeal.Entry0

end
-- ==== Proof.Entry1.lean ====
import proofs.«406964_j88648124990131_1_alg».proof.Proof.Gen.KernelIdeal.Frame
import proofs.«406964_j88648124990131_1_alg».proof.Proof.Terms
import Idealize.ShloMosaic.Lib.StableHlo.Run
import proofs.«406964_j88648124990131_1_alg».proof.Proof.Entry0
/-!
What the buffers hold when the second kernel region is entered, and when it is left. Between the first two
regions the program gathers the source node's embedded features for every edge, adds them up per destination
node, divides by the in-degree, and narrows that mean, the embedded features and the first layer's two weight
arrays; the bias is laid as one row. The region rewrites only its own output array.
-/

set_option maxRecDepth 16384

noncomputable section

namespace Cert.KernelIdeal.Entry1

open Cert.KernelIdeal Cert.KernelIdeal.Gen Cert.KernelIdeal.Terms
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

open Cert.KernelIdeal.Entry0

/-- Reads one buffer after the host operations between the first and the second region. -/
local macro "read_stretch" : tactic => `(tactic| (
  show StableHlo.after hostOps1 (W4 _ _ _) _ = _
  after_results_simp <;> rfl))

/-! ## At the second region's entry -/

/-- The neighbour mean of the embedded features, narrowed. -/
theorem mean_V5 (c : Dev nD) : V5 m ρ c main_v31
    = truncf .bf16 (mean128 ((dat0 (V3 m ρ) c).arrAt 2 cfg0.N) (srcOf (m ((c : Thread nD τ).loc main_arg1)))
        (dstOf (m ((c : Thread nD τ).loc main_arg1))) (degOf (dstOf (m ((c : Thread nD τ).loc main_arg1))))) bitsLt_bf16_f32 := by
  have h : V5 m ρ c main_v31 = truncf .bf16 (mean128 (W4 m ρ c (Proc.devRef .tc main_v18)) (W4 m ρ c (Proc.devRef .tc main_v1))
      (W4 m ρ c (Proc.devRef .tc main_v3)) (W4 m ρ c (Proc.devRef .tc main_v9))) bitsLt_bf16_f32 := by read_stretch
  rw [h, feat_W4, src_W4, dst_W4, deg_W4]
/-- The embedded features, narrowed. -/
theorem self_V5 (c : Dev nD) : V5 m ρ c main_v32 = truncf .bf16 ((dat0 (V3 m ρ) c).arrAt 2 cfg0.N) bitsLt_bf16_f32 := by
  have h : V5 m ρ c main_v32 = truncf .bf16 (W4 m ρ c (Proc.devRef .tc main_v18)) bitsLt_bf16_f32 := by read_stretch
  rw [h, feat_W4]
/-- The first layer's neighbour weights, narrowed. -/
theorem wl_V5 (c : Dev nD) : V5 m ρ c main_v33 = truncf .bf16 (m ((c : Thread nD τ).loc main_arg4)) bitsLt_bf16_f32 := by
  have h : V5 m ρ c main_v33 = truncf .bf16 (W4 m ρ c (Proc.devRef .tc main_arg4)) bitsLt_bf16_f32 := by read_stretch
  rw [h, arg4_W4]
/-- The first layer's own-feature weights, narrowed. -/
theorem wr_V5 (c : Dev nD) : V5 m ρ c main_v34 = truncf .bf16 (m ((c : Thread nD τ).loc main_arg5)) bitsLt_bf16_f32 := by
  have h : V5 m ρ c main_v34 = truncf .bf16 (W4 m ρ c (Proc.devRef .tc main_arg5)) bitsLt_bf16_f32 := by read_stretch
  rw [h, arg5_W4]
/-- The first layer's bias, as one row. -/
theorem bias_V5 (c : Dev nD) : V5 m ρ c main_v35 = shapeCast S1x256 (m ((c : Thread nD τ).loc main_arg6)) shapeCasts_S256_S1x256 := by
  have h : V5 m ρ c main_v35 = shapeCast S1x256 (W4 m ρ c (Proc.devRef .tc main_arg6)) shapeCasts_S256_S1x256 := by read_stretch
  rw [h, arg6_W4]

/-! ## At the second region's exit -/

/-- The region's output array holds what its write-backs leave. -/
theorem feat_W6 (c : Dev nD) : W6 m ρ c (Proc.devRef .tc main_v36) = (dat1 (V5 m ρ) c).arrAt 5 cfg1.N := W6_arr m ρ c 5

theorem src_W6 (c : Dev nD) : W6 m ρ c (Proc.devRef .tc main_v1) = srcOf (m ((c : Thread nD τ).loc main_arg1)) :=
  (W6_of_ne m ρ c main_v1 (by decide)).trans ((show W5 m ρ c (Proc.devRef .tc main_v1) = W4 m ρ c (Proc.devRef .tc main_v1) by read_stretch).trans (src_W4 m ρ c))
theorem dst_W6 (c : Dev nD) : W6 m ρ c (Proc.devRef .tc main_v3) = dstOf (m ((c : Thread nD τ).loc main_arg1)) :=
  (W6_of_ne m ρ c main_v3 (by decide)).trans ((show W5 m ρ c (Proc.devRef .tc main_v3) = W4 m ρ c (Proc.devRef .tc main_v3) by read_stretch).trans (dst_W4 m ρ c))
theorem deg_W6 (c : Dev nD) : W6 m ρ c (Proc.devRef .tc main_v9) = degOf (dstOf (m ((c : Thread nD τ).loc main_arg1))) :=
  (W6_of_ne m ρ c main_v9 (by decide)).trans ((show W5 m ρ c (Proc.devRef .tc main_v9) = W4 m ρ c (Proc.devRef .tc main_v9) by read_stretch).trans (deg_W4 m ρ c))
theorem cnt_W6 (c : Dev nD) : W6 m ρ c (Proc.devRef .tc main_v15) = cntOf (m ((c : Thread nD τ).loc main_arg2)) :=
  (W6_of_ne m ρ c main_v15 (by decide)).trans ((show W5 m ρ c (Proc.devRef .tc main_v15) = W4 m ρ c (Proc.devRef .tc main_v15) by read_stretch).trans (cnt_W4 m ρ c))
theorem arg2_W6 (c : Dev nD) : W6 m ρ c (Proc.devRef .tc main_arg2) = m ((c : Thread nD τ).loc main_arg2) :=
  (W6_of_ne m ρ c main_arg2 (by decide)).trans ((show W5 m ρ c (Proc.devRef .tc main_arg2) = W4 m ρ c (Proc.devRef .tc main_arg2) by read_stretch).trans (arg2_W4 m ρ c))
theorem arg7_W6 (c : Dev nD) : W6 m ρ c (Proc.devRef .tc main_arg7) = m ((c : Thread nD τ).loc main_arg7) :=
  (W6_of_ne m ρ c main_arg7 (by decide)).trans ((show W5 m ρ c (Proc.devRef .tc main_arg7) = W4 m ρ c (Proc.devRef .tc main_arg7) by read_stretch).trans (arg7_W4 m ρ c))
theorem arg8_W6 (c : Dev nD) : W6 m ρ c (Proc.devRef .tc main_arg8) = m ((c : Thread nD τ).loc main_arg8) :=
  (W6_of_ne m ρ c main_arg8 (by decide)).trans ((show W5 m ρ c (Proc.devRef .tc main_arg8) = W4 m ρ c (Proc.devRef .tc main_arg8) by read_stretch).trans (arg8_W4 m ρ c))
theorem arg9_W6 (c : Dev nD) : W6 m ρ c (Proc.devRef .tc main_arg9) = m ((c : Thread nD τ).loc main_arg9) :=
  (W6_of_ne m ρ c main_arg9 (by decide)).trans ((show W5 m ρ c (Proc.devRef .tc main_arg9) = W4 m ρ c (Proc.devRef .tc main_arg9) by read_stretch).trans (arg9_W4 m ρ c))
theorem arg10_W6 (c : Dev nD) : W6 m ρ c (Proc.devRef .tc main_arg10) = m ((c : Thread nD τ).loc main_arg10) :=
  (W6_of_ne m ρ c main_arg10 (by decide)).trans ((show W5 m ρ c (Proc.devRef .tc main_arg10) = W4 m ρ c (Proc.devRef .tc main_arg10) by read_stretch).trans (arg10_W4 m ρ c))
theorem arg11_W6 (c : Dev nD) : W6 m ρ c (Proc.devRef .tc main_arg11) = m ((c : Thread nD τ).loc main_arg11) :=
  (W6_of_ne m ρ c main_arg11 (by decide)).trans ((show W5 m ρ c (Proc.devRef .tc main_arg11) = W4 m ρ c (Proc.devRef .tc main_arg11) by read_stretch).trans (arg11_W4 m ρ c))

end Cert.KernelIdeal.Entry1

end
-- ==== Proof.Entry2.lean ====
import proofs.«406964_j88648124990131_1_alg».proof.Proof.Gen.KernelIdeal.Frame
import proofs.«406964_j88648124990131_1_alg».proof.Proof.Terms
import Idealize.ShloMosaic.Lib.StableHlo.Run
import proofs.«406964_j88648124990131_1_alg».proof.Proof.Entry1
/-!
What the buffers hold when the third kernel region is entered, and when it is left. Between the second and the
third region the program does for the first layer's features what it did for the embedded ones: gathers the
source node's row for every edge, adds the rows up per destination node, divides by the in-degree, and narrows
that mean, the features themselves and the second layer's two weight arrays; the bias is laid as one row.
The region rewrites only its own output array.
-/

set_option maxRecDepth 16384

noncomputable section

namespace Cert.KernelIdeal.Entry2

open Cert.KernelIdeal Cert.KernelIdeal.Gen Cert.KernelIdeal.Terms
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

open Cert.KernelIdeal.Entry1

/-- Reads one buffer after the host operations between the second and the third region. -/
local macro "read_stretch" : tactic => `(tactic| (
  show StableHlo.after hostOps2 (W6 _ _ _) _ = _
  after_results_simp <;> rfl))

/-! ## At the third region's entry -/

/-- The neighbour mean of the first layer's features, narrowed. -/
theorem mean_V7 (c : Dev nD) : V7 m ρ c main_v49
    = truncf .bf16 (mean256 ((dat1 (V5 m ρ) c).arrAt 5 cfg1.N) (srcOf (m ((c : Thread nD τ).loc main_arg1)))
        (dstOf (m ((c : Thread nD τ).loc main_arg1))) (degOf (dstOf (m ((c : Thread nD τ).loc main_arg1))))) bitsLt_bf16_f32 := by
  have h : V7 m ρ c main_v49 = truncf .bf16 (mean256 (W6 m ρ c (Proc.devRef .tc main_v36)) (W6 m ρ c (Proc.devRef .tc main_v1))
      (W6 m ρ c (Proc.devRef .tc main_v3)) (W6 m ρ c (Proc.devRef .tc main_v9))) bitsLt_bf16_f32 := by read_stretch
  rw [h, feat_W6, src_W6, dst_W6, deg_W6]
/-- The first layer's features, narrowed. -/
theorem self_V7 (c : Dev nD) : V7 m ρ c main_v50 = truncf .bf16 ((dat1 (V5 m ρ) c).arrAt 5 cfg1.N) bitsLt_bf16_f32 := by
  have h : V7 m ρ c main_v50 = truncf .bf16 (W6 m ρ c (Proc.devRef .tc main_v36)) bitsLt_bf16_f32 := by read_stretch
  rw [h, feat_W6]
/-- The second layer's neighbour weights, narrowed. -/
theorem wl_V7 (c : Dev nD) : V7 m ρ c main_v51 = truncf .bf16 (m ((c : Thread nD τ).loc main_arg7)) bitsLt_bf16_f32 := by
  have h : V7 m ρ c main_v51 = truncf .bf16 (W6 m ρ c (Proc.devRef .tc main_arg7)) bitsLt_bf16_f32 := by read_stretch
  rw [h, arg7_W6]
/-- The second layer's own-feature weights, narrowed. -/
theorem wr_V7 (c : Dev nD) : V7 m ρ c main_v52 = truncf .bf16 (m ((c : Thread nD τ).loc main_arg8)) bitsLt_bf16_f32 := by
  have h : V7 m ρ c main_v52 = truncf .bf16 (W6 m ρ c (Proc.devRef .tc main_arg8)) bitsLt_bf16_f32 := by read_stretch
  rw [h, arg8_W6]
/-- The second layer's bias, as one row. -/
theorem bias_V7 (c : Dev nD) : V7 m ρ c main_v53 = shapeCast S1x256 (m ((c : Thread nD τ).loc main_arg9)) shapeCasts_S256_S1x256 := by
  have h : V7 m ρ c main_v53 = shapeCast S1x256 (W6 m ρ c (Proc.devRef .tc main_arg9)) shapeCasts_S256_S1x256 := by read_stretch
  rw [h, arg9_W6]

/-! ## At the third region's exit -/

/-- The region's output array holds what its write-backs leave. -/
theorem feat_W8 (c : Dev nD) : W8 m ρ c (Proc.devRef .tc main_v54) = (dat2 (V7 m ρ) c).arrAt 5 cfg2.N := W8_arr m ρ c 5

theorem cnt_W8 (c : Dev nD) : W8 m ρ c (Proc.devRef .tc main_v15) = cntOf (m ((c : Thread nD τ).loc main_arg2)) :=
  (W8_of_ne m ρ c main_v15 (by decide)).trans ((show W7 m ρ c (Proc.devRef .tc main_v15) = W6 m ρ c (Proc.devRef .tc main_v15) by read_stretch).trans (cnt_W6 m ρ c))
theorem arg2_W8 (c : Dev nD) : W8 m ρ c (Proc.devRef .tc main_arg2) = m ((c : Thread nD τ).loc main_arg2) :=
  (W8_of_ne m ρ c main_arg2 (by decide)).trans ((show W7 m ρ c (Proc.devRef .tc main_arg2) = W6 m ρ c (Proc.devRef .tc main_arg2) by read_stretch).trans (arg2_W6 m ρ c))
theorem arg10_W8 (c : Dev nD) : W8 m ρ c (Proc.devRef .tc main_arg10) = m ((c : Thread nD τ).loc main_arg10) :=
  (W8_of_ne m ρ c main_arg10 (by decide)).trans ((show W7 m ρ c (Proc.devRef .tc main_arg10) = W6 m ρ c (Proc.devRef .tc main_arg10) by read_stretch).trans (arg10_W6 m ρ c))
theorem arg11_W8 (c : Dev nD) : W8 m ρ c (Proc.devRef .tc main_arg11) = m ((c : Thread nD τ).loc main_arg11) :=
  (W8_of_ne m ρ c main_arg11 (by decide)).trans ((show W7 m ρ c (Proc.devRef .tc main_arg11) = W6 m ρ c (Proc.devRef .tc main_arg11) by read_stretch).trans (arg11_W6 m ρ c))

end Cert.KernelIdeal.Entry2

end
-- ==== Proof.Entry3.lean ====
import proofs.«406964_j88648124990131_1_alg».proof.Proof.Gen.KernelIdeal.Frame
import proofs.«406964_j88648124990131_1_alg».proof.Proof.Terms
import Idealize.ShloMosaic.Lib.StableHlo.Run
import proofs.«406964_j88648124990131_1_alg».proof.Proof.Entry2
/-!
What the buffers hold when the last kernel region is entered, and when it is left. Between the third and the last
region the program adds the second layer's features up per graph, divides by the graph's node count, and
narrows that mean and the closing weights; the closing bias is laid as one row. The region writes the result.
-/

set_option maxRecDepth 16384

noncomputable section

namespace Cert.KernelIdeal.Entry3

open Cert.KernelIdeal Cert.KernelIdeal.Gen Cert.KernelIdeal.Terms
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

open Cert.KernelIdeal.Entry2

/-- Reads one buffer after the host operations between the third and the last region. -/
local macro "read_stretch" : tactic => `(tactic| (
  show StableHlo.after hostOps3 (W8 _ _ _) _ = _
  after_results_simp <;> rfl))

/-- The per-graph mean of the second layer's features, narrowed. -/
theorem pool_V9 (c : Dev nD) : V9 m ρ c main_v60
    = truncf .bf16 (pool ((dat2 (V7 m ρ) c).arrAt 5 cfg2.N) (m ((c : Thread nD τ).loc main_arg2)) (cntOf (m ((c : Thread nD τ).loc main_arg2)))) bitsLt_bf16_f32 := by
  have h : V9 m ρ c main_v60 = truncf .bf16 (pool (W8 m ρ c (Proc.devRef .tc main_v54)) (W8 m ρ c (Proc.devRef .tc main_arg2))
      (W8 m ρ c (Proc.devRef .tc main_v15))) bitsLt_bf16_f32 := by read_stretch
  rw [h, feat_W8, arg2_W8, cnt_W8]
/-- The closing weights, narrowed. -/
theorem w_V9 (c : Dev nD) : V9 m ρ c main_v61 = truncf .bf16 (m ((c : Thread nD τ).loc main_arg10)) bitsLt_bf16_f32 := by
  have h : V9 m ρ c main_v61 = truncf .bf16 (W8 m ρ c (Proc.devRef .tc main_arg10)) bitsLt_bf16_f32 := by read_stretch
  rw [h, arg10_W8]
/-- The closing bias, as one row. -/
theorem bias_V9 (c : Dev nD) : V9 m ρ c main_v62 = shapeCast S1x10 (m ((c : Thread nD τ).loc main_arg11)) shapeCasts_S10_S1x10 := by
  have h : V9 m ρ c main_v62 = shapeCast S1x10 (W8 m ρ c (Proc.devRef .tc main_arg11)) shapeCasts_S10_S1x10 := by read_stretch
  rw [h, arg11_W8]

/-- The last region's output array, the result, holds what its write-back leaves. -/
theorem result_W10 (c : Dev nD) : W10 m ρ c (Proc.devRef .tc main_v63) = (dat3 (V9 m ρ) c).arrAt 3 cfg3.N := W10_arr m ρ c 3

end Cert.KernelIdeal.Entry3

end
-- ==== Proof.Spec.lean ====
import Idealize.ShloMosaic.Lib.ValueIdx
import Idealize.ShloMosaic.PureOps.Ideal.Laws
import Mathlib.Algebra.BigOperators.Group.Finset.Basic

/-!
# A graph-convolution classifier, index by index, on the extended reals

The functions both programs compute, stated once over arrays of extended reals of any sizes:

* `mm a b`, the matrix product: entry `(r, c)` is the sum over `k` of `a (r, k) * b (k, c)`;
* `sage a h wl wr b`, one convolution layer's dense half: `max (a·wl + h·wr + b) 0`, the bias a row `1 × d`
  added to every row — `a` is the mean of the neighbours' features, `h` the node's own;
* `lin g w b`, the closing linear map `g·w + b`.

The sparse half of a layer (gather the source rows of every edge, add them up per destination, divide by
the in-degree) is the same operation in both programs and never opened; these functions take its result.
-/

open scoped BigOperators

noncomputable section

namespace Cert.SageSpec

open Idealize.ShloMosaic Idealize.ShloMosaic.ValueIdx

/-- The row coordinate of an index of an `n × d` array, as a number below `n`. -/
abbrev row {n d : Nat} (i : (⟨2, ![n, d]⟩ : Shape).Idx) : Fin n := ⟨(i 0).val, idx2_lt0 i⟩
/-- Its column coordinate, as a number below `d`. -/
abbrev col {n d : Nat} (i : (⟨2, ![n, d]⟩ : Shape).Idx) : Fin d := ⟨(i 1).val, idx2_lt1 i⟩

/-- The matrix product of an `n × K` and a `K × d` array at `(r, c)`: the sum over `k` of the products. -/
def mm {n K d : Nat} (a : (⟨2, ![n, K]⟩ : Shape).Idx → EReal) (b : (⟨2, ![K, d]⟩ : Shape).Idx → EReal) :
    (⟨2, ![n, d]⟩ : Shape).Idx → EReal :=
  fun i => ∑ k : Fin K, a (ix2 (row i) k) * b (ix2 k (col i))

/-- One layer's dense half: the neighbour mean through `wl`, the node's own features through `wr`, the bias
    row added, negative entries cut to zero. -/
def sage {n K d : Nat} (a h : (⟨2, ![n, K]⟩ : Shape).Idx → EReal) (wl wr : (⟨2, ![K, d]⟩ : Shape).Idx → EReal)
    (b : (⟨2, ![1, d]⟩ : Shape).Idx → EReal) : (⟨2, ![n, d]⟩ : Shape).Idx → EReal :=
  fun i => max ((mm a wl i + mm h wr i) + b (ix2 0 (col i))) 0

/-- The closing linear map: the pooled features through `w`, the bias row added. -/
def lin {n K d : Nat} (g : (⟨2, ![n, K]⟩ : Shape).Idx → EReal) (w : (⟨2, ![K, d]⟩ : Shape).Idx → EReal)
    (b : (⟨2, ![1, d]⟩ : Shape).Idx → EReal) : (⟨2, ![n, d]⟩ : Shape).Idx → EReal :=
  fun i => mm g w i + b (ix2 0 (col i))

/-- A vector of `d` entries laid as the one row of a `1 × d` array. -/
def rowOf {d : Nat} (b : (⟨1, ![d]⟩ : Shape).Idx → EReal) : (⟨2, ![1, d]⟩ : Shape).Idx → EReal :=
  fun i => b (ix1 (col i))

/-- With the same right factor, equal left factors give equal products. -/
theorem mm_congr_left {n K d : Nat} {a a' : (⟨2, ![n, K]⟩ : Shape).Idx → EReal} (h : a = a')
    (b : (⟨2, ![K, d]⟩ : Shape).Idx → EReal) : mm a b = mm a' b := by rw [h]

end Cert.SageSpec

end
-- ==== Proof.Region0.lean ====
import proofs.«406964_j88648124990131_1_alg».proof.Proof.Gen.KernelIdeal.Frame
import proofs.«406964_j88648124990131_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat Cfg Window)
open scoped BigOperators

/-! ## The block product at an index -/

/-- The zero offsets of a whole-buffer access, as the constant function. -/
theorem zero_offsets : (![0, 0] : Fin 2 → Nat) = fun _ => 0 := funext fun a => by fin_cases a <;> rfl

/-- The contraction of a `2000 × 40` block with the `40 × 128` table: the left operand's row is the output's row. -/
theorem lhs_row (i : S2000x128.Idx) (q : dot_S2000x40_S40x128_S2000x128_1_0_0_1_n_n.contr.Idx) :
    (dot_S2000x40_S40x128_S2000x128_1_0_0_1_n_n.lhsIdx i q 0).val = (i 0).val := by
  unfold DotDims.lhsIdx
  rw [dif_neg (show ¬(0 : Fin S2000x40.rank) ∈ dot_S2000x40_S40x128_S2000x128_1_0_0_1_n_n.lhsBatch by decide), dif_pos (show (0 : Fin S2000x40.rank) ∈ dot_S2000x40_S40x128_S2000x128_1_0_0_1_n_n.lhsNonContracting by decide)]
  rfl
/-- The left operand's column is the contraction position. -/
theorem lhs_col (i : S2000x128.Idx) (q : dot_S2000x40_S40x128_S2000x128_1_0_0_1_n_n.contr.Idx) :
    (dot_S2000x40_S40x128_S2000x128_1_0_0_1_n_n.lhsIdx i q 1).val = (q ⟨0, by decide⟩).val :=
  dot_S2000x40_S40x128_S2000x128_1_0_0_1_n_n.lhsIdx_val_of_single rfl i q
/-- The right operand's row is the contraction position. -/
theorem rhs_row (i : S2000x128.Idx) (q : dot_S2000x40_S40x128_S2000x128_1_0_0_1_n_n.contr.Idx) :
    (dot_S2000x40_S40x128_S2000x128_1_0_0_1_n_n.rhsIdx i q 0).val = (q ⟨0, by decide⟩).val :=
  dot_S2000x40_S40x128_S2000x128_1_0_0_1_n_n.rhsIdx_val_of_single rfl i q
/-- The right operand's column is the output's column. -/
theorem rhs_col (i : S2000x128.Idx) (q : dot_S2000x40_S40x128_S2000x128_1_0_0_1_n_n.contr.Idx) :
    (dot_S2000x40_S40x128_S2000x128_1_0_0_1_n_n.rhsIdx i q 1).val = (i 1).val := by
  unfold DotDims.rhsIdx
  rw [dif_neg (show ¬(1 : Fin S40x128.rank) ∈ dot_S2000x40_S40x128_S2000x128_1_0_0_1_n_n.rhsBatch by decide), dif_pos (show (1 : Fin S40x128.rank) ∈ dot_S2000x40_S40x128_S2000x128_1_0_0_1_n_n.rhsNonContracting by decide)]
  rfl

/-- The body's product of a block of one-hot rows with the table, into a zero accumulator, at row `p` and column `q`:
    the sum over the 40 table rows `k` of the block's entry `(p, k)` times the table's entry `(k, q)`. -/
theorem product_at (x0 : FVec Ideal S2000x40 .bf16) (x1 : FVec Ideal S40x128 .bf16) (p : Fin 2000) (q : Fin 128) :
    (k0_pay1 (F := Ideal) x0 x1 : S2000x128.Idx → EReal) (ix2 p q) = ∑ k : Fin 40, (x0 (ix2 p k) : EReal) * (x1 (ix2 k q) : EReal) := by
  unfold k0_pay1
  simp only [shapeCast_self, matmul]
  rw [Ideal.matmul_constant_zero_apply, ← Equiv.sum_comp (contrEquiv1 dot_S2000x40_S40x128_S2000x128_1_0_0_1_n_n 40 rfl rfl).symm]
  refine Finset.sum_congr rfl fun k _ => ?_
  have hk := contrEquiv1_symm_val dot_S2000x40_S40x128_S2000x128_1_0_0_1_n_n 40 rfl rfl k
  have el : dot_S2000x40_S40x128_S2000x128_1_0_0_1_n_n.lhsIdx (ix2 p q) ((contrEquiv1 dot_S2000x40_S40x128_S2000x128_1_0_0_1_n_n 40 rfl rfl).symm k) = ix2 p k := funext fun a => Fin.ext (by
    match a with
    | ⟨0, _⟩ => exact lhs_row _ _
    | ⟨1, _⟩ => exact (lhs_col _ _).trans hk)
  have er : dot_S2000x40_S40x128_S2000x128_1_0_0_1_n_n.rhsIdx (ix2 p q) ((contrEquiv1 dot_S2000x40_S40x128_S2000x128_1_0_0_1_n_n 40 rfl rfl).symm k) = ix2 k q := funext fun a => Fin.ext (by
    match a with
    | ⟨0, _⟩ => exact (rhs_row _ _).trans hk
    | ⟨1, _⟩ => exact rhs_col _ _)
  rw [el, er]

-- the TensorCore's buffer contents when the region is entered
variable (V : (c : Dev nD) → (b : Ref sig .tc) → Buf (Elt Ideal) ((c : Thread nD τ).loc b))

/-- What the body leaves in the output window's staging buffer, at row `p` and column `q`: the same sum over the
    loaded blocks (one whole-buffer store of the product of two whole-buffer loads). -/
theorem out_block_at (x0 : Vec Ideal S2000x40 .bf16) (x1 : Vec Ideal S40x128 .bf16) (p : Fin 2000) (q : Fin 128) :
    (out0_2 (F := Ideal) x0 x1 : S2000x128.Idx → EReal) (ix2 p q) = ∑ k : Fin 40, (x0 (ix2 p k) : EReal) * (x1 (ix2 k q) : EReal) := by
  unfold out0_2
  rw [View.canon_unit_zero zero_offsets]
  simp only [View.ld_unit_zero (S := S2000x40) zero_offsets, View.ld_unit_zero (S := S40x128) zero_offsets]
  exact product_at x0 x1 p q

/-! ## The windows' blocks as parts of their arrays -/

/-- The printed index maps, decided over the 25 grid points: the one-hot window and the output window are at block
    row `t`, block column 0; the table's window is the whole table at every point. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry `(p, k)` of the one-hot window's block at point `t` is entry `(2000 t + p, k)` of the one-hot array. -/
theorem onehot_block_at (c : Dev nD) (t : Fin cfg0.N) (p : Fin 2000) (k : Fin 40) (r : Fin 50000) (hr : r.val = t.val * 2000 + p.val) :
    (iblk0 (F := Ideal) V c 0 t : S2000x40.Idx → EReal) (ix2 p k) = (V c main_v16 : S50000x40.Idx → EReal) (ix2 r k) := by
  obtain ⟨e0, e1, -⟩ := index_facts t
  unfold iblk0
  rw [View.read_apply]
  show (V c main_v16 : S50000x40.Idx → EReal) (((cfg0.win 0).blk t).view.emb (ix2 p k)) = _
  congr 1
  funext a
  apply Fin.ext
  match a with
  | ⟨0, _⟩ => show win0_0.index t (0 : Fin 2) * 2000 + 1 * p.val = r.val; omega
  | ⟨1, _⟩ => show win0_0.index t (1 : Fin 2) * 40 + 1 * k.val = k.val; omega

/-- Entry `(k, q)` of the table's window's block at any point is entry `(k, q)` of the table. -/
theorem table_block_at (c : Dev nD) (t : Fin cfg0.N) (k : Fin 40) (q : Fin 128) :
    (iblk0 (F := Ideal) V c 1 t : S40x128.Idx → EReal) (ix2 k q) = (V c main_v17 : S40x128.Idx → EReal) (ix2 k q) := by
  obtain ⟨-, -, e2, e3, -⟩ := index_facts t
  unfold iblk0
  rw [View.read_apply]
  show (V c main_v17 : S40x128.Idx → EReal) (((cfg0.win 1).blk t).view.emb (ix2 k q)) = _
  congr 1
  funext a
  apply Fin.ext
  match a with
  | ⟨0, _⟩ => show win0_1.index t (0 : Fin 2) * 40 + 1 * k.val = k.val; omega
  | ⟨1, _⟩ => show win0_1.index t (1 : Fin 2) * 128 + 1 * q.val = q.val; omega

/-! ## What a point writes back, and the array after the region -/

/-- Entry `j` of the output block point `t` leaves, for the array index `i` it is written back to (row
    `2000 t + ` its row, the same column): the product of the whole arrays at `i`. -/
theorem out_block_eq_product (c : Dev nD) (t : Fin cfg0.N) (j : S2000x128.Idx) (i : S50000x128.Idx)
    (h0 : (i 0).val = t.val * 2000 + (j 0).val) (h1 : (i 1).val = (j 1).val) :
    (out0_2 (F := Ideal) (iblk0 V c 0 t) (iblk0 V c 1 t) : S2000x128.Idx → EReal) j
      = Cert.SageSpec.mm (V c main_v16 : S50000x40.Idx → EReal) (V c main_v17 : S40x128.Idx → EReal) i := by
  obtain ⟨p, q, rfl⟩ : ∃ (p : Fin 2000) (q : Fin 128), j = ix2 p q := ⟨j 0, j 1, eq_ix2 j⟩
  rw [out_block_at]
  unfold Cert.SageSpec.mm
  have hq : Cert.SageSpec.col i = q := Fin.ext h1
  refine Finset.sum_congr rfl fun k _ => ?_
  rw [onehot_block_at V c t p k (Cert.SageSpec.row i) h0, table_block_at V c t k q, hq]

/-- WHAT POINT `t` WRITES BACK is block `t` of the product of the one-hot array and the table. -/
theorem flushed_eq (c : Dev nD) (t : Fin cfg0.N) :
    (dat0 (F := Ideal) V c).flushed 2 t = ((cfg0.win 2).blk t).view.read (Elt Ideal)
      (Cert.SageSpec.mm (V c main_v16 : S50000x40.Idx → EReal) (V c main_v17 : S40x128.Idx → EReal)) := by
  show (cfg0.win 2).cut (grid0.coords t) ((dat0 V c).after 2 t) = _
  rw [after0_2]
  obtain ⟨-, -, -, -, e4, e5⟩ := index_facts t
  funext j
  exact out_block_eq_product V c t j (((cfg0.win 2).blk t).view.emb j)
    (by show win0_2.index t (0 : Fin 2) * 2000 + 1 * (j 0).val = t.val * 2000 + (j 0).val; omega)
    (by show win0_2.index t (1 : Fin 2) * 128 + 1 * (j 1).val = (j 1).val; omega)

/-- An index of the output array is in point `t`'s block iff each coordinate is in the block's range on its axis. -/
theorem mem_out_block (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v18).slice (win0_2.rect t)).set ↔ _
  rw [View.set_slice_whole, Rect.mem_set_unit]
  exact Iff.rfl

/-- Every index of the output array is in a block that is written back: row `r` lies in the block of point `r / 2000`. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  obtain ⟨t, ht⟩ : ∃ t : Fin cfg0.N, t.val = (i 0).val / 2000 := ⟨⟨(i 0).val / 2000, by rw [hN]; omega⟩, rfl⟩
  obtain ⟨-, -, -, -, e4, e5⟩ := index_facts t
  refine ⟨t, flush0_2 t, ?_⟩
  rw [mem_out_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- After the region the embedded-features array holds, at every index, the product of the one-hot rows and the table. -/
theorem final (c : Dev nD) : (dat0 (F := Ideal) V c).arrAt 2 cfg0.N
    = Cert.SageSpec.mm (V c main_v16 : S50000x40.Idx → EReal) (V c main_v17 : S40x128.Idx → EReal) :=
  (dat0 (F := Ideal) V c).arrAt_eq_of_cover 2 _ (fun t _ => flushed_eq V c t) covered

end Cert.KernelIdeal.Region0

end
-- ==== Proof.Region1.lean ====
import proofs.«406964_j88648124990131_1_alg».proof.Proof.Gen.KernelIdeal.Frame
import proofs.«406964_j88648124990131_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat Cfg Window)
open scoped BigOperators

/-- The zero offsets of a whole-block access, as the constant function. -/
theorem hz : (![0, 0] : Fin 2 → Nat) = fun _ => 0 := funext fun a => by fin_cases a <;> rfl

/-! ## The product of a block of 2000 rows with a 128 × 256 matrix, entry by entry -/

/-- The left operand's row coordinate at output entry `i` is `i`'s row. -/
theorem lhs_blk_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
/-- The left operand's column coordinate is the summation index. -/
theorem lhs_blk_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
/-- The right operand's row coordinate is the summation index. -/
theorem rhs_blk_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
/-- The right operand's column coordinate at output entry `i` is `i`'s column. -/
theorem rhs_blk_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- A 2000 × 128 block times a 128 × 256 matrix, accumulated into zero: entry `(p, q)` is the sum over `k` of
    the block's `(p, k)` entry times the matrix's `(k, q)` entry. -/
theorem blk_matmul_apply (x : FVec Ideal S2000x128 .bf16) (w : FVec Ideal S128x256 .bf16) (p : Fin 2000) (q : Fin 256) :
    matmul dot_S2000x128_S128x256_S2000x256_1_0_0_1_n_n none x w (constant S2000x256 .f32 0x00000000#32) (ix2 p q)
      = ∑ k : Fin 128, x (ix2 p k) * w (ix2 k q) := by
  simp only [matmul]
  rw [Ideal.matmul_constant_zero_apply, ← Equiv.sum_comp (ValueIdx.contrEquiv1 dot_S2000x128_S128x256_S2000x256_1_0_0_1_n_n 128 rfl rfl).symm]
  refine Finset.sum_congr rfl fun k _ => ?_
  have hk := ValueIdx.contrEquiv1_symm_val dot_S2000x128_S128x256_S2000x256_1_0_0_1_n_n 128 rfl rfl k
  have el : dot_S2000x128_S128x256_S2000x256_1_0_0_1_n_n.lhsIdx (ix2 p q) ((ValueIdx.contrEquiv1 dot_S2000x128_S128x256_S2000x256_1_0_0_1_n_n 128 rfl rfl).symm k) = ix2 p k := funext fun a => Fin.ext (by
    match a with
    | ⟨0, _⟩ => exact lhs_blk_0 _ _
    | ⟨1, _⟩ => exact (lhs_blk_1 _ _).trans hk)
  have er : dot_S2000x128_S128x256_S2000x256_1_0_0_1_n_n.rhsIdx (ix2 p q) ((ValueIdx.contrEquiv1 dot_S2000x128_S128x256_S2000x256_1_0_0_1_n_n 128 rfl rfl).symm k) = ix2 k q := funext fun a => Fin.ext (by
    match a with
    | ⟨0, _⟩ => exact (rhs_blk_0 _ _).trans hk
    | ⟨1, _⟩ => exact rhs_blk_1 _ _)
  rw [el, er]

/-! ## The body's stored block, entry by entry -/

/-- The stored block at `(p, q)`: the two products' entries added, the bias row's entry `q` added, the maximum with zero taken. -/
theorem pay_apply (x0 x1 : FVec Ideal S2000x128 .bf16) (x2 x3 : FVec Ideal S128x256 .bf16) (x4 : FVec Ideal S1x256 .f32)
    (p : Fin 2000) (q : Fin 256) :
    k1_pay1 (F := Ideal) x0 x2 x1 x3 x4 (ix2 p q)
      = max (((∑ k : Fin 128, x0 (ix2 p k) * x2 (ix2 k q)) + (∑ k : Fin 128, x1 (ix2 p k) * x3 (ix2 k q))) + x4 (ix2 (0 : Fin 1) q)) 0 := by
  unfold k1_pay1
  simp only [shapeCast_self]
  rw [maximumf_apply, addf_apply, addf_apply, blk_matmul_apply, blk_matmul_apply, broadcastTo_1b_ab_apply, broadcast_apply]
  show max _ (Ideal.ofBits .f32 0x00000000#32) = _
  rw [Ideal.ofBits_zero_f32]

/-- What the body leaves in the output's buffer, at `(p, q)`, from the five input blocks. -/
theorem out_apply (x0 x1 : FVec Ideal S2000x128 .bf16) (x2 x3 : FVec Ideal S128x256 .bf16) (x4 : FVec Ideal S1x256 .f32)
    (p : Fin 2000) (q : Fin 256) :
    out1_5 (F := Ideal) x0 x1 x2 x3 x4 (ix2 p q)
      = max (((∑ k : Fin 128, x0 (ix2 p k) * x2 (ix2 k q)) + (∑ k : Fin 128, x1 (ix2 p k) * x3 (ix2 k q))) + x4 (ix2 (0 : Fin 1) q)) 0 := by
  unfold out1_5
  rw [View.canon_unit_zero hz]
  simp only [View.ld_unit_zero (S := S2000x128) hz, View.ld_unit_zero (S := S128x256) hz, View.ld_unit_zero (S := S1x256) hz]
  exact pay_apply x0 x1 x2 x3 x4 p q

-- the TensorCore's buffer contents when the region is entered
variable (V : (c : Dev nD) → (b : Ref sig .tc) → Buf (Elt Ideal) ((c : Thread nD τ).loc b))

/-! ## Which rows and columns each window's block holds -/

/-- The six index maps over the 25 grid points: the two feature windows and the output move down one block of rows
    per point; the two weight windows and the bias row stay at the whole array. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The neighbour-mean block at point `t` is rows `2000 t … 2000 t + 1999` of its array. -/
theorem blk0_apply (c : Dev nD) (t : Fin cfg1.N) (p : Fin 2000) (k : Fin 128) (r : Fin 50000) (hr : r.val = t.val * 2000 + p.val) :
    (iblk1 V c 0 t : FVec Ideal S2000x128 .bf16) (ix2 p k) = (V c main_v31 : S50000x128.Idx → EReal) (ix2 r k) := by
  obtain ⟨e0, e1, -⟩ := idx_facts t
  show (V c main_v31 : S50000x128.Idx → EReal) (((cfg1.win 0).blk t).view.emb (ix2 p k)) = _
  refine congrArg _ (funext fun a => Fin.ext ?_)
  match a with
  | ⟨0, _⟩ => show win1_0.index t (0 : Fin 2) * 2000 + 1 * p.val = r.val; omega
  | ⟨1, _⟩ => show win1_0.index t (1 : Fin 2) * 128 + 1 * k.val = k.val; omega

/-- The own-features block at point `t` is the same rows of its array. -/
theorem blk1_apply (c : Dev nD) (t : Fin cfg1.N) (p : Fin 2000) (k : Fin 128) (r : Fin 50000) (hr : r.val = t.val * 2000 + p.val) :
    (iblk1 V c 1 t : FVec Ideal S2000x128 .bf16) (ix2 p k) = (V c main_v32 : S50000x128.Idx → EReal) (ix2 r k) := by
  obtain ⟨-, -, e0, e1, -⟩ := idx_facts t
  show (V c main_v32 : S50000x128.Idx → EReal) (((cfg1.win 1).blk t).view.emb (ix2 p k)) = _
  refine congrArg _ (funext fun a => Fin.ext ?_)
  match a with
  | ⟨0, _⟩ => show win1_1.index t (0 : Fin 2) * 2000 + 1 * p.val = r.val; omega
  | ⟨1, _⟩ => show win1_1.index t (1 : Fin 2) * 128 + 1 * k.val = k.val; omega

/-- The first weight window's block is its whole matrix at every point. -/
theorem blk2_apply (c : Dev nD) (t : Fin cfg1.N) (k : Fin 128) (q q' : Fin 256) (hq : q'.val = q.val) :
    (iblk1 V c 2 t : FVec Ideal S128x256 .bf16) (ix2 k q) = (V c main_v33 : S128x256.Idx → EReal) (ix2 k q') := by
  obtain ⟨-, -, -, -, e0, e1, -⟩ := idx_facts t
  show (V c main_v33 : S128x256.Idx → EReal) (((cfg1.win 2).blk t).view.emb (ix2 k q)) = _
  refine congrArg _ (funext fun a => Fin.ext ?_)
  match a with
  | ⟨0, _⟩ => show win1_2.index t (0 : Fin 2) * 128 + 1 * k.val = k.val; omega
  | ⟨1, _⟩ => show win1_2.index t (1 : Fin 2) * 256 + 1 * q.val = q'.val; omega

/-- The second weight window's block is its whole matrix at every point. -/
theorem blk3_apply (c : Dev nD) (t : Fin cfg1.N) (k : Fin 128) (q q' : Fin 256) (hq : q'.val = q.val) :
    (iblk1 V c 3 t : FVec Ideal S128x256 .bf16) (ix2 k q) = (V c main_v34 : S128x256.Idx → EReal) (ix2 k q') := by
  obtain ⟨-, -, -, -, -, -, e0, e1, -⟩ := idx_facts t
  show (V c main_v34 : S128x256.Idx → EReal) (((cfg1.win 3).blk t).view.emb (ix2 k q)) = _
  refine congrArg _ (funext fun a => Fin.ext ?_)
  match a with
  | ⟨0, _⟩ => show win1_3.index t (0 : Fin 2) * 128 + 1 * k.val = k.val; omega
  | ⟨1, _⟩ => show win1_3.index t (1 : Fin 2) * 256 + 1 * q.val = q'.val; omega

/-- The bias window's block is the whole bias row at every point. -/
theorem blk4_apply (c : Dev nD) (t : Fin cfg1.N) (q q' : Fin 256) (hq : q'.val = q.val) :
    (iblk1 V c 4 t : FVec Ideal S1x256 .f32) (ix2 (0 : Fin 1) q) = (V c main_v35 : S1x256.Idx → EReal) (ix2 (0 : Fin 1) q') := by
  obtain ⟨-, -, -, -, -, -, -, -, e0, e1, -⟩ := idx_facts t
  show (V c main_v35 : S1x256.Idx → EReal) (((cfg1.win 4).blk t).view.emb (ix2 (0 : Fin 1) q)) = _
  refine congrArg _ (funext fun a => Fin.ext ?_)
  match a with
  | ⟨0, _⟩ => show win1_4.index t (0 : Fin 2) * 1 + 1 * 0 = 0; omega
  | ⟨1, _⟩ => show win1_4.index t (1 : Fin 2) * 256 + 1 * q.val = q'.val; omega

/-! ## What a point writes back -/

/-- The output's buffer after the body at point `t`, at `(p, q)`: the layer's dense half of the five whole arrays at
    the entry `i` of the output array whose row is `2000 t + p` and whose column is `q`. -/
theorem out_blk_apply (c : Dev nD) (t : Fin cfg1.N) (p : Fin 2000) (q : Fin 256) (i : S50000x256.Idx)
    (hi0 : (i 0).val = t.val * 2000 + p.val) (hi1 : (i 1).val = q.val) :
    out1_5 (F := Ideal) (iblk1 V c 0 t) (iblk1 V c 1 t) (iblk1 V c 2 t) (iblk1 V c 3 t) (iblk1 V c 4 t) (ix2 p q)
      = Cert.SageSpec.sage (V c main_v31 : S50000x128.Idx → EReal) (V c main_v32 : S50000x128.Idx → EReal)
          (V c main_v33 : S128x256.Idx → EReal) (V c main_v34 : S128x256.Idx → EReal) (V c main_v35 : S1x256.Idx → EReal) i := by
  refine (out_apply (iblk1 V c 0 t) (iblk1 V c 1 t) (iblk1 V c 2 t) (iblk1 V c 3 t) (iblk1 V c 4 t) p q).trans ?_
  unfold Cert.SageSpec.sage Cert.SageSpec.mm
  refine congrArg (fun z => max z 0) ?_
  refine congrArg₂ (· + ·) (congrArg₂ (· + ·) (Finset.sum_congr rfl fun k _ => ?_) (Finset.sum_congr rfl fun k _ => ?_)) ?_
  · exact congrArg₂ (· * ·) (blk0_apply V c t p k (Cert.SageSpec.row i) hi0) (blk2_apply V c t k q (Cert.SageSpec.col i) hi1)
  · exact congrArg₂ (· * ·) (blk1_apply V c t p k (Cert.SageSpec.row i) hi0) (blk3_apply V c t k q (Cert.SageSpec.col i) hi1)
  · exact blk4_apply V c t q (Cert.SageSpec.col i) hi1

/-- WHAT POINT `t` WRITES BACK is block `t` of the layer's dense half of the five arrays as the region finds them. -/
theorem flushed_eq (c : Dev nD) (t : Fin cfg1.N) :
    (dat1 (F := Ideal) V c).flushed 5 t = ((cfg1.win 5).blk t).view.read (Elt Ideal)
      (Cert.SageSpec.sage (V c main_v31 : S50000x128.Idx → EReal) (V c main_v32 : S50000x128.Idx → EReal)
        (V c main_v33 : S128x256.Idx → EReal) (V c main_v34 : S128x256.Idx → EReal) (V c main_v35 : S1x256.Idx → EReal)) := by
  show (cfg1.win 5).cut (grid1.coords t) ((dat1 V c).after 5 t) = _
  rw [after1_5]
  obtain ⟨-, -, -, -, -, -, -, -, -, -, e0, e1⟩ := idx_facts t
  funext j
  have hp : (j 0).val < 2000 := (j 0).isLt
  have hq : (j 1).val < 256 := (j 1).isLt
  have hj : (cfg1.win 5).xinj (grid1.coords t) j = ix2 (⟨(j 0).val, hp⟩ : Fin 2000) (⟨(j 1).val, hq⟩ : Fin 256) := by
    funext a; match a with | ⟨0, _⟩ => rfl | ⟨1, _⟩ => rfl
  show out1_5 (F := Ideal) (iblk1 V c 0 t) (iblk1 V c 1 t) (iblk1 V c 2 t) (iblk1 V c 3 t) (iblk1 V c 4 t) ((cfg1.win 5).xinj (grid1.coords t) j)
    = Cert.SageSpec.sage (V c main_v31 : S50000x128.Idx → EReal) (V c main_v32 : S50000x128.Idx → EReal)
        (V c main_v33 : S128x256.Idx → EReal) (V c main_v34 : S128x256.Idx → EReal) (V c main_v35 : S1x256.Idx → EReal) (((cfg1.win 5).blk t).view.emb j)
  rw [hj]
  refine out_blk_apply V c t _ _ _ ?_ ?_
  · show win1_5.index t (0 : Fin 2) * 2000 + 1 * (j 0).val = t.val * 2000 + (j 0).val; omega
  · show win1_5.index t (1 : Fin 2) * 256 + 1 * (j 1).val = (j 1).val; omega

/-! ## The blocks cover the output array -/

/-- An entry of the output array is in point `t`'s block iff each coordinate is in the block's range on its axis. -/
theorem mem_blk (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v36).slice (win1_5.rect t)).set ↔ _
  rw [View.set_slice_whole, Rect.mem_set_unit]
  exact Iff.rfl

/-- Row `r` of the output lies in the block of point `r / 2000`, and every point writes back. -/
theorem cover (i : S50000x256.Idx) : ∃ t : Fin cfg1.N, (cfg1.win 5).flush t = true ∧ i ∈ ((cfg1.win 5).blk t).view.set := by
  have hi0 : (i 0).val < 50000 := (i 0).isLt
  have hi1 : (i 1).val < 256 := (i 1).isLt
  have hN : grid1.N = 25 := N_1
  have ht : (i 0).val / 2000 < grid1.N := by omega
  obtain ⟨-, -, -, -, -, -, -, -, -, -, e0, e1⟩ := idx_facts ⟨(i 0).val / 2000, ht⟩
  refine ⟨⟨(i 0).val / 2000, ht⟩, flush1_5 _, ?_⟩
  rw [mem_blk]
  intro a
  match a with
  | ⟨0, _⟩ =>
    show win1_5.index ⟨(i 0).val / 2000, ht⟩ (0 : Fin 2) * 2000 ≤ (i 0).val ∧ (i 0).val < win1_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_5.index ⟨(i 0).val / 2000, ht⟩ (1 : Fin 2) * 256 ≤ (i 1).val ∧ (i 1).val < win1_5.index ⟨(i 0).val / 2000, ht⟩ (1 : Fin 2) * 256 + 256
    rw [e1]; omega

/-! ## The output array after the region -/

/-- After the region the layer's output array holds, at every index, the layer's dense half of the region's five input arrays. -/
theorem final (c : Dev nD) : (dat1 (F := Ideal) V c).arrAt 5 cfg1.N
    = Cert.SageSpec.sage (V c main_v31 : S50000x128.Idx → EReal) (V c main_v32 : S50000x128.Idx → EReal)
        (V c main_v33 : S128x256.Idx → EReal) (V c main_v34 : S128x256.Idx → EReal) (V c main_v35 : S1x256.Idx → EReal) :=
  (dat1 (F := Ideal) V c).arrAt_eq_of_cover 5 _ (fun t _ => flushed_eq V c t) cover

end Cert.KernelIdeal.Region1

end
-- ==== Proof.Region2.lean ====
import proofs.«406964_j88648124990131_1_alg».proof.Proof.Gen.KernelIdeal.Frame
import proofs.«406964_j88648124990131_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.SL.Sem Idealize.ShloMosaic.ValueIdx
open Idealize.ShloMosaic.Pipeline (Dat Cfg Window)
open scoped BigOperators

/-- The zero offsets of a whole-block access, as the constant function. -/
theorem hz : (![0, 0] : Fin 2 → Nat) = fun _ => 0 := funext fun a => by fin_cases a <;> rfl

/-! ## The product of a block of 2000 rows with a 256 × 256 matrix, entry by entry -/

/-- The left operand's row coordinate at output entry `i` is `i`'s row. -/
theorem lhs_blk_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
/-- The left operand's column coordinate is the summation index. -/
theorem lhs_blk_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
/-- The right operand's row coordinate is the summation index. -/
theorem rhs_blk_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
/-- The right operand's column coordinate at output entry `i` is `i`'s column. -/
theorem rhs_blk_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- A 2000 × 256 block times a 256 × 256 matrix, accumulated into zero: entry `(p, q)` is the sum over `k` of
    the block's `(p, k)` entry times the matrix's `(k, q)` entry. -/
theorem blk_matmul_apply (x : FVec Ideal S2000x256 .bf16) (w : FVec Ideal S256x256 .bf16) (p : Fin 2000) (q : Fin 256) :
    matmul dot_S2000x256_S256x256_S2000x256_1_0_0_1_n_n none x w (constant S2000x256 .f32 0x00000000#32) (ix2 p q)
      = ∑ k : Fin 256, x (ix2 p k) * w (ix2 k q) := by
  simp only [matmul]
  rw [Ideal.matmul_constant_zero_apply, ← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 p q) ((ValueIdx.contrEquiv1 dot_S2000x256_S256x256_S2000x256_1_0_0_1_n_n 256 rfl rfl).symm k) = ix2 p k := funext fun a => Fin.ext (by
    match a with
    | ⟨0, _⟩ => exact lhs_blk_0 _ _
    | ⟨1, _⟩ => exact (lhs_blk_1 _ _).trans hk)
  have er : dot_S2000x256_S256x256_S2000x256_1_0_0_1_n_n.rhsIdx (ix2 p q) ((ValueIdx.contrEquiv1 dot_S2000x256_S256x256_S2000x256_1_0_0_1_n_n 256 rfl rfl).symm k) = ix2 k q := funext fun a => Fin.ext (by
    match a with
    | ⟨0, _⟩ => exact (rhs_blk_0 _ _).trans hk
    | ⟨1, _⟩ => exact rhs_blk_1 _ _)
  rw [el, er]

/-! ## The body's stored block, entry by entry -/

/-- The stored block at `(p, q)`: the two products' entries added, the bias row's entry `q` added, the maximum with zero taken. -/
theorem pay_apply (x0 x1 : FVec Ideal S2000x256 .bf16) (x2 x3 : FVec Ideal S256x256 .bf16) (x4 : FVec Ideal S1x256 .f32)
    (p : Fin 2000) (q : Fin 256) :
    k2_pay1 (F := Ideal) x0 x2 x1 x3 x4 (ix2 p q)
      = max (((∑ k : Fin 256, x0 (ix2 p k) * x2 (ix2 k q)) + (∑ k : Fin 256, x1 (ix2 p k) * x3 (ix2 k q))) + x4 (ix2 (0 : Fin 1) q)) 0 := by
  unfold k2_pay1
  simp only [shapeCast_self]
  rw [maximumf_apply, addf_apply, addf_apply, blk_matmul_apply, blk_matmul_apply, broadcastTo_1b_ab_apply, broadcast_apply]
  show max _ (Ideal.ofBits .f32 0x00000000#32) = _
  rw [Ideal.ofBits_zero_f32]

/-- What the body leaves in the output's buffer, at `(p, q)`, from the five input blocks. -/
theorem out_apply (x0 x1 : FVec Ideal S2000x256 .bf16) (x2 x3 : FVec Ideal S256x256 .bf16) (x4 : FVec Ideal S1x256 .f32)
    (p : Fin 2000) (q : Fin 256) :
    out2_5 (F := Ideal) x0 x1 x2 x3 x4 (ix2 p q)
      = max (((∑ k : Fin 256, x0 (ix2 p k) * x2 (ix2 k q)) + (∑ k : Fin 256, x1 (ix2 p k) * x3 (ix2 k q))) + x4 (ix2 (0 : Fin 1) q)) 0 := by
  unfold out2_5
  rw [View.canon_unit_zero hz]
  simp only [View.ld_unit_zero (S := S2000x256) hz, View.ld_unit_zero (S := S256x256) hz, View.ld_unit_zero (S := S1x256) hz]
  exact pay_apply x0 x1 x2 x3 x4 p q

-- the TensorCore's buffer contents when the region is entered
variable (V : (c : Dev nD) → (b : Ref sig .tc) → Buf (Elt Ideal) ((c : Thread nD τ).loc b))

/-! ## Which rows and columns each window's block holds -/

/-- The six index maps over the 25 grid points: the two feature windows and the output move down one block of rows
    per point; the two weight windows and the bias row stay at the whole array. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The neighbour-mean block at point `t` is rows `2000 t … 2000 t + 1999` of its array. -/
theorem blk0_apply (c : Dev nD) (t : Fin cfg2.N) (p : Fin 2000) (k : Fin 256) (r : Fin 50000) (hr : r.val = t.val * 2000 + p.val) :
    (iblk2 V c 0 t : FVec Ideal S2000x256 .bf16) (ix2 p k) = (V c main_v49 : S50000x256.Idx → EReal) (ix2 r k) := by
  obtain ⟨e0, e1, -⟩ := idx_facts t
  show (V c main_v49 : S50000x256.Idx → EReal) (((cfg2.win 0).blk t).view.emb (ix2 p k)) = _
  refine congrArg _ (funext fun a => Fin.ext ?_)
  match a with
  | ⟨0, _⟩ => show win2_0.index t (0 : Fin 2) * 2000 + 1 * p.val = r.val; omega
  | ⟨1, _⟩ => show win2_0.index t (1 : Fin 2) * 256 + 1 * k.val = k.val; omega

/-- The own-features block at point `t` is the same rows of its array. -/
theorem blk1_apply (c : Dev nD) (t : Fin cfg2.N) (p : Fin 2000) (k : Fin 256) (r : Fin 50000) (hr : r.val = t.val * 2000 + p.val) :
    (iblk2 V c 1 t : FVec Ideal S2000x256 .bf16) (ix2 p k) = (V c main_v50 : S50000x256.Idx → EReal) (ix2 r k) := by
  obtain ⟨-, -, e0, e1, -⟩ := idx_facts t
  show (V c main_v50 : S50000x256.Idx → EReal) (((cfg2.win 1).blk t).view.emb (ix2 p k)) = _
  refine congrArg _ (funext fun a => Fin.ext ?_)
  match a with
  | ⟨0, _⟩ => show win2_1.index t (0 : Fin 2) * 2000 + 1 * p.val = r.val; omega
  | ⟨1, _⟩ => show win2_1.index t (1 : Fin 2) * 256 + 1 * k.val = k.val; omega

/-- The first weight window's block is its whole matrix at every point. -/
theorem blk2_apply (c : Dev nD) (t : Fin cfg2.N) (k : Fin 256) (q q' : Fin 256) (hq : q'.val = q.val) :
    (iblk2 V c 2 t : FVec Ideal S256x256 .bf16) (ix2 k q) = (V c main_v51 : S256x256.Idx → EReal) (ix2 k q') := by
  obtain ⟨-, -, -, -, e0, e1, -⟩ := idx_facts t
  show (V c main_v51 : S256x256.Idx → EReal) (((cfg2.win 2).blk t).view.emb (ix2 k q)) = _
  refine congrArg _ (funext fun a => Fin.ext ?_)
  match a with
  | ⟨0, _⟩ => show win2_2.index t (0 : Fin 2) * 256 + 1 * k.val = k.val; omega
  | ⟨1, _⟩ => show win2_2.index t (1 : Fin 2) * 256 + 1 * q.val = q'.val; omega

/-- The second weight window's block is its whole matrix at every point. -/
theorem blk3_apply (c : Dev nD) (t : Fin cfg2.N) (k : Fin 256) (q q' : Fin 256) (hq : q'.val = q.val) :
    (iblk2 V c 3 t : FVec Ideal S256x256 .bf16) (ix2 k q) = (V c main_v52 : S256x256.Idx → EReal) (ix2 k q') := by
  obtain ⟨-, -, -, -, -, -, e0, e1, -⟩ := idx_facts t
  show (V c main_v52 : S256x256.Idx → EReal) (((cfg2.win 3).blk t).view.emb (ix2 k q)) = _
  refine congrArg _ (funext fun a => Fin.ext ?_)
  match a with
  | ⟨0, _⟩ => show win2_3.index t (0 : Fin 2) * 256 + 1 * k.val = k.val; omega
  | ⟨1, _⟩ => show win2_3.index t (1 : Fin 2) * 256 + 1 * q.val = q'.val; omega

/-- The bias window's block is the whole bias row at every point. -/
theorem blk4_apply (c : Dev nD) (t : Fin cfg2.N) (q q' : Fin 256) (hq : q'.val = q.val) :
    (iblk2 V c 4 t : FVec Ideal S1x256 .f32) (ix2 (0 : Fin 1) q) = (V c main_v53 : S1x256.Idx → EReal) (ix2 (0 : Fin 1) q') := by
  obtain ⟨-, -, -, -, -, -, -, -, e0, e1, -⟩ := idx_facts t
  show (V c main_v53 : S1x256.Idx → EReal) (((cfg2.win 4).blk t).view.emb (ix2 (0 : Fin 1) q)) = _
  refine congrArg _ (funext fun a => Fin.ext ?_)
  match a with
  | ⟨0, _⟩ => show win2_4.index t (0 : Fin 2) * 1 + 1 * 0 = 0; omega
  | ⟨1, _⟩ => show win2_4.index t (1 : Fin 2) * 256 + 1 * q.val = q'.val; omega

/-! ## What a point writes back -/

/-- The output's buffer after the body at point `t`, at `(p, q)`: the layer's dense half of the five whole arrays at
    the entry `i` of the output array whose row is `2000 t + p` and whose column is `q`. -/
theorem out_blk_apply (c : Dev nD) (t : Fin cfg2.N) (p : Fin 2000) (q : Fin 256) (i : S50000x256.Idx)
    (hi0 : (i 0).val = t.val * 2000 + p.val) (hi1 : (i 1).val = q.val) :
    out2_5 (F := Ideal) (iblk2 V c 0 t) (iblk2 V c 1 t) (iblk2 V c 2 t) (iblk2 V c 3 t) (iblk2 V c 4 t) (ix2 p q)
      = Cert.SageSpec.sage (V c main_v49 : S50000x256.Idx → EReal) (V c main_v50 : S50000x256.Idx → EReal)
          (V c main_v51 : S256x256.Idx → EReal) (V c main_v52 : S256x256.Idx → EReal) (V c main_v53 : S1x256.Idx → EReal) i := by
  refine (out_apply (iblk2 V c 0 t) (iblk2 V c 1 t) (iblk2 V c 2 t) (iblk2 V c 3 t) (iblk2 V c 4 t) p q).trans ?_
  unfold Cert.SageSpec.sage Cert.SageSpec.mm
  refine congrArg (fun z => max z 0) ?_
  refine congrArg₂ (· + ·) (congrArg₂ (· + ·) (Finset.sum_congr rfl fun k _ => ?_) (Finset.sum_congr rfl fun k _ => ?_)) ?_
  · exact congrArg₂ (· * ·) (blk0_apply V c t p k (Cert.SageSpec.row i) hi0) (blk2_apply V c t k q (Cert.SageSpec.col i) hi1)
  · exact congrArg₂ (· * ·) (blk1_apply V c t p k (Cert.SageSpec.row i) hi0) (blk3_apply V c t k q (Cert.SageSpec.col i) hi1)
  · exact blk4_apply V c t q (Cert.SageSpec.col i) hi1

/-- WHAT POINT `t` WRITES BACK is block `t` of the layer's dense half of the five arrays as the region finds them. -/
theorem flushed_eq (c : Dev nD) (t : Fin cfg2.N) :
    (dat2 (F := Ideal) V c).flushed 5 t = ((cfg2.win 5).blk t).view.read (Elt Ideal)
      (Cert.SageSpec.sage (V c main_v49 : S50000x256.Idx → EReal) (V c main_v50 : S50000x256.Idx → EReal)
        (V c main_v51 : S256x256.Idx → EReal) (V c main_v52 : S256x256.Idx → EReal) (V c main_v53 : S1x256.Idx → EReal)) := by
  show (cfg2.win 5).cut (grid2.coords t) ((dat2 V c).after 5 t) = _
  rw [after2_5]
  obtain ⟨-, -, -, -, -, -, -, -, -, -, e0, e1⟩ := idx_facts t
  funext j
  have hp : (j 0).val < 2000 := (j 0).isLt
  have hq : (j 1).val < 256 := (j 1).isLt
  have hj : (cfg2.win 5).xinj (grid2.coords t) j = ix2 (⟨(j 0).val, hp⟩ : Fin 2000) (⟨(j 1).val, hq⟩ : Fin 256) := by
    funext a; match a with | ⟨0, _⟩ => rfl | ⟨1, _⟩ => rfl
  show out2_5 (F := Ideal) (iblk2 V c 0 t) (iblk2 V c 1 t) (iblk2 V c 2 t) (iblk2 V c 3 t) (iblk2 V c 4 t) ((cfg2.win 5).xinj (grid2.coords t) j)
    = Cert.SageSpec.sage (V c main_v49 : S50000x256.Idx → EReal) (V c main_v50 : S50000x256.Idx → EReal)
        (V c main_v51 : S256x256.Idx → EReal) (V c main_v52 : S256x256.Idx → EReal) (V c main_v53 : S1x256.Idx → EReal) (((cfg2.win 5).blk t).view.emb j)
  rw [hj]
  refine out_blk_apply V c t _ _ _ ?_ ?_
  · show win2_5.index t (0 : Fin 2) * 2000 + 1 * (j 0).val = t.val * 2000 + (j 0).val; omega
  · show win2_5.index t (1 : Fin 2) * 256 + 1 * (j 1).val = (j 1).val; omega

/-! ## The blocks cover the output array -/

/-- An entry of the output array is in point `t`'s block iff each coordinate is in the block's range on its axis. -/
theorem mem_blk (t : Fin cfg2.N) (i : S50000x256.Idx) :
    i ∈ ((cfg2.win 5).blk t).view.set ↔ ∀ a : Fin 2, win2_5.index t a * S2000x256.size a ≤ (i a).val ∧ (i a).val < win2_5.index t a * S2000x256.size a + S2000x256.size a := by
  show i ∈ ((View.whole main_v54).slice (win2_5.rect t)).set ↔ _
  rw [View.set_slice_whole, Rect.mem_set_unit]
  exact Iff.rfl

/-- Row `r` of the output lies in the block of point `r / 2000`, and every point writes back. -/
theorem cover (i : S50000x256.Idx) : ∃ t : Fin cfg2.N, (cfg2.win 5).flush t = true ∧ i ∈ ((cfg2.win 5).blk t).view.set := by
  have hi0 : (i 0).val < 50000 := (i 0).isLt
  have hi1 : (i 1).val < 256 := (i 1).isLt
  have hN : grid2.N = 25 := N_2
  have ht : (i 0).val / 2000 < grid2.N := by omega
  obtain ⟨-, -, -, -, -, -, -, -, -, -, e0, e1⟩ := idx_facts ⟨(i 0).val / 2000, ht⟩
  refine ⟨⟨(i 0).val / 2000, ht⟩, flush2_5 _, ?_⟩
  rw [mem_blk]
  intro a
  match a with
  | ⟨0, _⟩ =>
    show win2_5.index ⟨(i 0).val / 2000, ht⟩ (0 : Fin 2) * 2000 ≤ (i 0).val ∧ (i 0).val < win2_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_5.index ⟨(i 0).val / 2000, ht⟩ (1 : Fin 2) * 256 ≤ (i 1).val ∧ (i 1).val < win2_5.index ⟨(i 0).val / 2000, ht⟩ (1 : Fin 2) * 256 + 256
    rw [e1]; omega

/-! ## The output array after the region -/

/-- After the region the layer's output array holds, at every index, the layer's dense half of the region's five input arrays. -/
theorem final (c : Dev nD) : (dat2 (F := Ideal) V c).arrAt 5 cfg2.N
    = Cert.SageSpec.sage (V c main_v49 : S50000x256.Idx → EReal) (V c main_v50 : S50000x256.Idx → EReal)
        (V c main_v51 : S256x256.Idx → EReal) (V c main_v52 : S256x256.Idx → EReal) (V c main_v53 : S1x256.Idx → EReal) :=
  (dat2 (F := Ideal) V c).arrAt_eq_of_cover 5 _ (fun t _ => flushed_eq V c t) cover

end Cert.KernelIdeal.Region2

end
-- ==== Proof.Region3.lean ====
import proofs.«406964_j88648124990131_1_alg».proof.Proof.Gen.KernelIdeal.Frame
import proofs.«406964_j88648124990131_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen
open Idealize.ShloMosaic Idealize.ShloMosaic.TcCoe Idealize.SL.Sem Idealize.ShloMosaic.ValueIdx
open Idealize.ShloMosaic.Pipeline (Dat Cfg Window)
open scoped BigOperators

/-- The zero offset of a whole-array rectangle, as the constant function. -/
theorem hz : (![0, 0] : Fin 2 → Nat) = fun _ => 0 := funext fun a => by fin_cases a <;> rfl

/-! ## The product's operand indices

For the product of a `256 × 256` by a `256 × 10` array contracting the left's columns with the right's rows,
the left operand is read at (the output's row, the contraction index) and the right at (the contraction index,
the output's column). -/

/-- The left operand's row is the output's row. -/
theorem lhs_0 (i : S256x10.Idx) (q : dot_S256x256_S256x10_S256x10_1_0_0_1_n_n.contr.Idx) :
    (dot_S256x256_S256x10_S256x10_1_0_0_1_n_n.lhsIdx i q 0).val = (i 0).val := by
  unfold DotDims.lhsIdx
  rw [dif_neg (show ¬(0 : Fin S256x256.rank) ∈ dot_S256x256_S256x10_S256x10_1_0_0_1_n_n.lhsBatch by decide), dif_pos (show (0 : Fin S256x256.rank) ∈ dot_S256x256_S256x10_S256x10_1_0_0_1_n_n.lhsNonContracting by decide)]
  rfl
/-- The left operand's column is the contraction index. -/
theorem lhs_1 (i : S256x10.Idx) (q : dot_S256x256_S256x10_S256x10_1_0_0_1_n_n.contr.Idx) :
    (dot_S256x256_S256x10_S256x10_1_0_0_1_n_n.lhsIdx i q 1).val = (q ⟨0, by decide⟩).val :=
  dot_S256x256_S256x10_S256x10_1_0_0_1_n_n.lhsIdx_val_of_single rfl i q
/-- The right operand's row is the contraction index. -/
theorem rhs_0 (i : S256x10.Idx) (q : dot_S256x256_S256x10_S256x10_1_0_0_1_n_n.contr.Idx) :
    (dot_S256x256_S256x10_S256x10_1_0_0_1_n_n.rhsIdx i q 0).val = (q ⟨0, by decide⟩).val :=
  dot_S256x256_S256x10_S256x10_1_0_0_1_n_n.rhsIdx_val_of_single rfl i q
/-- The right operand's column is the output's column. -/
theorem rhs_1 (i : S256x10.Idx) (q : dot_S256x256_S256x10_S256x10_1_0_0_1_n_n.contr.Idx) :
    (dot_S256x256_S256x10_S256x10_1_0_0_1_n_n.rhsIdx i q 1).val = (i 1).val := by
  unfold DotDims.rhsIdx
  rw [dif_neg (show ¬(1 : Fin S256x10.rank) ∈ dot_S256x256_S256x10_S256x10_1_0_0_1_n_n.rhsBatch by decide), dif_pos (show (1 : Fin S256x10.rank) ∈ dot_S256x256_S256x10_S256x10_1_0_0_1_n_n.rhsNonContracting by decide)]
  rfl

/-- The product into a zero accumulator, at entry `(p, q)`: the sum over `k` of the left array's `(p, k)` times the
    right array's `(k, q)`. -/
theorem product_apply (x0 : FVec Ideal S256x256 .bf16) (x1 : FVec Ideal S256x10 .bf16) (p : Fin 256) (q : Fin 10) :
    matmul dot_S256x256_S256x10_S256x10_1_0_0_1_n_n none x0 x1 (constant (F := Ideal) S256x10 .f32 0x00000000#32) (ix2 p q)
      = ∑ k : Fin 256, x0 (ix2 p k) * x1 (ix2 k q) := by
  simp only [matmul]
  rw [Ideal.matmul_constant_zero_apply, ← Equiv.sum_comp (ValueIdx.contrEquiv1 dot_S256x256_S256x10_S256x10_1_0_0_1_n_n 256 rfl rfl).symm]
  refine Finset.sum_congr rfl fun k _ => ?_
  have hk := ValueIdx.contrEquiv1_symm_val dot_S256x256_S256x10_S256x10_1_0_0_1_n_n 256 rfl rfl k
  have el : dot_S256x256_S256x10_S256x10_1_0_0_1_n_n.lhsIdx (ix2 p q) ((ValueIdx.contrEquiv1 dot_S256x256_S256x10_S256x10_1_0_0_1_n_n 256 rfl rfl).symm k) = ix2 p k := funext fun a => Fin.ext (by
    match a with
    | ⟨0, _⟩ => exact lhs_0 _ _
    | ⟨1, _⟩ => exact (lhs_1 _ _).trans hk)
  have er : dot_S256x256_S256x10_S256x10_1_0_0_1_n_n.rhsIdx (ix2 p q) ((ValueIdx.contrEquiv1 dot_S256x256_S256x10_S256x10_1_0_0_1_n_n 256 rfl rfl).symm k) = ix2 k q := funext fun a => Fin.ext (by
    match a with
    | ⟨0, _⟩ => exact (rhs_0 _ _).trans hk
    | ⟨1, _⟩ => exact rhs_1 _ _)
  rw [el, er]

/-- The body's stored value at entry `(p, q)`: the product's entry plus the bias row's entry `q`. -/
theorem pay_apply (x0 : FVec Ideal S256x256 .bf16) (x1 : FVec Ideal S256x10 .bf16) (x2 : FVec Ideal S1x10 .f32) (p : Fin 256) (q : Fin 10) :
    k3_pay1 (F := Ideal) x0 x1 x2 (ix2 p q) = (∑ k : Fin 256, x0 (ix2 p k) * x1 (ix2 k q)) + x2 (ix2 (0 : Fin 1) q) := by
  unfold k3_pay1
  simp only [shapeCast_self]
  rw [addf_apply, product_apply, broadcastTo_1b_ab_apply]

/-! ## One grid point, whole windows -/

/-- Every window's block index is `(0, 0)` at every point of the grid. -/
theorem idx_facts : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

-- the TensorCore's buffer contents when the region is entered
variable (V : (c : Dev nD) → (b : Ref sig .tc) → Buf (Elt Ideal) ((c : Thread nD τ).loc b))

/-- The pooled features' block is the whole array. -/
theorem iblk_0 (c : Dev nD) (t : Fin cfg3.N) : iblk3 V c 0 t = (V c main_v60 : S256x256.Idx → EReal) := by
  obtain ⟨e0, e1, -⟩ := idx_facts t
  funext y
  show V c main_v60 (((cfg3.win 0).blk t).view.emb y) = V c main_v60 y
  refine congrArg _ (funext fun a => Fin.ext ?_)
  match a with
  | ⟨0, _⟩ => show win3_0.index t (0 : Fin 2) * 256 + 1 * (y 0).val = (y 0).val; omega
  | ⟨1, _⟩ => show win3_0.index t (1 : Fin 2) * 256 + 1 * (y 1).val = (y 1).val; omega

/-- The weights' block is the whole array. -/
theorem iblk_1 (c : Dev nD) (t : Fin cfg3.N) : iblk3 V c 1 t = (V c main_v61 : S256x10.Idx → EReal) := by
  obtain ⟨-, -, e0, e1, -⟩ := idx_facts t
  funext y
  show V c main_v61 (((cfg3.win 1).blk t).view.emb y) = V c main_v61 y
  refine congrArg _ (funext fun a => Fin.ext ?_)
  match a with
  | ⟨0, _⟩ => show win3_1.index t (0 : Fin 2) * 256 + 1 * (y 0).val = (y 0).val; omega
  | ⟨1, _⟩ => show win3_1.index t (1 : Fin 2) * 10 + 1 * (y 1).val = (y 1).val; omega

/-- The bias row's block is the whole array. -/
theorem iblk_2 (c : Dev nD) (t : Fin cfg3.N) : iblk3 V c 2 t = (V c main_v62 : S1x10.Idx → EReal) := by
  obtain ⟨-, -, -, -, e0, e1, -⟩ := idx_facts t
  funext y
  show V c main_v62 (((cfg3.win 2).blk t).view.emb y) = V c main_v62 y
  refine congrArg _ (funext fun a => Fin.ext ?_)
  match a with
  | ⟨0, _⟩ => show win3_2.index t (0 : Fin 2) * 1 + 1 * (y 0).val = (y 0).val; omega
  | ⟨1, _⟩ => show win3_2.index t (1 : Fin 2) * 10 + 1 * (y 1).val = (y 1).val; omega

/-- An entry of the result's block sits at the same place in the result array. -/
theorem emb_3 (t : Fin cfg3.N) (j : S256x10.Idx) : ((cfg3.win 3).blk t).view.emb j = j := by
  obtain ⟨-, -, -, -, -, -, e0, e1⟩ := idx_facts t
  refine funext fun a => Fin.ext ?_
  match a with
  | ⟨0, _⟩ => show win3_3.index t (0 : Fin 2) * 256 + 1 * (j 0).val = (j 0).val; omega
  | ⟨1, _⟩ => show win3_3.index t (1 : Fin 2) * 10 + 1 * (j 1).val = (j 1).val; omega

/-- What a point writes back is its block of the closing linear map of the three input arrays. -/
theorem flushed_eq (c : Dev nD) (t : Fin cfg3.N) :
    (dat3 (F := Ideal) V c).flushed 3 t = ((cfg3.win 3).blk t).view.read (Elt Ideal)
      (Cert.SageSpec.lin (V c main_v60 : S256x256.Idx → EReal) (V c main_v61 : S256x10.Idx → EReal) (V c main_v62 : S1x10.Idx → EReal)) := by
  show (cfg3.win 3).cut (grid3.coords t) ((dat3 (F := Ideal) V c).after 3 t) = _
  rw [after3_3]
  unfold out3_3
  rw [View.canon_unit_zero hz]
  simp only [View.ld_unit_zero (S := S256x256) hz, View.ld_unit_zero (S := S256x10) hz, View.ld_unit_zero (S := S1x10) hz]
  rw [iblk_0, iblk_1, iblk_2]
  funext j
  show k3_pay1 (F := Ideal) (V c main_v60) (V c main_v61) (V c main_v62) j
    = Cert.SageSpec.lin (V c main_v60 : S256x256.Idx → EReal) (V c main_v61 : S256x10.Idx → EReal) (V c main_v62 : S1x10.Idx → EReal) (((cfg3.win 3).blk t).view.emb j)
  rw [emb_3]
  obtain ⟨p, q, rfl⟩ : ∃ (p : Fin 256) (q : Fin 10), j = ix2 p q := ⟨j 0, j 1, eq_ix2 j⟩
  rw [pay_apply]
  rfl

/-- Every index of the result array lies in the one point's block. -/
theorem cover (i : S256x10.Idx) : ∃ t : Fin cfg3.N, (cfg3.win 3).flush t = true ∧ i ∈ ((cfg3.win 3).blk t).view.set := by
  refine ⟨t3_0, flush3_3 t3_0, ?_⟩
  obtain ⟨-, -, -, -, -, -, e0, e1⟩ := idx_facts t3_0
  show i ∈ ((View.whole main_v63).slice (win3_3.rect t3_0)).set
  rw [View.set_slice_whole, Rect.mem_set_unit]
  intro a
  have h0 : (i 0).val < 256 := (i 0).isLt
  have h1 : (i 1).val < 10 := (i 1).isLt
  match a with
  | ⟨0, _⟩ => show win3_3.index t3_0 (0 : Fin 2) * 256 ≤ (i 0).val ∧ (i 0).val < win3_3.index t3_0 (0 : Fin 2) * 256 + 256; omega
  | ⟨1, _⟩ => show win3_3.index t3_0 (1 : Fin 2) * 10 ≤ (i 1).val ∧ (i 1).val < win3_3.index t3_0 (1 : Fin 2) * 10 + 10; omega

/-- After the region the result array holds, at every index, the closing linear map of the region's three input arrays. -/
theorem final (c : Dev nD) : (dat3 (F := Ideal) V c).arrAt 3 cfg3.N
    = Cert.SageSpec.lin (V c main_v60 : S256x256.Idx → EReal) (V c main_v61 : S256x10.Idx → EReal) (V c main_v62 : S1x10.Idx → EReal) :=
  (dat3 (F := Ideal) V c).arrAt_eq_of_cover 3 _ (fun t _ => flushed_eq V c t) cover

end Cert.KernelIdeal.Region3

end
-- ==== Proof.Whole.lean ====
import proofs.«406964_j88648124990131_1_alg».proof.Proof.Terms
import proofs.«406964_j88648124990131_1_alg».proof.Proof.Spec

/-!
The whole program's value as one function of its twelve arguments, on the extended reals: the embedded
features are the one-hot rows times the table; each of the two layers takes the neighbour mean of the
features before it and those features through its weights, adds its bias and cuts at zero; the result is
the per-graph mean of the last features through the closing weights, plus the closing bias. Narrowing a
float to a shorter format is written where the program does it (on the extended reals it changes nothing).
-/

set_option maxRecDepth 16384

noncomputable section

namespace Cert.KernelIdeal.Whole

open Cert.KernelIdeal Cert.KernelIdeal.Facts₀ Cert.KernelIdeal.Terms Idealize.ShloMosaic

variable (x : IVec S50000 32) (ei : IVec S2x800000 32) (bt : IVec S50000 32) (emb : FVec Ideal S40x128 .f32)
  (w1l w1r : FVec Ideal S128x256 .f32) (b1 : FVec Ideal S256 .f32) (w2l w2r : FVec Ideal S256x256 .f32) (b2 : FVec Ideal S256 .f32)
  (wo : FVec Ideal S256x10 .f32) (bo : FVec Ideal S10 .f32)

/-- The embedded features. -/
def h0 : FVec Ideal S50000x128 .f32 :=
  Cert.SageSpec.mm (onehot (F := Ideal) x) (truncf .bf16 emb bitsLt_bf16_f32)

/-- The first layer's features. -/
def h1 : FVec Ideal S50000x256 .f32 :=
  Cert.SageSpec.sage
    (truncf .bf16 (mean128 (F := Ideal) (h0 x emb) (srcOf ei) (dstOf ei) (degOf (dstOf ei))) bitsLt_bf16_f32)
    (truncf .bf16 (h0 x emb) bitsLt_bf16_f32) (truncf .bf16 w1l bitsLt_bf16_f32) (truncf .bf16 w1r bitsLt_bf16_f32)
    (shapeCast S1x256 b1 shapeCasts_S256_S1x256)

/-- The second layer's features. -/
def h2 : FVec Ideal S50000x256 .f32 :=
  Cert.SageSpec.sage
    (truncf .bf16 (mean256 (F := Ideal) (h1 x ei emb w1l w1r b1) (srcOf ei) (dstOf ei) (degOf (dstOf ei))) bitsLt_bf16_f32)
    (truncf .bf16 (h1 x ei emb w1l w1r b1) bitsLt_bf16_f32) (truncf .bf16 w2l bitsLt_bf16_f32) (truncf .bf16 w2r bitsLt_bf16_f32)
    (shapeCast S1x256 b2 shapeCasts_S256_S1x256)

/-- The result. -/
def out : FVec Ideal S256x10 .f32 :=
  Cert.SageSpec.lin
    (truncf .bf16 (pool (F := Ideal) (h2 x ei emb w1l w1r b1 w2l w2r b2) bt (cntOf bt)) bitsLt_bf16_f32)
    (truncf .bf16 wo bitsLt_bf16_f32) (shapeCast S1x10 bo shapeCasts_S10_S1x10)

end Cert.KernelIdeal.Whole

end
-- ==== Proof.Composed.lean ====
import proofs.«406964_j88648124990131_1_alg».proof.Proof.Entry3
import proofs.«406964_j88648124990131_1_alg».proof.Proof.Region0
import proofs.«406964_j88648124990131_1_alg».proof.Proof.Region1
import proofs.«406964_j88648124990131_1_alg».proof.Proof.Region2
import proofs.«406964_j88648124990131_1_alg».proof.Proof.Region3
import proofs.«406964_j88648124990131_1_alg».proof.Proof.Whole

/-!
The program's run, composed. Each kernel region leaves its output array at the dense function of the arrays it
entered with; between the regions the host operations turn one region's output and the arguments into the next
region's inputs. Chained from the launch memory, the four regions' output arrays are the embedded features, the
two layers' features and the result, each as the one function of the argument arrays.
-/

set_option maxRecDepth 16384

noncomputable section

namespace Cert.KernelIdeal.Composed

open Cert.KernelIdeal Cert.KernelIdeal.Gen Cert.KernelIdeal.Terms
open Idealize.ShloMosaic Idealize.ShloMosaic.TcCoe Idealize.SL.Sem

variable (m : (ℓ : Loc nD τ sig) → Buf (Elt Ideal) ℓ) (ρ : Dev nD → PrngReg)

/-- The first region is entered with the one-hot rows of the index argument … -/
theorem oneHot_V3 (c : Dev nD) : V3 m ρ c main_v16 = onehot (F := Ideal) (m ((c : Thread nD τ).loc main_arg0)) := Entry0.oneHot_W3 m ρ c
/-- … and the narrowed table argument. -/
theorem table_V3 (c : Dev nD) : V3 m ρ c main_v17 = truncf (F := Ideal) .bf16 ((m ((c : Thread nD τ).loc main_arg3)) : FVec Ideal S40x128 .f32) bitsLt_bf16_f32 := Entry0.table_W3 m ρ c

/-- The first region's output array: the embedded features. -/
theorem feat0 (c : Dev nD) : (dat0 (F := Ideal) (V3 m ρ) c).arrAt 2 cfg0.N = Whole.h0 (m ((c : Thread nD τ).loc main_arg0)) (m ((c : Thread nD τ).loc main_arg3)) := by
  rw [Region0.final (V3 m ρ) c, oneHot_V3, table_V3]
  rfl

/-- The second region's output array: the first layer's features. -/
theorem feat1 (c : Dev nD) : (dat1 (F := Ideal) (V5 m ρ) c).arrAt 5 cfg1.N
    = Whole.h1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  rw [Region1.final (V5 m ρ) c, Entry1.mean_V5, Entry1.self_V5, Entry1.wl_V5, Entry1.wr_V5, Entry1.bias_V5, feat0]
  rfl

/-- The third region's output array: the second layer's features. -/
theorem feat2 (c : Dev nD) : (dat2 (F := Ideal) (V7 m ρ) c).arrAt 5 cfg2.N
    = Whole.h2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [Region2.final (V7 m ρ) c, Entry2.mean_V7, Entry2.self_V7, Entry2.wl_V7, Entry2.wr_V7, Entry2.bias_V7, feat1]
  rfl

/-- The result buffer after the last region: the whole program's value of the twelve arguments. -/
theorem result (c : Dev nD) : W10 m ρ c (Proc.devRef .tc main_v63)
    = Whole.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [Entry3.result_W10, Region3.final (V9 m ρ) c, Entry3.pool_V9, Entry3.w_V9, Entry3.bias_V9, feat2]
  rfl

end Cert.KernelIdeal.Composed

end
-- ==== Proof.LibIndexWords.lean ====
import Idealize.ShloMosaic.PureOps.Vector
import Idealize.ShloMosaic.Lib.StableHlo.Predicate

/-!
# Index words: 32-bit words whose signed value is a small natural number

An index into a table of `N` rows travels as a 32-bit two's-complement word `x`. When its signed value
`x.toInt` is already a row number `k < N`, the arithmetic a program wraps around it does nothing:

* clipping into a range that holds it, `minimum(hi, maximum(lo, x))`, gives `x` back (`clip_of_mem`);
* the wrap of a negative index, `select(x < 0, x + n, x)`, takes the second branch (`wrap_of_nonneg`);
* the clamp of a start index into the table, `min x.toInt.toNat (N - 1)`, is `k` (`clamp_of_eq`,
  `clamp_fin_of_eq`).

Each is stated at one element, for the operations on words (`IntOp.maxsi`, `IntOp.minsi`, `IntOp.cmpi`,
`IntOp.addi`, `Scalar.select`) that the elementwise operations on arrays apply at every index; the
array forms follow by function extensionality (`clip_vec_of_mem`, `wrap_vec_of_nonneg`). The last
section moves between a word and its value: the word of a small natural number has that value, and a
word is determined by its signed value.
-/

namespace Cert.LibIndexWords

open Idealize.ShloMosaic

/-! ## The signed order, read on the signed values -/

/-- `a` is not strictly below `b` in the signed order exactly when `b.toInt ≤ a.toInt`. -/
theorem slt_eq_false_of_le {a b : BitVec 32} (h : b.toInt ≤ a.toInt) : a.slt b = false := by
  simp only [BitVec.slt, decide_eq_false_iff_not, not_lt]
  exact h

/-! ## Clipping -/

/-- Clipping into a range leaves a word of that range alone. With `lo ≤ x ≤ hi` as signed values,
    `maximum(lo, x)` keeps `x` (it would take `lo` only if `x` were strictly below it) and then
    `minimum(hi, x)` keeps `x` (it would take `hi` only if `hi` were strictly below `x`). -/
theorem clip_of_mem (x lo hi : BitVec 32) (hlo : lo.toInt ≤ x.toInt) (hhi : x.toInt ≤ hi.toInt) :
    IntOp.minsi hi (IntOp.maxsi lo x) = x := by
  have hmax : IntOp.maxsi lo x = x := by
    unfold IntOp.maxsi
    rw [slt_eq_false_of_le hlo]
    rfl
  rw [hmax]
  unfold IntOp.minsi
  rw [slt_eq_false_of_le hhi]
  rfl

/-- The same with the range given by a row count: a word whose value is a row number `k < N` is left
    alone by the clip to `[0, N - 1]`, whatever word `hi` carries the value `N - 1`. -/
theorem clip_of_fin {N : Nat} (x hi : BitVec 32) (k : Fin N) (hx : x.toInt = (k.val : ℤ))
    (hhi : hi.toInt = ((N - 1 : ℕ) : ℤ)) : IntOp.minsi hi (IntOp.maxsi 0#32 x) = x := by
  have h0 : (0#32 : BitVec 32).toInt = 0 := by decide
  have hk := k.isLt
  exact clip_of_mem x 0#32 hi (by rw [h0, hx]; omega) (by rw [hx, hhi]; omega)

/-- Clipping a whole array of words, each within the bounds at its own position, gives the array back. -/
theorem clip_vec_of_mem {s : Shape} (x lo hi : IVec s 32)
    (h : ∀ i, (lo i).toInt ≤ (x i).toInt ∧ (x i).toInt ≤ (hi i).toInt) : minsi hi (maxsi lo x) = x :=
  funext fun i => clip_of_mem (x i) (lo i) (hi i) (h i).1 (h i).2

/-! ## Wrapping a negative index -/

/-- The wrap `select(x < 0, x + n, x)` of a word that is not negative is the word: the signed comparison
    with zero answers the bit `0`, and the selection on bit `0` takes its second branch. -/
theorem wrap_of_nonneg (x n : BitVec 32) (hx : 0 ≤ x.toInt) :
    Scalar.select (IntOp.cmpi .slt x 0#32) (IntOp.addi x n) x = x := by
  have h0 : (0#32 : BitVec 32).toInt = 0 := by decide
  have hlt : x.slt 0#32 = false := slt_eq_false_of_le (by rw [h0]; exact hx)
  unfold IntOp.cmpi Scalar.select
  rw [hlt]
  rfl

/-- Wrapping a whole array of words, none of them negative, gives the array back; `zero` is any array
    that holds the word `0` everywhere (a broadcast constant) and `n` any array of offsets. -/
theorem wrap_vec_of_nonneg {s : Shape} (x zero n : IVec s 32) (hz : ∀ i, zero i = 0#32)
    (hx : ∀ i, 0 ≤ (x i).toInt) : select (cmpi .slt x zero) (addi x n) x = x :=
  funext fun i => by
    show Scalar.select (IntOp.cmpi .slt (x i) (zero i)) (IntOp.addi (x i) (n i)) (x i) = x i
    rw [hz i]
    exact wrap_of_nonneg (x i) (n i) (hx i)

/-! ## Clamping a start index into a table -/

/-- A start index whose signed value is a row number `k` of a table of `N` rows is clamped to `k`: read
    as a natural number it is `k`, and `k ≤ N - 1`. -/
theorem clamp_of_eq (x : BitVec 32) (N : Nat) (k : Fin N) (hx : x.toInt = (k.val : ℤ)) :
    min x.toInt.toNat (N - 1) = k.val := by
  have hk := k.isLt
  rw [hx, Int.toNat_natCast]
  exact Nat.min_eq_left (by omega)

/-- The clamped start index, as a row of the table, is `k` (whatever the proof that it is a row). -/
theorem clamp_fin_of_eq (x : BitVec 32) (N : Nat) (k : Fin N) (hx : x.toInt = (k.val : ℤ))
    (h : min x.toInt.toNat (N - 1) < N) : (⟨min x.toInt.toNat (N - 1), h⟩ : Fin N) = k :=
  Fin.ext (clamp_of_eq x N k hx)

/-! ## Between a word and its value -/

/-- The word of a natural number below `2 ^ 31` has that number as its signed value
    (`StableHlo.Predicate.toInt_ofNat_small`). -/
theorem toInt_ofNat_of_lt (n : ℕ) (hn : n < 2 ^ 31) : (BitVec.ofNat 32 n).toInt = (n : ℤ) :=
  StableHlo.Predicate.toInt_ofNat_small n hn

/-- The word of a row number of a table of at most `2 ^ 31` rows has that row number as its signed value. -/
theorem toInt_ofNat_fin {N : Nat} (hN : N ≤ 2 ^ 31) (k : Fin N) : (BitVec.ofNat 32 k.val).toInt = (k.val : ℤ) :=
  toInt_ofNat_of_lt k.val (lt_of_lt_of_le k.isLt hN)

/-- At ten thousand rows. -/
theorem toInt_ofNat_fin10000 (k : Fin 10000) : (BitVec.ofNat 32 k.val).toInt = (k.val : ℤ) :=
  toInt_ofNat_fin (by decide) k

/-- A word is determined by its signed value. -/
theorem eq_of_toInt_eq {x y : BitVec 32} (h : x.toInt = y.toInt) : x = y := BitVec.eq_of_toInt_eq h

/-- A word whose signed value is a natural number below `2 ^ 31` is the word of that number. -/
theorem eq_ofNat_of_toInt_eq {x : BitVec 32} {n : ℕ} (hn : n < 2 ^ 31) (hx : x.toInt = (n : ℤ)) :
    x = BitVec.ofNat 32 n :=
  eq_of_toInt_eq (by rw [hx, toInt_ofNat_of_lt n hn])

/-- A word whose signed value lies in `[0, N)` names a row of a table of `N` rows: its value read as a
    natural number is below `N`, and is the signed value again. -/
theorem toInt_eq_fin_of_mem {x : BitVec 32} {N : Nat} (h0 : 0 ≤ x.toInt) (hN : x.toInt < (N : ℤ)) :
    ∃ k : Fin N, x.toInt = (k.val : ℤ) :=
  ⟨⟨x.toInt.toNat, by omega⟩, by simp only [Int.toNat_of_nonneg h0]⟩

end Cert.LibIndexWords
-- ==== Proof.LibScatterGatherRows.lean ====
import Idealize.ShloMosaic.Lib.ValueIdx
import Idealize.ShloMosaic.PureOps.Contract
import Mathlib.Algebra.BigOperators.Group.Finset.Basic
import Mathlib.Algebra.BigOperators.Group.Finset.Piecewise

/-!
# Row gather and row scatter-add, read at an index

Two array operations over a table of `N` rows, indexed by a column of `n` integer words:

* the ROW GATHER `table[idx]`: result row `e` is the table's row named by the `e`-th index word. The
  word is read as a SIGNED integer and CLAMPED into `[0, N − 1]` (a negative word reads row `0`, a word
  past the end reads the last row); the column is kept. `gather_rows` states this for an `N × D` table at
  one element `(e, k)`, for any element type.
* the ROW SCATTER-ADD (a segment sum, `table.at[idx].add(updates)`) over the extended reals: result
  element `(v, k)` is the operand's element plus the sum of the update elements `(e, k)` over exactly
  those update rows `e` whose index word, read SIGNED and NOT clamped, EQUALS `v`. An update row whose
  index is negative or at least `N` lands nowhere and is dropped. `resultIdx_rows` says where one update
  element lands; `hostScatterAdd_rows` / `scatterAdd_rows` give the sum for an `N × D` operand, and
  `resultIdx_vec` / `hostScatterAdd_vec` / `scatterAdd_vec` the same for a vector of `N` elements
  (updates a vector of `n` elements).

Every statement is for arbitrary extents `N`, `D`, `n` and any record of dimension numbers whose lists
are the ones named by the hypotheses (one collapsed / inserted row axis `0`, the index vector on axis
`1` of the `n × 1` index column, the column axis `1` an offset / window axis), so each applies to a
concrete record with `rfl` for every list.
-/

open scoped BigOperators

namespace Cert.LibScatterGatherRows

open Idealize.ShloMosaic Idealize.ShloMosaic.ValueIdx

/-! ## The row gather -/

/-- THE ROW GATHER AT `(e, k)`: the table at row "index word `e`, read signed and clamped into
    `[0, N − 1]`", column `k`. On the row axis (collapsed, start-indexed) the operand coordinate is the
    clamped start; on the column axis (an offset axis, not start-indexed) it is the result's column. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec ⟨2, ![n, 1]⟩ w) (e : Fin n) (k : Fin D) (hN : 0 < N) :
    Host.gather d x idx (ix2 e k) = x (ix2 ⟨min (idx (ix2 e 0)).toInt.toNat (N - 1), by omega⟩ k) := by
  -- the collapsed row axis has slice size 1, so the clamp's upper end is N − 1
  have hsl : d.sliceSizes 0 = 1 := d.slice_collapsed 0 (by rw [hcoll]; exact List.mem_singleton.mpr rfl)
  obtain ⟨off, coll, ob, sb, sim, ivd, ss, wf⟩ := d
  simp only at hoff hcoll hob hsim hivd hsl
  subst hoff hcoll hob hsim hivd
  unfold Host.gather
  congr 1
  funext a
  apply Fin.ext
  match a with
  | ⟨0, _⟩ =>
    -- the start index of result element (e, k) is read at (e, 0) of the index column
    have hsi : ∀ c, (GatherDims.siIdx ⟨[1], [0], [], sb, [0], 1, ss, wf⟩ (ix2 e k) c : (⟨2, ![n, 1]⟩ : Shape).Idx)
        = ix2 e 0 := by
      intro c
      funext b
      apply Fin.ext
      match b with
      | ⟨0, _⟩ => rfl
      | ⟨1, _⟩ =>
        have := c.isLt
        simp only [List.length_singleton] at this
        show c.val = 0
        omega
    show min (idx (GatherDims.siIdx _ _ _)).toInt.toNat (N - ss 0) + 0 + 0 = min (idx (ix2 e 0)).toInt.toNat (N - 1)
    rw [hsi, hsl]
    rfl
  | ⟨1, _⟩ =>
    -- the column axis: start 0, no batching, offset coordinate the result's column
    show GatherDims.start _ _ _ _ + GatherDims.batchCoord _ _ _ + GatherDims.offCoord _ _ _ = k.val
    rw [GatherDims.batchCoord_eq_zero _ _ _ List.not_mem_nil]
    unfold GatherDims.start GatherDims.offCoord
    split
    · next ha => exact absurd ha (show (1 : Fin 2) ∉ ([0] : List (Fin 2)) by decide)
    · split
      · rw [Nat.add_zero, Nat.zero_add]
        rfl
      · next ha => exact absurd (show (1 : Fin 2) ∈ ([1] : List (Fin 2)) by decide) ha

/-- The row gather of a table of extended reals (any float format's ideal values), at `(e, k)`. -/
theorem gather_rows_ideal {φ : FTy} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (x : FVec Ideal ⟨2, ![N, D]⟩ φ) (idx : IVec ⟨2, ![n, 1]⟩ w) (e : Fin n) (k : Fin D) (hN : 0 < N) :
    (Host.gather d x idx : FVec Ideal ⟨2, ![n, D]⟩ φ) (ix2 e k)
      = x (ix2 ⟨min (idx (ix2 e 0)).toInt.toNat (N - 1), by omega⟩ k) :=
  gather_rows d hoff hcoll hob hsim hivd x idx e k hN

/-! ## The row scatter-add over an `N × D` operand -/

/-- WHERE AN UPDATE ELEMENT LANDS: update element `(e, k')` lands on operand element `(v, k)` exactly when
    the `e`-th index word, read signed, is `v`, and the columns agree. (On the row axis the landing
    coordinate is the unclamped start plus window coordinate 0; on the column axis it is start 0 plus the
    update's column; a landing point outside the operand is no point at all.) -/
theorem resultIdx_rows {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (idx : IVec ⟨2, ![n, 1]⟩ w) (e : Fin n) (k' : Fin D) (v : Fin N) (k : Fin D) :
    d.resultIdx? (ix2 e k') idx = some (ix2 v k) ↔ (idx (ix2 e 0)).toInt = (v.val : ℤ) ∧ k' = k := by
  obtain ⟨uw, iw, sd, ivd, wf⟩ := d
  simp only at huw hiw hsd hivd
  subst huw hiw hsd hivd
  -- the start and the window coordinate on each of the two operand axes
  have hs0 : ScatterDims.start ⟨[1], [0], [0], 1, wf⟩ (ix2 e k') idx 0 = (idx (ix2 e 0)).toInt := by
    unfold ScatterDims.start
    split
    · congr 2
      funext b
      apply Fin.ext
      match b with
      | ⟨0, _⟩ => rfl
      | ⟨1, _⟩ => rfl
    · next ha => exact absurd (show (0 : Fin 2) ∈ ([0] : List (Fin 2)) by decide) ha
  have hs1 : ScatterDims.start ⟨[1], [0], [0], 1, wf⟩ (ix2 e k') idx 1 = 0 := by
    unfold ScatterDims.start
    split
    · next ha => exact absurd ha (show (1 : Fin 2) ∉ ([0] : List (Fin 2)) by decide)
    · rfl
  have hw0 : ScatterDims.window ⟨[1], [0], [0], 1, wf⟩ (ix2 e k') 0 = 0 := by
    unfold ScatterDims.window
    split
    · next ha => exact absurd ha (show (0 : Fin 2) ∉ ([1] : List (Fin 2)) by decide)
    · rfl
  have hw1 : ScatterDims.window ⟨[1], [0], [0], 1, wf⟩ (ix2 e k') 1 = k'.val := by
    unfold ScatterDims.window
    split
    · rfl
    · next ha => exact absurd (show (1 : Fin 2) ∈ ([1] : List (Fin 2)) by decide) ha
  unfold ScatterDims.resultIdx?
  split
  · next h =>
    -- the landing point is inside the operand: compare it with (v, k) coordinate by coordinate
    have h0 := h 0
    rw [hs0, hw0] at h0
    constructor
    · intro hf
      have hf' := Option.some.inj hf
      have e0 : (ScatterDims.start ⟨[1], [0], [0], 1, wf⟩ (ix2 e k') idx 0
          + (ScatterDims.window ⟨[1], [0], [0], 1, wf⟩ (ix2 e k') 0 : ℕ)).toNat = v.val :=
        congrArg (fun f : (⟨2, ![N, D]⟩ : Shape).Idx => (f 0).val) hf'
      have e1 : (ScatterDims.start ⟨[1], [0], [0], 1, wf⟩ (ix2 e k') idx 1
          + (ScatterDims.window ⟨[1], [0], [0], 1, wf⟩ (ix2 e k') 1 : ℕ)).toNat = k.val :=
        congrArg (fun f : (⟨2, ![N, D]⟩ : Shape).Idx => (f 1).val) hf'
      rw [hs0, hw0] at e0
      rw [hs1, hw1] at e1
      exact ⟨by omega, Fin.ext (by omega)⟩
    · rintro ⟨hv, rfl⟩
      congr 1
      funext a
      apply Fin.ext
      match a with
      | ⟨0, _⟩ =>
        show (ScatterDims.start ⟨[1], [0], [0], 1, wf⟩ (ix2 e k') idx 0
          + (ScatterDims.window ⟨[1], [0], [0], 1, wf⟩ (ix2 e k') 0 : ℕ)).toNat = v.val
        rw [hs0, hw0]; omega
      | ⟨1, _⟩ =>
        show (ScatterDims.start ⟨[1], [0], [0], 1, wf⟩ (ix2 e k') idx 1
          + (ScatterDims.window ⟨[1], [0], [0], 1, wf⟩ (ix2 e k') 1 : ℕ)).toNat = k'.val
        rw [hs1, hw1]; omega
  · next h =>
    -- the landing point is outside the operand: then the index word is no row of it
    constructor
    · intro hf; exact absurd hf (by simp)
    · rintro ⟨hv, rfl⟩
      exfalso
      apply h
      intro a
      match a with
      | ⟨0, _⟩ =>
        show 0 ≤ ScatterDims.start ⟨[1], [0], [0], 1, wf⟩ (ix2 e k') idx 0
            + (ScatterDims.window ⟨[1], [0], [0], 1, wf⟩ (ix2 e k') 0 : ℕ)
          ∧ ScatterDims.start ⟨[1], [0], [0], 1, wf⟩ (ix2 e k') idx 0
            + (ScatterDims.window ⟨[1], [0], [0], 1, wf⟩ (ix2 e k') 0 : ℕ) < (N : ℤ)
        rw [hs0, hw0]
        have := v.isLt
        omega
      | ⟨1, _⟩ =>
        show 0 ≤ ScatterDims.start ⟨[1], [0], [0], 1, wf⟩ (ix2 e k') idx 1
            + (ScatterDims.window ⟨[1], [0], [0], 1, wf⟩ (ix2 e k') 1 : ℕ)
          ∧ ScatterDims.start ⟨[1], [0], [0], 1, wf⟩ (ix2 e k') idx 1
            + (ScatterDims.window ⟨[1], [0], [0], 1, wf⟩ (ix2 e k') 1 : ℕ) < (D : ℤ)
        rw [hs1, hw1]
        have := k'.isLt
        omega

/-- THE ROW SCATTER-ADD AT `(v, k)`: the operand's element plus the sum, over the update rows `e` whose
    index word read signed equals `v`, of the update element `(e, k)`. The sum over all update elements
    that land on `(v, k)` splits into rows and columns; in each row only column `k` can land there. -/
theorem hostScatterAdd_rows {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (x : (⟨2, ![N, D]⟩ : Shape).Idx → EReal) (idx : IVec ⟨2, ![n, 1]⟩ w)
    (upd : (⟨2, ![n, D]⟩ : Shape).Idx → EReal) (v : Fin N) (k : Fin D) :
    Ideal.hostScatterAdd d x idx upd (ix2 v k)
      = x (ix2 v k)
        + ∑ e ∈ Finset.univ.filter (fun e : Fin n => (idx (ix2 e 0)).toInt = (v.val : ℤ)), upd (ix2 e k) := by
  classical
  unfold Ideal.hostScatterAdd
  congr 1
  rw [Finset.sum_filter, sum_idx2, Finset.sum_filter]
  refine Finset.sum_congr rfl (fun e _ => ?_)
  simp only [resultIdx_rows d huw hiw hsd hivd]
  by_cases hP : (idx (ix2 e 0)).toInt = (v.val : ℤ)
  · simp [hP]
  · simp [hP]

/-- The same for the scatter-add operation at the ideal instance (any float format). -/
theorem scatterAdd_rows {φ : FTy} {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (x : FVec Ideal ⟨2, ![N, D]⟩ φ) (idx : IVec ⟨2, ![n, 1]⟩ w)
    (upd : FVec Ideal ⟨2, ![n, D]⟩ φ) (v : Fin N) (k : Fin D) :
    Host.scatterAdd (F := Ideal) d x idx upd (ix2 v k)
      = x (ix2 v k)
        + ∑ e ∈ Finset.univ.filter (fun e : Fin n => (idx (ix2 e 0)).toInt = (v.val : ℤ)), upd (ix2 e k) := by
  unfold Host.scatterAdd
  rw [Ideal.hostScatterAdd_def]
  exact hostScatterAdd_rows d huw hiw hsd hivd x idx upd v k

/-! ## The scatter-add over a vector of `N` elements -/

/-- A rank-1 index set is its one coordinate range … -/
def idxEquiv1 {n : Nat} : (⟨1, ![n]⟩ : Shape).Idx ≃ Fin n where
  toFun i := i 0
  invFun e := ix1 e
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ e : Fin n, f (ix1 e) :=
  (Equiv.sum_comp (idxEquiv1 (n := n)).symm f).symm

/-- WHERE AN UPDATE ELEMENT LANDS, for a vector: update element `e` lands on operand element `v` exactly when
    the `e`-th index word, read signed, is `v`. -/
theorem resultIdx_vec {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (idx : IVec ⟨2, ![n, 1]⟩ w) (e : Fin n) (v : Fin N) :
    d.resultIdx? (ix1 e) idx = some (ix1 v) ↔ (idx (ix2 e 0)).toInt = (v.val : ℤ) := by
  obtain ⟨uw, iw, sd, ivd, wf⟩ := d
  simp only at huw hiw hsd hivd
  subst huw hiw hsd hivd
  have hs0 : ScatterDims.start ⟨[], [0], [0], 1, wf⟩ (ix1 e) idx 0 = (idx (ix2 e 0)).toInt := by
    unfold ScatterDims.start
    split
    · congr 2
      funext b
      apply Fin.ext
      match b with
      | ⟨0, _⟩ => rfl
      | ⟨1, _⟩ => rfl
    · next ha => exact absurd (show (0 : Fin 1) ∈ ([0] : List (Fin 1)) by decide) ha
  have hw0 : ScatterDims.window ⟨[], [0], [0], 1, wf⟩ (ix1 e) 0 = 0 := by
    unfold ScatterDims.window
    split
    · next ha => exact absurd ha (show (0 : Fin 1) ∉ ([] : List (Fin 1)) by decide)
    · rfl
  unfold ScatterDims.resultIdx?
  split
  · next h =>
    have h0 := h 0
    rw [hs0, hw0] at h0
    constructor
    · intro hf
      have hf' := Option.some.inj hf
      have e0 : (ScatterDims.start ⟨[], [0], [0], 1, wf⟩ (ix1 e) idx 0
          + (ScatterDims.window ⟨[], [0], [0], 1, wf⟩ (ix1 e) 0 : ℕ)).toNat = v.val :=
        congrArg (fun f : (⟨1, ![N]⟩ : Shape).Idx => (f 0).val) hf'
      rw [hs0, hw0] at e0
      omega
    · intro hv
      congr 1
      funext a
      apply Fin.ext
      match a with
      | ⟨0, _⟩ =>
        show (ScatterDims.start ⟨[], [0], [0], 1, wf⟩ (ix1 e) idx 0
          + (ScatterDims.window ⟨[], [0], [0], 1, wf⟩ (ix1 e) 0 : ℕ)).toNat = v.val
        rw [hs0, hw0]; omega
  · next h =>
    constructor
    · intro hf; exact absurd hf (by simp)
    · intro hv
      exfalso
      apply h
      intro a
      match a with
      | ⟨0, _⟩ =>
        show 0 ≤ ScatterDims.start ⟨[], [0], [0], 1, wf⟩ (ix1 e) idx 0
            + (ScatterDims.window ⟨[], [0], [0], 1, wf⟩ (ix1 e) 0 : ℕ)
          ∧ ScatterDims.start ⟨[], [0], [0], 1, wf⟩ (ix1 e) idx 0
            + (ScatterDims.window ⟨[], [0], [0], 1, wf⟩ (ix1 e) 0 : ℕ) < (N : ℤ)
        rw [hs0, hw0]
        have := v.isLt
        omega

/-- THE VECTOR SCATTER-ADD AT `v` (a segment sum): the operand's element plus the sum of the update elements
    `e` whose index word read signed equals `v`. -/
theorem hostScatterAdd_vec {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (x : (⟨1, ![N]⟩ : Shape).Idx → EReal) (idx : IVec ⟨2, ![n, 1]⟩ w)
    (upd : (⟨1, ![n]⟩ : Shape).Idx → EReal) (v : Fin N) :
    Ideal.hostScatterAdd d x idx upd (ix1 v)
      = x (ix1 v)
        + ∑ e ∈ Finset.univ.filter (fun e : Fin n => (idx (ix2 e 0)).toInt = (v.val : ℤ)), upd (ix1 e) := by
  classical
  unfold Ideal.hostScatterAdd
  congr 1
  rw [Finset.sum_filter, sum_idx1, Finset.sum_filter]
  refine Finset.sum_congr rfl (fun e _ => ?_)
  simp only [resultIdx_vec d huw hiw hsd hivd]

/-- The same for the scatter-add operation at the ideal instance (any float format). -/
theorem scatterAdd_vec {φ : FTy} {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (x : FVec Ideal ⟨1, ![N]⟩ φ) (idx : IVec ⟨2, ![n, 1]⟩ w)
    (upd : FVec Ideal ⟨1, ![n]⟩ φ) (v : Fin N) :
    Host.scatterAdd (F := Ideal) d x idx upd (ix1 v)
      = x (ix1 v)
        + ∑ e ∈ Finset.univ.filter (fun e : Fin n => (idx (ix2 e 0)).toInt = (v.val : ℤ)), upd (ix1 e) := by
  unfold Host.scatterAdd
  rw [Ideal.hostScatterAdd_def]
  exact hostScatterAdd_vec d huw hiw hsd hivd x idx upd v

end Cert.LibScatterGatherRows
-- ==== Proof.Embed.lean ====
import proofs.«406964_j88648124990131_1_alg».proof.Proof.Terms
import proofs.«406964_j88648124990131_1_alg».proof.Proof.Gen.ReferenceIdeal.Read
import proofs.«406964_j88648124990131_1_alg».proof.Proof.Spec
import proofs.«406964_j88648124990131_1_alg».proof.Proof.LibIndexWords
import proofs.«406964_j88648124990131_1_alg».proof.Proof.LibScatterGatherRows

/-!
The embedding law: a lookup of rows of a table is the product of the one-hot rows of the indices with the
table, when every index names a row. Row `r` of the one-hot array is 1 at column `x r` and 0 elsewhere, so
the sum over the table's rows keeps the one term at `x r`; on the extended reals `0 * y = 0` for every `y`,
so nothing is asked of the table's entries. The lookup wraps a negative index and clamps the rest into the
table; an index already in range passes both unchanged.
-/

set_option maxRecDepth 16384

noncomputable section

namespace Cert.Embed

open Idealize.ShloMosaic Idealize.ShloMosaic.ValueIdx

/-- The index column of the one-hot comparison: the vector of indices laid as a column and repeated along
    40 columns reads, at `(r, k)`, the `r`-th index. -/
theorem idxGrid_apply (x : IVec Cert.KernelIdeal.S50000 32) (r : Fin 50000) (k : Fin 40) :
    broadcastInDim Cert.KernelIdeal.S50000x40 ![0, 1] Cert.KernelIdeal.Facts₀.bcast_S50000x1_S50000x40_0_1
      (broadcastInDim Cert.KernelIdeal.S50000x1 ![0] Cert.KernelIdeal.Facts₀.bcast_S50000_S50000x1_0 x) (ix2 r k) = x (ix1 r) := by
  rw [broadcastInDim_apply _ _ _ (ix2 r k) (ix2 r (0 : Fin 1)) (fun a => match a with
    | ⟨0, _⟩ => by show r.val = if (50000 : Nat) = 1 then 0 else r.val; rw [if_neg (by decide)]
    | ⟨1, _⟩ => by show (0 : Nat) = if (1 : Nat) = 1 then 0 else k.val; rw [if_pos rfl])]
  exact broadcastInDim_apply _ _ x (ix2 r (0 : Fin 1)) (ix1 r) (fun a => match a with
    | ⟨0, _⟩ => by show r.val = if (50000 : Nat) = 1 then 0 else r.val; rw [if_neg (by decide)])

/-- The column numbers `0 … 39` laid as a row and repeated along 50000 rows read, at `(r, k)`, the word of `k`. -/
theorem colGrid_apply (r : Fin 50000) (k : Fin 40) :
    broadcastInDim Cert.KernelIdeal.S50000x40 ![0, 1] Cert.KernelIdeal.Facts₀.bcast_S1x40_S50000x40_0_1
      (iotaInDim Cert.KernelIdeal.S1x40 32 1) (ix2 r k) = BitVec.ofNat 32 k.val := by
  rw [broadcastInDim_apply _ _ _ (ix2 r k) (ix2 (0 : Fin 1) k) (fun a => match a with
    | ⟨0, _⟩ => by show (0 : Nat) = if (1 : Nat) = 1 then 0 else r.val; rw [if_pos rfl]
    | ⟨1, _⟩ => by show k.val = if (40 : Nat) = 1 then 0 else k.val; rw [if_neg (by decide)])]
  rfl

/-- A one-bit word read as an unsigned number on the extended reals: the bit of a true statement is 1, of a
    false one 0. -/
theorem bit_toEReal (p : Bool) :
    (FloatOps.uitofp (F := Ideal) .bf16 (BitVec.ofBool p) : EReal) = if p = true then 1 else 0 := by
  cases p
  · show (((BitVec.ofBool false).toNat : ℝ) : EReal) = 0
    simp
  · show (((BitVec.ofBool true).toNat : ℝ) : EReal) = 1
    simp

/-- Two column numbers below 40 with the same 32-bit word are the same column. -/
theorem ofNat_inj40 {a b : Fin 40} (h : BitVec.ofNat 32 a.val = BitVec.ofNat 32 b.val) : a = b := by
  have h' := congrArg BitVec.toNat h
  simp only [BitVec.toNat_ofNat] at h'
  have ha := a.isLt
  have hb := b.isLt
  apply Fin.ext
  omega

/-- THE ONE-HOT ENTRY: at `(r, k)` the array is 1 when the `r`-th index is the word of `k`, else 0. -/
theorem onehot_apply (x : IVec Cert.KernelIdeal.S50000 32) (r : Fin 50000) (k : Fin 40) :
    (Cert.KernelIdeal.Terms.onehot (F := Ideal) x (ix2 r k) : EReal)
      = if x (ix1 r) = BitVec.ofNat 32 k.val then 1 else 0 := by
  unfold Cert.KernelIdeal.Terms.onehot
  show (FloatOps.uitofp (F := Ideal) .bf16 (IntOp.cmpi .eq
      (broadcastInDim Cert.KernelIdeal.S50000x40 ![0, 1] Cert.KernelIdeal.Facts₀.bcast_S50000x1_S50000x40_0_1
        (broadcastInDim Cert.KernelIdeal.S50000x1 ![0] Cert.KernelIdeal.Facts₀.bcast_S50000_S50000x1_0 x) (ix2 r k))
      (broadcastInDim Cert.KernelIdeal.S50000x40 ![0, 1] Cert.KernelIdeal.Facts₀.bcast_S1x40_S50000x40_0_1
        (iotaInDim Cert.KernelIdeal.S1x40 32 1) (ix2 r k))) : EReal) = _
  rw [idxGrid_apply, colGrid_apply]
  show (FloatOps.uitofp (F := Ideal) .bf16 (BitVec.ofBool (x (ix1 r) == BitVec.ofNat 32 k.val)) : EReal) = _
  rw [bit_toEReal]
  simp only [beq_iff_eq]

/-- THE SUM KEEPS ONE TERM: when the `r`-th index is the word of the row number `k0`, the product of row `r`
    of the one-hot array with column `c` of a table is the table's entry `(k0, c)`. Every other term is
    `0 * y = 0`, whatever `y` is. -/
theorem onehot_row_sum (x : IVec Cert.KernelIdeal.S50000 32) (e : (⟨2, ![40, 128]⟩ : Shape).Idx → EReal)
    (r : Fin 50000) (c : Fin 128) (k0 : Fin 40) (hk : x (ix1 r) = BitVec.ofNat 32 k0.val) :
    ∑ k : Fin 40, (Cert.KernelIdeal.Terms.onehot (F := Ideal) x (ix2 r k) : EReal) * e (ix2 k c) = e (ix2 k0 c) := by
  rw [Finset.sum_eq_single k0]
  · rw [onehot_apply, if_pos hk, one_mul]
  · intro k _ hne
    rw [onehot_apply, if_neg, zero_mul]
    intro h
    exact hne (ofNat_inj40 (h.symm.trans hk)).symm.symm
  · intro h
    exact absurd (Finset.mem_univ k0) h

/-- THE LOOKUP'S INDEX COLUMN: the wrap of a negative index, `select(x < 0, x + 40, x)`, laid as a column, reads
    at row `r` the `r`-th index itself when that index is not negative. -/
theorem idxCol_apply (x : IVec Cert.KernelIdeal.S50000 32) (r : Fin 50000) (h0 : 0 ≤ (x (ix1 r)).toInt) :
    Cert.ReferenceIdeal.Read.val_main_v9 (F := Ideal) x (ix2 r (0 : Fin 1)) = x (ix1 r) := by
  have hj : Cert.ReferenceIdeal.Read.idx_main_v9 (ix2 r (0 : Fin 1)) = ix1 r := eq_ix1 _
  rw [Cert.ReferenceIdeal.Read.val_main_v9_apply, hj, Cert.ReferenceIdeal.Read.val_main_v8_apply,
    Cert.ReferenceIdeal.Read.val_main_v5_apply, Cert.ReferenceIdeal.Read.val_main_v7_apply,
    Cert.ReferenceIdeal.Read.val_main_v4_apply, Cert.ReferenceIdeal.Read.val_main_c_apply]
  exact Cert.LibIndexWords.wrap_of_nonneg _ _ h0

/-- Equal rows of a table have equal entries in every column. -/
theorem row_congr (e : (⟨2, ![40, 128]⟩ : Shape).Idx → EReal) {a b : Fin 40} (c : Fin 128) (h : a = b) :
    e (ix2 a c) = e (ix2 b c) := by rw [h]

/-- THE LOOKUP AT `(r, c)`: when the `r`-th index has the signed value `k0`, a row number of the table, the
    wrap and the clamp both pass it unchanged, and the lookup's entry is the table's entry `(k0, c)`. -/
theorem lookup_apply (x : IVec Cert.KernelIdeal.S50000 32) (e : FVec Ideal Cert.KernelIdeal.S40x128 .f32)
    (r : Fin 50000) (c : Fin 128) (k0 : Fin 40) (hk : (x (ix1 r)).toInt = (k0.val : ℤ)) :
    Cert.ReferenceIdeal.Read.val_main_v10 (F := Ideal) x e (ix2 r c) = e (ix2 k0 c) := by
  have h0 : 0 ≤ (x (ix1 r)).toInt := by rw [hk]; exact Int.natCast_nonneg _
  unfold Cert.ReferenceIdeal.Read.val_main_v10
  refine (Cert.LibScatterGatherRows.gather_rows_ideal _ rfl rfl rfl rfl rfl e _ r c (by decide)).trans
    (row_congr e c ?_)
  apply Fin.ext
  show min (Cert.ReferenceIdeal.Read.val_main_v9 (F := Ideal) x (ix2 r (0 : Fin 1))).toInt.toNat (40 - 1) = k0.val
  rw [idxCol_apply x r h0]
  exact Cert.LibIndexWords.clamp_of_eq _ 40 k0 hk

/-- The one-hot product is the table lookup, for indices in `[0, 40)`. -/
theorem embed_eq (x : IVec Cert.KernelIdeal.S50000 32) (e : FVec Ideal Cert.KernelIdeal.S40x128 .f32)
    (hx : ∀ i, 0 ≤ (x i).toInt ∧ (x i).toInt < 40) :
    Cert.SageSpec.mm (Cert.KernelIdeal.Terms.onehot (F := Ideal) x) e = Cert.ReferenceIdeal.Read.val_main_v10 (F := Ideal) x e := by
  funext i
  obtain ⟨r, c, rfl⟩ : ∃ (r : Fin 50000) (c : Fin 128), i = ix2 r c := ⟨i 0, i 1, eq_ix2 i⟩
  -- the `r`-th index names a row `k0` of the table, and is the word of `k0`
  obtain ⟨k0, hk0⟩ := Cert.LibIndexWords.toInt_eq_fin_of_mem (N := 40) (hx (ix1 r)).1 (hx (ix1 r)).2
  have hw : x (ix1 r) = BitVec.ofNat 32 k0.val :=
    Cert.LibIndexWords.eq_ofNat_of_toInt_eq (by have := k0.isLt; omega) hk0
  rw [lookup_apply x e r c k0 hk0]
  exact onehot_row_sum x e r c k0 hw

end Cert.Embed

end
-- ==== Proof.RefStages.lean ====
import proofs.«406964_j88648124990131_1_alg».proof.Proof.Gen.ReferenceIdeal.Read
import proofs.«406964_j88648124990131_1_alg».proof.Proof.Spec

/-!
The reference's three dense stages, index by index: each layer's output and the result are the functions
`sage` and `lin` of the stage's operands, the operands themselves left as the reference's own terms.
-/

set_option maxRecDepth 16384

noncomputable section

namespace Cert.ReferenceIdeal.Stages

open Cert.ReferenceIdeal Cert.ReferenceIdeal.Read Idealize.ShloMosaic Idealize.ShloMosaic.ValueIdx

/-! ## Where each product reads its factors

A matrix product's entry `(r, c)` reads its left factor at `(r, k)` and its right factor at `(k, c)`; the bias
row, reshaped to one row and repeated down the rows, is read at column `c`. -/

/-- First layer, neighbour-mean product: the left factor is read at row `r`, column `k`. -/
theorem lidx_v29 (i : S50000x256.Idx) (k : Fin 128) : lidx_main_v29 i k = ix2 (Cert.SageSpec.row i) k :=
  funext fun a => Fin.ext (by match a with | ⟨0, _⟩ => rfl | ⟨1, _⟩ => rfl)
/-- First layer, neighbour-mean product: the right factor is read at row `k`, column `c`. -/
theorem ridx_v29 (i : S50000x256.Idx) (k : Fin 128) : ridx_main_v29 i k = ix2 k (Cert.SageSpec.col i) :=
  funext fun a => Fin.ext (by match a with | ⟨0, _⟩ => rfl | ⟨1, _⟩ => rfl)
/-- First layer, own-features product: the left factor is read at row `r`, column `k`. -/
theorem lidx_v30 (i : S50000x256.Idx) (k : Fin 128) : lidx_main_v30 i k = ix2 (Cert.SageSpec.row i) k :=
  funext fun a => Fin.ext (by match a with | ⟨0, _⟩ => rfl | ⟨1, _⟩ => rfl)
/-- First layer, own-features product: the right factor is read at row `k`, column `c`. -/
theorem ridx_v30 (i : S50000x256.Idx) (k : Fin 128) : ridx_main_v30 i k = ix2 k (Cert.SageSpec.col i) :=
  funext fun a => Fin.ext (by match a with | ⟨0, _⟩ => rfl | ⟨1, _⟩ => rfl)
/-- First layer: the repeated bias row at `(r, c)` is the bias vector's entry `c`. -/
theorem bidx_v33 (i : S50000x256.Idx) :
    idx_main_v32 (idx_main_v33 i) = ix1 (Cert.SageSpec.col (n := 1) (d := 256) (ix2 0 (Cert.SageSpec.col i))) :=
  funext fun a => Fin.ext (by match a with | ⟨0, _⟩ => rfl)

/-- Second layer, neighbour-mean product: the left factor is read at row `r`, column `k`. -/
theorem lidx_v54 (i : S50000x256.Idx) (k : Fin 256) : lidx_main_v54 i k = ix2 (Cert.SageSpec.row i) k :=
  funext fun a => Fin.ext (by match a with | ⟨0, _⟩ => rfl | ⟨1, _⟩ => rfl)
/-- Second layer, neighbour-mean product: the right factor is read at row `k`, column `c`. -/
theorem ridx_v54 (i : S50000x256.Idx) (k : Fin 256) : ridx_main_v54 i k = ix2 k (Cert.SageSpec.col i) :=
  funext fun a => Fin.ext (by match a with | ⟨0, _⟩ => rfl | ⟨1, _⟩ => rfl)
/-- Second layer, own-features product: the left factor is read at row `r`, column `k`. -/
theorem lidx_v55 (i : S50000x256.Idx) (k : Fin 256) : lidx_main_v55 i k = ix2 (Cert.SageSpec.row i) k :=
  funext fun a => Fin.ext (by match a with | ⟨0, _⟩ => rfl | ⟨1, _⟩ => rfl)
/-- Second layer, own-features product: the right factor is read at row `k`, column `c`. -/
theorem ridx_v55 (i : S50000x256.Idx) (k : Fin 256) : ridx_main_v55 i k = ix2 k (Cert.SageSpec.col i) :=
  funext fun a => Fin.ext (by match a with | ⟨0, _⟩ => rfl | ⟨1, _⟩ => rfl)
/-- Second layer: the repeated bias row at `(r, c)` is the bias vector's entry `c`. -/
theorem bidx_v58 (i : S50000x256.Idx) :
    idx_main_v57 (idx_main_v58 i) = ix1 (Cert.SageSpec.col (n := 1) (d := 256) (ix2 0 (Cert.SageSpec.col i))) :=
  funext fun a => Fin.ext (by match a with | ⟨0, _⟩ => rfl)

/-- Closing product: the left factor is read at row `r`, column `k`. -/
theorem lidx_v72 (i : S256x10.Idx) (k : Fin 256) : lidx_main_v72 i k = ix2 (Cert.SageSpec.row i) k :=
  funext fun a => Fin.ext (by match a with | ⟨0, _⟩ => rfl | ⟨1, _⟩ => rfl)
/-- Closing product: the right factor is read at row `k`, column `c`. -/
theorem ridx_v72 (i : S256x10.Idx) (k : Fin 256) : ridx_main_v72 i k = ix2 k (Cert.SageSpec.col i) :=
  funext fun a => Fin.ext (by match a with | ⟨0, _⟩ => rfl | ⟨1, _⟩ => rfl)
/-- Closing map: the repeated bias row at `(r, c)` is the bias vector's entry `c`. -/
theorem bidx_v74 (i : S256x10.Idx) :
    idx_main_v73 (idx_main_v74 i) = ix1 (Cert.SageSpec.col (n := 1) (d := 10) (ix2 0 (Cert.SageSpec.col i))) :=
  funext fun a => Fin.ext (by match a with | ⟨0, _⟩ => rfl)

/-! ## The three stages -/

/-- The first layer's output: the layer's dense half of the neighbour mean and of the embedded features. -/
theorem layer1 (x0 : (⟨S50000, .i32⟩ : BufTy).Contents (Elt Ideal)) (x1 : (⟨S2x800000, .i32⟩ : BufTy).Contents (Elt Ideal)) (x3 : (⟨S40x128, .f32⟩ : BufTy).Contents (Elt Ideal)) (x4 x5 : (⟨S128x256, .f32⟩ : BufTy).Contents (Elt Ideal)) (x6 : (⟨S256, .f32⟩ : BufTy).Contents (Elt Ideal)) :
    val_main_v35 (F := Ideal) x0 x1 x3 x4 x5 x6
      = Cert.SageSpec.sage (val_main_v28 (F := Ideal) x0 x1 x3) (val_main_v10 (F := Ideal) x0 x3) x4 x5 (Cert.SageSpec.rowOf x6) := by
  funext i
  rw [val_main_v35_apply, val_main_v34_apply, val_main_v31_apply, val_main_v29_apply, val_main_v30_apply,
    val_main_v33_apply, val_main_v32_apply, val_main_call0_v0_apply, val_main_call0_cst_apply]
  simp only [lidx_v29, ridx_v29, lidx_v30, ridx_v30, bidx_v33, Ideal.maximumf_def, Ideal.addf_def, Ideal.ofBits_def,
    Ideal.ofBits_zero_f32, Cert.SageSpec.sage, Cert.SageSpec.mm, Cert.SageSpec.rowOf]

/-- The second layer's output: the layer's dense half of the neighbour mean of the first layer's output and of that output. -/
theorem layer2 (x0 : (⟨S50000, .i32⟩ : BufTy).Contents (Elt Ideal)) (x1 : (⟨S2x800000, .i32⟩ : BufTy).Contents (Elt Ideal)) (x3 : (⟨S40x128, .f32⟩ : BufTy).Contents (Elt Ideal)) (x4 x5 : (⟨S128x256, .f32⟩ : BufTy).Contents (Elt Ideal)) (x6 : (⟨S256, .f32⟩ : BufTy).Contents (Elt Ideal)) (x7 x8 : (⟨S256x256, .f32⟩ : BufTy).Contents (Elt Ideal)) (x9 : (⟨S256, .f32⟩ : BufTy).Contents (Elt Ideal)) :
    val_main_v60 (F := Ideal) x0 x1 x3 x4 x5 x6 x7 x8 x9
      = Cert.SageSpec.sage (val_main_v53 (F := Ideal) x0 x1 x3 x4 x5 x6) (val_main_v35 (F := Ideal) x0 x1 x3 x4 x5 x6) x7 x8 (Cert.SageSpec.rowOf x9) := by
  funext i
  rw [val_main_v60_apply, val_main_v59_apply, val_main_v56_apply, val_main_v54_apply, val_main_v55_apply,
    val_main_v58_apply, val_main_v57_apply, val_main_call1_v0_apply, val_main_call1_cst_apply]
  simp only [lidx_v54, ridx_v54, lidx_v55, ridx_v55, bidx_v58, Ideal.maximumf_def, Ideal.addf_def, Ideal.ofBits_def,
    Ideal.ofBits_zero_f32, Cert.SageSpec.sage, Cert.SageSpec.mm, Cert.SageSpec.rowOf]

/-- The result: the closing linear map of the pooled features. -/
theorem out (x0 : (⟨S50000, .i32⟩ : BufTy).Contents (Elt Ideal)) (x1 : (⟨S2x800000, .i32⟩ : BufTy).Contents (Elt Ideal)) (x2 : (⟨S50000, .i32⟩ : BufTy).Contents (Elt Ideal)) (x3 : (⟨S40x128, .f32⟩ : BufTy).Contents (Elt Ideal)) (x4 x5 : (⟨S128x256, .f32⟩ : BufTy).Contents (Elt Ideal)) (x6 : (⟨S256, .f32⟩ : BufTy).Contents (Elt Ideal)) (x7 x8 : (⟨S256x256, .f32⟩ : BufTy).Contents (Elt Ideal)) (x9 : (⟨S256, .f32⟩ : BufTy).Contents (Elt Ideal)) (x10 : (⟨S256x10, .f32⟩ : BufTy).Contents (Elt Ideal)) (x11 : (⟨S10, .f32⟩ : BufTy).Contents (Elt Ideal)) :
    val_main_v75 (F := Ideal) x0 x1 x2 x3 x4 x5 x6 x7 x8 x9 x10 x11
      = Cert.SageSpec.lin (val_main_v71 (F := Ideal) x0 x1 x2 x3 x4 x5 x6 x7 x8 x9) x10 (Cert.SageSpec.rowOf x11) := by
  funext i
  rw [val_main_v75_apply, val_main_v72_apply, val_main_v74_apply, val_main_v73_apply]
  simp only [lidx_v72, ridx_v72, bidx_v74, Ideal.addf_def, Cert.SageSpec.lin, Cert.SageSpec.mm, Cert.SageSpec.rowOf]

end Cert.ReferenceIdeal.Stages

end
-- ==== Proof.RefBridge.lean ====
import proofs.«406964_j88648124990131_1_alg».proof.Proof.Terms
import proofs.«406964_j88648124990131_1_alg».proof.Proof.Gen.ReferenceIdeal.Read

/-!
The sparse half of each convolution layer (gather the source rows of every edge, add them up per destination,
divide by the in-degree) and the closing per-graph mean (add the nodes' rows up per graph, divide by the graph's
node count) are one composition of the same operations in both programs. Here the reference's stages are shown to
be those compositions, as named once over the other program's dimension records, applied to the reference's own
earlier stages. The two programs' dimension records are different constants with the same literal contents, so
every equation holds by unfolding the names: no array is read at an index and no gather or scatter is opened.
-/

set_option maxRecDepth 16384

noncomputable section

namespace Cert.ReferenceIdeal.Bridge

open Cert.ReferenceIdeal Cert.ReferenceIdeal.Read Idealize.ShloMosaic

variable {F : FTy → Type} [FloatOps F]

/-! ## The integer side: the edge list's two rows, the source column -/

/-- Row 0 of the edge list, as a vector: the edges' source nodes. -/
theorem src_eq (x1 : (⟨S2x800000, .i32⟩ : BufTy).Contents (Elt F)) :
    val_main_v1 (F := F) x1 = Cert.KernelIdeal.Terms.srcOf x1 := rfl

/-- Row 1 of the edge list, as a vector: the edges' destination nodes. -/
theorem dst_eq (x1 : (⟨S2x800000, .i32⟩ : BufTy).Contents (Elt F)) :
    val_main_v3 (F := F) x1 = Cert.KernelIdeal.Terms.dstOf x1 := rfl

/-- The first layer's index column: the source nodes, a negative one counted from the end of the 50000 rows. -/
theorem srcCol1_eq (x1 : (⟨S2x800000, .i32⟩ : BufTy).Contents (Elt F)) :
    val_main_v16 (F := F) x1 = Cert.KernelIdeal.Terms.srcCol (Cert.KernelIdeal.Terms.srcOf x1) := rfl

/-- The second layer's index column is the same column again. -/
theorem srcCol2_eq (x1 : (⟨S2x800000, .i32⟩ : BufTy).Contents (Elt F)) :
    val_main_v41 (F := F) x1 = Cert.KernelIdeal.Terms.srcCol (Cert.KernelIdeal.Terms.srcOf x1) := rfl

/-! ## The counts: in-degrees and graph sizes, each at least 1 -/

/-- The first layer's in-degrees: ones added up per destination, at least 1. -/
theorem deg1_eq (x1 : (⟨S2x800000, .i32⟩ : BufTy).Contents (Elt F)) :
    val_main_v26 (F := F) x1 = Cert.KernelIdeal.Terms.degOf (F := F) (Cert.KernelIdeal.Terms.dstOf x1) := rfl

/-- The second layer's in-degrees are the same sums again. -/
theorem deg2_eq (x1 : (⟨S2x800000, .i32⟩ : BufTy).Contents (Elt F)) :
    val_main_v51 (F := F) x1 = Cert.KernelIdeal.Terms.degOf (F := F) (Cert.KernelIdeal.Terms.dstOf x1) := rfl

/-- The graphs' node counts: ones added up per graph, at least 1. -/
theorem cnt_eq (x2 : (⟨S50000, .i32⟩ : BufTy).Contents (Elt F)) :
    val_main_v69 (F := F) x2 = Cert.KernelIdeal.Terms.cntOf (F := F) x2 := rfl

/-! ## The three means -/

/-- The first layer's neighbour mean is the mean over 128 features of the embedded rows: gathered along the source
    column, added up per destination, divided by the in-degree. -/
theorem mean1 (x0 : (⟨S50000, .i32⟩ : BufTy).Contents (Elt F)) (x1 : (⟨S2x800000, .i32⟩ : BufTy).Contents (Elt F)) (x3 : (⟨S40x128, .f32⟩ : BufTy).Contents (Elt F)) :
    val_main_v28 (F := F) x0 x1 x3 = Cert.KernelIdeal.Terms.mean128 (F := F) (val_main_v10 (F := F) x0 x3) (Cert.KernelIdeal.Terms.srcOf x1) (Cert.KernelIdeal.Terms.dstOf x1) (Cert.KernelIdeal.Terms.degOf (F := F) (Cert.KernelIdeal.Terms.dstOf x1)) := rfl

/-- The second layer's neighbour mean is the mean over 256 features of the first layer's output. -/
theorem mean2 (x0 : (⟨S50000, .i32⟩ : BufTy).Contents (Elt F)) (x1 : (⟨S2x800000, .i32⟩ : BufTy).Contents (Elt F)) (x3 : (⟨S40x128, .f32⟩ : BufTy).Contents (Elt F)) (x4 x5 : (⟨S128x256, .f32⟩ : BufTy).Contents (Elt F)) (x6 : (⟨S256, .f32⟩ : BufTy).Contents (Elt F)) :
    val_main_v53 (F := F) x0 x1 x3 x4 x5 x6 = Cert.KernelIdeal.Terms.mean256 (F := F) (val_main_v35 (F := F) x0 x1 x3 x4 x5 x6) (Cert.KernelIdeal.Terms.srcOf x1) (Cert.KernelIdeal.Terms.dstOf x1) (Cert.KernelIdeal.Terms.degOf (F := F) (Cert.KernelIdeal.Terms.dstOf x1)) := rfl

/-- The pooled features are the per-graph mean of the second layer's output: the nodes' rows added up per graph,
    divided by the graph's node count. -/
theorem pooled (x0 : (⟨S50000, .i32⟩ : BufTy).Contents (Elt F)) (x1 : (⟨S2x800000, .i32⟩ : BufTy).Contents (Elt F)) (x2 : (⟨S50000, .i32⟩ : BufTy).Contents (Elt F)) (x3 : (⟨S40x128, .f32⟩ : BufTy).Contents (Elt F)) (x4 x5 : (⟨S128x256, .f32⟩ : BufTy).Contents (Elt F)) (x6 : (⟨S256, .f32⟩ : BufTy).Contents (Elt F)) (x7 x8 : (⟨S256x256, .f32⟩ : BufTy).Contents (Elt F)) (x9 : (⟨S256, .f32⟩ : BufTy).Contents (Elt F)) :
    val_main_v71 (F := F) x0 x1 x2 x3 x4 x5 x6 x7 x8 x9 = Cert.KernelIdeal.Terms.pool (F := F) (val_main_v60 (F := F) x0 x1 x3 x4 x5 x6 x7 x8 x9) x2 (Cert.KernelIdeal.Terms.cntOf (F := F) x2) := rfl

end Cert.ReferenceIdeal.Bridge

end
-- ==== Proof.Closing.lean ====
import proofs.«406964_j88648124990131_1_alg».proof.Proof.Whole
import proofs.«406964_j88648124990131_1_alg».proof.Proof.Embed
import proofs.«406964_j88648124990131_1_alg».proof.Proof.RefStages
import proofs.«406964_j88648124990131_1_alg».proof.Proof.RefBridge
import Idealize.ShloMosaic.Lib.Pipeline.Value
import Idealize.ShloMosaic.Lib.ValueIdx

/-!
The closing equation: the program's value, written as one function of its twelve arguments, is the
reference's result at the same arguments. The embedded features are the reference's lookup; each neighbour
mean is the reference's; each layer is the reference's layer; the per-graph mean and the closing linear map
are the reference's.
-/

set_option maxRecDepth 16384

noncomputable section

namespace Cert.Closing

open Cert.KernelIdeal Cert.KernelIdeal.Facts₀ Cert.KernelIdeal.Terms Idealize.ShloMosaic Idealize.ShloMosaic.ValueIdx

/-- Narrowing a float array to a shorter format changes nothing on the extended reals. -/
theorem truncf_id {s : Shape} (v : FVec Ideal s .f32) : truncf .bf16 v bitsLt_bf16_f32 = v := rfl

/-- A vector of 256 entries reshaped to one row is that row: entry `(0, c)` is the vector's entry `c`. -/
theorem biasRow256 (b : FVec Ideal S256 .f32) : shapeCast S1x256 b shapeCasts_S256_S1x256 = Cert.SageSpec.rowOf b := by
  funext i
  refine shapeCast_apply b shapeCasts_S256_S1x256 i (ix1 (Cert.SageSpec.col i)) ?_
  rewrite [Shape.rowMajor_val_two, Shape.rowMajor_val_one]
  have h0 : (i 0).val < 1 := (i 0).isLt
  show (i 1).val = (i 0).val * 256 + (i 1).val
  omega

/-- A vector of 10 entries reshaped to one row is that row. -/
theorem biasRow10 (b : FVec Ideal S10 .f32) : shapeCast S1x10 b shapeCasts_S10_S1x10 = Cert.SageSpec.rowOf b := by
  funext i
  refine shapeCast_apply b shapeCasts_S10_S1x10 i (ix1 (Cert.SageSpec.col i)) ?_
  rewrite [Shape.rowMajor_val_two, Shape.rowMajor_val_one]
  have h0 : (i 0).val < 1 := (i 0).isLt
  show (i 1).val = (i 0).val * 10 + (i 1).val
  omega

section
variable (x : IVec S50000 32) (ei : IVec S2x800000 32) (bt : IVec S50000 32) (emb : FVec Ideal S40x128 .f32)
  (w1l w1r : FVec Ideal S128x256 .f32) (b1 : FVec Ideal S256 .f32) (w2l w2r : FVec Ideal S256x256 .f32) (b2 : FVec Ideal S256 .f32)
  (wo : FVec Ideal S256x10 .f32) (bo : FVec Ideal S10 .f32)

/-- The embedded features are the reference's table lookup, when every index names a row of the table. -/
theorem h0_eq (hx : ∀ i, 0 ≤ (x i).toInt ∧ (x i).toInt < 40) :
    Whole.h0 x emb = Cert.ReferenceIdeal.Read.val_main_v10 (F := Ideal) x emb := by
  unfold Whole.h0
  rw [truncf_id]
  exact Cert.Embed.embed_eq x emb hx

/-- The first layer's features are the reference's. -/
theorem h1_eq (hx : ∀ i, 0 ≤ (x i).toInt ∧ (x i).toInt < 40) :
    Whole.h1 x ei emb w1l w1r b1 = Cert.ReferenceIdeal.Read.val_main_v35 (F := Ideal) x ei emb w1l w1r b1 := by
  unfold Whole.h1
  rw [truncf_id, truncf_id, truncf_id, truncf_id, biasRow256, h0_eq x emb hx,
    ← Cert.ReferenceIdeal.Bridge.mean1 (F := Ideal) x ei emb]
  exact (Cert.ReferenceIdeal.Stages.layer1 x ei emb w1l w1r b1).symm

/-- The second layer's features are the reference's. -/
theorem h2_eq (hx : ∀ i, 0 ≤ (x i).toInt ∧ (x i).toInt < 40) :
    Whole.h2 x ei emb w1l w1r b1 w2l w2r b2 = Cert.ReferenceIdeal.Read.val_main_v60 (F := Ideal) x ei emb w1l w1r b1 w2l w2r b2 := by
  unfold Whole.h2
  rw [truncf_id, truncf_id, truncf_id, truncf_id, biasRow256, h1_eq x ei emb w1l w1r b1 hx,
    ← Cert.ReferenceIdeal.Bridge.mean2 (F := Ideal) x ei emb w1l w1r b1]
  exact (Cert.ReferenceIdeal.Stages.layer2 x ei emb w1l w1r b1 w2l w2r b2).symm

/-- The program's value is the reference's result. -/
theorem out_eq (hx : ∀ i, 0 ≤ (x i).toInt ∧ (x i).toInt < 40) :
    Whole.out x ei bt emb w1l w1r b1 w2l w2r b2 wo bo = Cert.ReferenceIdeal.Read.val_main_v75 (F := Ideal) x ei bt emb w1l w1r b1 w2l w2r b2 wo bo := by
  unfold Whole.out
  rw [truncf_id, truncf_id, biasRow10, h2_eq x ei emb w1l w1r b1 w2l w2r b2 hx,
    ← Cert.ReferenceIdeal.Bridge.pooled (F := Ideal) x ei bt emb w1l w1r b1 w2l w2r b2]
  exact (Cert.ReferenceIdeal.Stages.out x ei bt emb w1l w1r b1 w2l w2r b2 wo bo).symm
end

end Cert.Closing

end
-- ==== Proof.PreFacts.lean ====
import proofs.«406964_j88648124990131_1_alg».proof.Pre_finite_inputs
import proofs.«406964_j88648124990131_1_alg».proof.Proof.Gen.Pre_finite_inputs
import Idealize.ShloMosaic.PureOps.Ideal
import Idealize.ShloMosaic.Lib.ReduceAll
import Idealize.ShloMosaic.Lib.StableHlo.Predicate
import Idealize.ShloMosaic.Lib.ValueIdx

/-!
The one fact the proof takes from the precondition: every entry of the index vector is a row of the
40-row table, as a signed number.
-/

set_option maxRecDepth 16384

noncomputable section

namespace Cert.PreFacts

open Cert.Pre_finite_inputs Idealize.ShloMosaic

variable {F : FTy → Type} [FloatOps F] [hP : Cert.Pre_finite_inputs.Facts]

/-- An array of no axes has exactly one index. -/
instance subsingleton_scalar_idx : Subsingleton S_.Idx := ⟨fun a b => funext fun d => d.elim0⟩

/-- The lower bound read as a signed number: the word `0` is the number 0. -/
theorem toInt_zero32 : (0#32 : BitVec 32).toInt = 0 := by decide
/-- The upper bound read as a signed number: the word `40` is the number 40. -/
theorem toInt_forty32 : (40#32 : BitVec 32).toInt = 40 := by decide

/-- One word between the two bounds: where both signed comparisons (`w ≥ 0` and `w < 40`) give the bit 1 and so
    does their conjunction, the word read as a signed number lies in `[0, 40)`. -/
theorem word_range (w : BitVec 32)
    (e : IntOp.andi (IntOp.cmpi .sge w (0#32)) (IntOp.cmpi .slt w (40#32)) = 1#1) :
    0 ≤ w.toInt ∧ w.toInt < 40 := by
  obtain ⟨hge, hlt⟩ := IntOp.andi_eq_one.1 e
  have h0 := IntOp.cmpi_sge.1 hge
  have h40 := IntOp.cmpi_slt.1 hlt
  rw [toInt_zero32] at h0
  rw [toInt_forty32] at h40
  exact ⟨h0, h40⟩

/-- The array of range bits: at every position `i` of a 50000-vector `x`, the conjunction of `x i ≥ 0` and
    `x i < 40`, each bound a scalar constant spread over the vector. Where its conjunction over ALL positions
    (the reduction by `and` from 1 over the one axis) is 1, every entry of `x` is in `[0, 40)`. -/
theorem all_range (x : IVec S50000 32)
    (e : Host.reduce IntOp.andi
          (andi (cmpi .sge x (broadcastInDim S50000 ![] hP.bcast_S_S50000 (constantI S_ 32 0#32)))
                (cmpi .slt x (broadcastInDim S50000 ![] hP.bcast_S_S50000 (constantI S_ 32 40#32))))
          (constantI S_ 1 1#1) hP.reducesTo_S50000_S_d0 hP.h_S_ ValueIdx.ix0 = 1#1)
    (i : S50000.Idx) : 0 ≤ (x i).toInt ∧ (x i).toInt < 40 := by
  have hi := Host.reduce_andi_all _ _ _ _ _ e i
  exact word_range (x i) hi

/-- Where the printed precondition is all ones, every index word is in `[0, 40)` as a signed number. -/
theorem x_range (a0 : IVec S50000 32) (a1 : IVec S2x800000 32) (a2 : IVec S50000 32) (a3 : FVec F S40x128 .f32) (a4 a5 : FVec F S128x256 .f32)
    (a6 : FVec F S256 .f32) (a7 a8 : FVec F S256x256 .f32) (a9 : FVec F S256 .f32) (a10 : FVec F S256x10 .f32) (a11 : FVec F S10 .f32)
    (h : Cert.Pre_finite_inputs.fn (F := F) a0 a1 a2 a3 a4 a5 a6 a7 a8 a9 a10 a11 = fun _ => 1#1) (i : S50000.Idx) :
    0 ≤ (a0 i).toInt ∧ (a0 i).toInt < 40 := by
  -- the precondition at the one index of its rank-0 result: a chain of conjunctions whose last member is the range test
  have e := congrFun h ValueIdx.ix0
  dsimp only [Cert.Pre_finite_inputs.fn, Cert.Pre_finite_inputs.fn_part1, Cert.Pre_finite_inputs.fn_part2] at e
  exact all_range a0 (IntOp.andi_eq_one.1 e).2 i

end Cert.PreFacts

end
-- ==== Proof.lean ====
/- The certificate of a two-layer graph-convolution classifier against its plain reference, over the extended reals.

   The kernel program embeds each node by the product of its one-hot row with the 40-row table, runs two
   convolution layers — the mean of the neighbours' features through one weight array, the node's own features
   through another, a bias, a cut at zero — whose dense halves are tiled matrix products over blocks of 2000
   nodes, and closes with the per-graph mean through a last linear map. The reference looks the rows up in the
   table and computes the same layers with whole-array products. The sparse half of a layer (gather the source
   rows of every edge, add them up per destination, divide by the in-degree) and the closing per-graph mean are
   the same operations in both programs and are never opened.

   The two programs agree wherever every node's index names a row of the table: a one-hot row of an index
   outside the 40 rows is all zeros, while a lookup wraps and clamps such an index to a row. Under that range
   fact, which the precondition states, the one-hot product is the lookup (on the extended reals 0 · y = 0 and
   1 · y = y for every y, so nothing is asked of the table), each tiled product is the whole-array product row by
   row, and narrowing a float to a shorter format changes nothing; no law that needs finiteness is used.

   The kernel program's run is read at its last boundary: the result buffer holds the last region's output array,
   each region's output array is the dense function of the arrays it was entered with, and the host operations
   between the regions turn those into the next region's inputs. Each frame is its program's
   run with the result dropped; the idealization's ledger is empty. -/
import proofs.«406964_j88648124990131_1_alg».proof.Defs
import proofs.«406964_j88648124990131_1_alg».proof.Proof.Gen.Kernel
import proofs.«406964_j88648124990131_1_alg».proof.Proof.Gen.Kernel.Skeleton
import proofs.«406964_j88648124990131_1_alg».proof.Proof.Gen.Kernel.Launch
import proofs.«406964_j88648124990131_1_alg».proof.Proof.Gen.Kernel.Points
import proofs.«406964_j88648124990131_1_alg».proof.Proof.Gen.Kernel.Frame
import proofs.«406964_j88648124990131_1_alg».proof.Proof.Gen.KernelIdeal
import proofs.«406964_j88648124990131_1_alg».proof.Proof.Gen.KernelIdeal.Skeleton
import proofs.«406964_j88648124990131_1_alg».proof.Proof.Gen.KernelIdeal.Launch
import proofs.«406964_j88648124990131_1_alg».proof.Proof.Gen.KernelIdeal.Points
import proofs.«406964_j88648124990131_1_alg».proof.Proof.Gen.KernelIdeal.Frame
import proofs.«406964_j88648124990131_1_alg».proof.Proof.Gen.ReferenceIdeal
import proofs.«406964_j88648124990131_1_alg».proof.Proof.Gen.ReferenceIdeal.Run
import proofs.«406964_j88648124990131_1_alg».proof.Proof.Gen.ReferenceIdeal.Read
import proofs.«406964_j88648124990131_1_alg».proof.Proof.Gen.Pre_finite_inputs
import proofs.«406964_j88648124990131_1_alg».proof.Proof.RunNamed
import proofs.«406964_j88648124990131_1_alg».proof.Proof.Composed
import proofs.«406964_j88648124990131_1_alg».proof.Proof.Closing
import proofs.«406964_j88648124990131_1_alg».proof.Proof.PreFacts
import Idealize.ShloMosaic.Adequacy
import Idealize.ShloMosaic.Init

set_option maxRecDepth 16384

noncomputable section

namespace Cert.Proof

open Idealize.ShloMosaic Idealize.SL.Sem

/-- The word-level kernel program runs, faults nowhere and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the twelve arguments, under the precondition, both programs end with the same
    result: the kernel program's result buffer holds the program's value of its arguments, the reference's holds
    its last stage of the same arguments, and the two are one function where every index names a row of the table. -/
theorem algebraic : Cert.algebraic_KernelIdeal_ReferenceIdeal := by
  intro m ρ m' ρ' hpre hagree
  refine ⟨_, (θ_run _ _ _).mono (fun r h c => ⟨(h c).1.trans (Cert.KernelIdeal.Composed.result m ρ c), (h c).2⟩)
    (Cert.KernelIdeal.Named.run_named m ρ), ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11⟩ := hagree c
  rw [Cert.ReferenceIdeal.Read.val_main_v75_eq, e0, e1, e2, e3, e4, e5, e6, e7, e8, e9, e10, e11]
  exact (Cert.Closing.out_eq _ _ _ _ _ _ _ _ _ _ _ _
    (fun i => Cert.PreFacts.x_range _ _ _ _ _ _ _ _ _ _ _ _ (hpre c) i)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
